-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x180 : Shape := ⟨2, ![128, 180]⟩
abbrev S180 : Shape := ⟨1, ![180]⟩
abbrev S180x120 : Shape := ⟨2, ![180, 120]⟩
abbrev S120 : Shape := ⟨1, ![120]⟩
abbrev S120x16 : Shape := ⟨2, ![120, 16]⟩
abbrev S16 : Shape := ⟨1, ![16]⟩
abbrev S2x800000 : Shape := ⟨2, ![2, 800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x180 : S_.BroadcastsInDim S128x180 (![] : Fin 0 → Fin S128x180.rank)
  reducesTo_S128x180_S_d0_1 : S128x180.ReducesTo [0, 1] S_
  bcast_S_S180 : S_.BroadcastsInDim S180 (![] : Fin 0 → Fin S180.rank)
  reducesTo_S180_S_d0 : S180.ReducesTo [0] S_
  bcast_S_S180x120 : S_.BroadcastsInDim S180x120 (![] : Fin 0 → Fin S180x120.rank)
  reducesTo_S180x120_S_d0_1 : S180x120.ReducesTo [0, 1] S_
  bcast_S_S120 : S_.BroadcastsInDim S120 (![] : Fin 0 → Fin S120.rank)
  reducesTo_S120_S_d0 : S120.ReducesTo [0] S_
  bcast_S_S120x16 : S_.BroadcastsInDim S120x16 (![] : Fin 0 → Fin S120x16.rank)
  reducesTo_S120x16_S_d0_1 : S120x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S120 .f32) (main_arg5 : FVec F S120x16 .f32) (main_arg6 : FVec F S16 .f32) (main_v13 : IVec S_ 1) (main_v16 : IVec S180x120 1) : IVec S_ 1 :=
  let main_c_5 : IVec S_ 1 := constantI S_ 1 1#1
  let main_v17 : IVec S_ 1 := (fun x v => Host.reduce IntOp.andi x v reducesTo_S180x120_S_d0_1 h_S_) main_v16 main_c_5
  let main_v18 : IVec S_ 1 := andi main_v13 main_v17
  let main_v19 : FVec F S120 .f32 := Host.absf main_arg4
  let main_cst_6 : FVec F S_ .f32 := constant S_ .f32 0x7F800000#32
  let main_v20 : FVec F S120 .f32 := broadcastInDim S120 ![] bcast_S_S120 main_cst_6
  let main_v21 : IVec S120 1 := cmpf .olt main_v19 main_v20
  let main_c_7 : IVec S_ 1 := constantI S_ 1 1#1
  let main_v22 : IVec S_ 1 := (fun x v => Host.reduce IntOp.andi x v reducesTo_S120_S_d0 h_S_) main_v21 main_c_7
  let main_v23 : IVec S_ 1 := andi main_v18 main_v22
  let main_v24 : FVec F S120x16 .f32 := Host.absf main_arg5
  let main_cst_8 : FVec F S_ .f32 := constant S_ .f32 0x7F800000#32
  let main_v25 : FVec F S120x16 .f32 := broadcastInDim S120x16 ![] bcast_S_S120x16 main_cst_8
  let main_v26 : IVec S120x16 1 := cmpf .olt main_v24 main_v25
  let main_c_9 : IVec S_ 1 := constantI S_ 1 1#1
  let main_v27 : IVec S_ 1 := (fun x v => Host.reduce IntOp.andi x v reducesTo_S120x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : FVec F S128x180 .f32) (main_arg2 : FVec F S180 .f32) (main_arg3 : FVec F S180x120 .f32) (main_arg4 : FVec F S120 .f32) (main_arg5 : FVec F S120x16 .f32) (main_arg6 : FVec F S16 .f32) (main_arg7 : IVec S2x800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x180 .f32 := Host.absf main_arg1
  let main_cst_0 : FVec F S_ .f32 := constant S_ .f32 0x7F800000#32
  let main_v5 : FVec F S128x180 .f32 := broadcastInDim S128x180 ![] bcast_S_S128x180 main_cst_0
  let main_v6 : IVec S128x180 1 := cmpf .olt main_v4 main_v5
  let main_c_1 : IVec S_ 1 := constantI S_ 1 1#1
  let main_v7 : IVec S_ 1 := (fun x v => Host.reduce IntOp.andi x v reducesTo_S128x180_S_d0_1 h_S_) main_v6 main_c_1
  let main_v8 : IVec S_ 1 := andi main_v3 main_v7
  let main_v9 : FVec F S180 .f32 := Host.absf main_arg2
  let main_cst_2 : FVec F S_ .f32 := constant S_ .f32 0x7F800000#32
  let main_v10 : FVec F S180 .f32 := broadcastInDim S180 ![] bcast_S_S180 main_cst_2
  let main_v11 : IVec S180 1 := cmpf .olt main_v9 main_v10
  let main_c_3 : IVec S_ 1 := constantI S_ 1 1#1
  let main_v12 : IVec S_ 1 := (fun x v => Host.reduce IntOp.andi x v reducesTo_S180_S_d0 h_S_) main_v11 main_c_3
  let main_v13 : IVec S_ 1 := andi main_v8 main_v12
  let main_v14 : FVec F S180x120 .f32 := Host.absf main_arg3
  let main_cst_4 : FVec F S_ .f32 := constant S_ .f32 0x7F800000#32
  let main_v15 : FVec F S180x120 .f32 := broadcastInDim S180x120 ![] bcast_S_S180x120 main_cst_4
  let main_v16 : IVec S180x120 1 := cmpf .olt main_v14 main_v15
  fn_part1 (F := F) main_arg4 main_arg5 main_arg6 main_v13 main_v16
-- ==== Kernel.lean ====
abbrev S100000x128 : Shape := ⟨2, ![100000, 128]⟩
abbrev S128x180 : Shape := ⟨2, ![128, 180]⟩
abbrev S180 : Shape := ⟨1, ![180]⟩
abbrev S180x120 : Shape := ⟨2, ![180, 120]⟩
abbrev S120 : Shape := ⟨1, ![120]⟩
abbrev S120x16 : Shape := ⟨2, ![120, 16]⟩
abbrev S16 : Shape := ⟨1, ![16]⟩
abbrev S2x800000 : Shape := ⟨2, ![2, 800000]⟩
abbrev S1x800000 : Shape := ⟨2, ![1, 800000]⟩
abbrev S800000 : Shape := ⟨1, ![800000]⟩
abbrev S100000 : Shape := ⟨1, ![100000]⟩
abbrev S900000 : Shape := ⟨1, ![900000]⟩
abbrev S_ : Shape := ⟨0, ![]⟩
abbrev S900000x1 : Shape := ⟨2, ![900000, 1]⟩
abbrev S100000x180 : Shape := ⟨2, ![100000, 180]⟩
abbrev S2000x128 : Shape := ⟨2, ![2000, 128]⟩
abbrev S2000x180 : Shape := ⟨2, ![2000, 180]⟩
abbrev S900000x180 : Shape := ⟨2, ![900000, 180]⟩
abbrev S1x180 : Shape := ⟨2, ![1, 180]⟩
abbrev S100000x120 : Shape := ⟨2, ![100000, 120]⟩
abbrev S2000x120 : Shape := ⟨2, ![2000, 120]⟩
abbrev S900000x120 : Shape := ⟨2, ![900000, 120]⟩
abbrev S1x120 : Shape := ⟨2, ![1, 120]⟩
abbrev S1x16 : Shape := ⟨2, ![1, 16]⟩
abbrev S100000x16 : Shape := ⟨2, ![100000, 16]⟩
abbrev S2000x16 : Shape := ⟨2, ![2000, 16]⟩
abbrev S2000 : Shape := ⟨1, ![2000]⟩
abbrev S2000x1 : Shape := ⟨2, ![2000, 1]⟩

abbrev nBuf : Space → Nat
  | .hbm => 81
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S128x180, .f32⟩
  | .hbm, ⟨2, _⟩ => ⟨S180, .f32⟩
  | .hbm, ⟨3, _⟩ => ⟨S180x120, .f32⟩
  | .hbm, ⟨4, _⟩ => ⟨S120, .f32⟩
  | .hbm, ⟨5, _⟩ => ⟨S120x16, .f32⟩
  | .hbm, ⟨6, _⟩ => ⟨S16, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S100000, .i32⟩
  | .hbm, ⟨13, _⟩ => ⟨S900000, .i32⟩
  | .hbm, ⟨14, _⟩ => ⟨S900000, .i32⟩
  | .hbm, ⟨15, _⟩ => ⟨S_, .f32⟩
  | .hbm, ⟨16, _⟩ => ⟨S900000, .f32⟩
  | .hbm, ⟨17, _⟩ => ⟨S_, .f32⟩
  | .hbm, ⟨18, _⟩ => ⟨S100000, .f32⟩
  | .hbm, ⟨19, _⟩ => ⟨S900000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S900000, .i32⟩
  | .hbm, ⟨24, _⟩ => ⟨S900000, .i1⟩
  | .hbm, ⟨25, _⟩ => ⟨S_, .i32⟩
  | .hbm, ⟨26, _⟩ => ⟨S900000, .i32⟩
  | .hbm, ⟨27, _⟩ => ⟨S900000, .i32⟩
  | .hbm, ⟨28, _⟩ => ⟨S900000, .i32⟩
  | .hbm, ⟨29, _⟩ => ⟨S900000x1, .i32⟩
  | .hbm, ⟨30, _⟩ => ⟨S900000, .f32⟩
  | .hbm, ⟨31, _⟩ => ⟨S_, .i32⟩
  | .hbm, ⟨32, _⟩ => ⟨S900000, .i32⟩
  | .hbm, ⟨33, _⟩ => ⟨S900000, .i1⟩
  | .hbm, ⟨34, _⟩ => ⟨S_, .i32⟩
  | .hbm, ⟨35, _⟩ => ⟨S900000, .i32⟩
  | .hbm, ⟨36, _⟩ => ⟨S900000, .i32⟩
  | .hbm, ⟨37, _⟩ => ⟨S900000, .i32⟩
  | .hbm, ⟨38, _⟩ => ⟨S900000x1, .i32⟩
  | .hbm, ⟨39, _⟩ => ⟨S900000, .f32⟩
  | .hbm, ⟨40, _⟩ => ⟨S900000, .f32⟩
  | .hbm, ⟨41, _⟩ => ⟨S100000x180, .f32⟩
  | .hbm, ⟨42, _⟩ => ⟨S_, .i32⟩
  | .hbm, ⟨43, _⟩ => ⟨S900000, .i32⟩
  | .hbm, ⟨44, _⟩ => ⟨S900000, .i1⟩
  | .hbm, ⟨45, _⟩ => ⟨S_, .i32⟩
  | .hbm, ⟨46, _⟩ => ⟨S900000, .i32⟩
  | .hbm, ⟨47, _⟩ => ⟨S900000, .i32⟩
  | .hbm, ⟨48, _⟩ => ⟨S900000, .i32⟩
  | .hbm, ⟨49, _⟩ => ⟨S900000x1, .i32⟩
  | .hbm, ⟨50, _⟩ => ⟨S900000x180, .f32⟩
  | .hbm, ⟨51, _⟩ => ⟨S900000x1, .f32⟩
  | .hbm, ⟨52, _⟩ => ⟨S900000x180, .f32⟩
  | .hbm, ⟨53, _⟩ => ⟨S900000x180, .f32⟩
  | .hbm, ⟨54, _⟩ => ⟨S_, .f32⟩
  | .hbm, ⟨55, _⟩ => ⟨S100000x180, .f32⟩
  | .hbm, ⟨56, _⟩ => ⟨S900000x1, .i32⟩
  | .hbm, ⟨57, _⟩ => ⟨S100000x180, .f32⟩
  | .hbm, ⟨58, _⟩ => ⟨S1x180, .f32⟩
  | .hbm, ⟨59, _⟩ => ⟨S100000x180, .f32⟩
  | .hbm, ⟨60, _⟩ => ⟨S100000x120, .f32⟩
  | .hbm, ⟨61, _⟩ => ⟨S_, .i32⟩
  | .hbm, ⟨62, _⟩ => ⟨S900000, .i32⟩
  | .hbm, ⟨63, _⟩ => ⟨S900000, .i1⟩
  | .hbm, ⟨64, _⟩ => ⟨S_, .i32⟩
  | .hbm, ⟨65, _⟩ => ⟨S900000, .i32⟩
  | .hbm, ⟨66, _⟩ => ⟨S900000, .i32⟩
  | .hbm, ⟨67, _⟩ => ⟨S900000, .i32⟩
  | .hbm, ⟨68, _⟩ => ⟨S900000x1, .i32⟩
  | .hbm, ⟨69, _⟩ => ⟨S900000x120, .f32⟩
  | .hbm, ⟨70, _⟩ => ⟨S900000x1, .f32⟩
  | .hbm, ⟨71, _⟩ => ⟨S900000x120, .f32⟩
  | .hbm, ⟨72, _⟩ => ⟨S900000x120, .f32⟩
  | .hbm, ⟨73, _⟩ => ⟨S_, .f32⟩
  | .hbm, ⟨74, _⟩ => ⟨S100000x120, .f32⟩
  | .hbm, ⟨75, _⟩ => ⟨S900000x1, .i32⟩
  | .hbm, ⟨76, _⟩ => ⟨S100000x120, .f32⟩
  | .hbm, ⟨77, _⟩ => ⟨S1x120, .f32⟩
  | .hbm, ⟨78, _⟩ => ⟨S100000x120, .f32⟩
  | .hbm, ⟨79, _⟩ => ⟨S1x16, .f32⟩
  | .hbm, ⟨80, _⟩ => ⟨S100000x16, .f32⟩
  | .local _ .vmem, ⟨0, _⟩ => ⟨S2000x128, .f32⟩
  | .local _ .vmem, ⟨1, _⟩ => ⟨S2000x128, .f32⟩
  | .local _ .vmem, ⟨2, _⟩ => ⟨S128x180, .f32⟩
  | .local _ .vmem, ⟨3, _⟩ => ⟨S2000x180, .f32⟩
  | .local _ .vmem, ⟨4, _⟩ => ⟨S2000x180, .f32⟩
  | .local _ .vmem, ⟨5, _⟩ => ⟨S2000x180, .f32⟩
  | .local _ .vmem, ⟨6, _⟩ => ⟨S2000x180, .f32⟩
  | .local _ .vmem, ⟨7, _⟩ => ⟨S1x180, .f32⟩
  | .local _ .vmem, ⟨8, _⟩ => ⟨S2000x180, .f32⟩
  | .local _ .vmem, ⟨9, _⟩ => ⟨S2000x180, .f32⟩
  | .local _ .vmem, ⟨10, _⟩ => ⟨S2000x180, .f32⟩
  | .local _ .vmem, ⟨11, _⟩ => ⟨S2000x180, .f32⟩
  | .local _ .vmem, ⟨12, _⟩ => ⟨S180x120, .f32⟩
  | .local _ .vmem, ⟨13, _⟩ => ⟨S2000x120, .f32⟩
  | .local _ .vmem, ⟨14, _⟩ => ⟨S2000x120, .f32⟩
  | .local _ .vmem, ⟨15, _⟩ => ⟨S2000x120, .f32⟩
  | .local _ .vmem, ⟨16, _⟩ => ⟨S2000x120, .f32⟩
  | .local _ .vmem, ⟨17, _⟩ => ⟨S1x120, .f32⟩
  | .local _ .vmem, ⟨18, _⟩ => ⟨S2000x120, .f32⟩
  | .local _ .vmem, ⟨19, _⟩ => ⟨S2000x120, .f32⟩
  | .local _ .vmem, ⟨20, _⟩ => ⟨S2000x120, .f32⟩
  | .local _ .vmem, ⟨21, _⟩ => ⟨S2000x120, .f32⟩
  | .local _ .vmem, ⟨22, _⟩ => ⟨S120x16, .f32⟩
  | .local _ .vmem, ⟨23, _⟩ => ⟨S1x16, .f32⟩
  | .local _ .vmem, ⟨24, _⟩ => ⟨S2000x16, .f32⟩
  | .local _ .vmem, ⟨25, _⟩ => ⟨S2000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x180 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x180 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x180 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x180 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x180 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x180 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S180x120 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x120 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x120 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x120 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x120 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x120 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S120x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x180_S128x180_0_0 : ∀ a, (![0, 0] : Fin 2 → Nat) a + S128x180.size a ≤ S128x180.size a
  h_S128x180 : 0 < S128x180.numel
  inb_S2000x180_S2000x180_0_0 : ∀ a, (![0, 0] : Fin 2 → Nat) a + S2000x180.size a ≤ S2000x180.size a
  h_S2000x180 : 0 < S2000x180.numel
  bcast_S900000x1_S900000x180_0_1 : S900000x1.BroadcastsInDim S900000x180 (![0, 1] : Fin 2 → Fin S900000x180.rank)
  bcast_S_S100000x180 : S_.BroadcastsInDim S100000x180 (![] : Fin 0 → Fin S100000x180.rank)
  shapeCasts_S180_S1x180 : S180.ShapeCasts S1x180
  shapeCasts_S2000x180_S2000x180 : S2000x180.ShapeCasts S2000x180
  inb_S1x180_S1x180_0_0 : ∀ a, (![0, 0] : Fin 2 → Nat) a + S1x180.size a ≤ S1x180.size a
  h_S1x180 : 0 < S1x180.numel
  shapeCasts_S1x180_S1x180 : S1x180.ShapeCasts S1x180
  broadcasts_S1x180_S2000x180 : S1x180.Broadcasts S2000x180
  inb_S180x120_S180x120_0_0 : ∀ a, (![0, 0] : Fin 2 → Nat) a + S180x120.size a ≤ S180x120.size a
  h_S180x120 : 0 < S180x120.numel
  inb_S2000x120_S2000x120_0_0 : ∀ a, (![0, 0] : Fin 2 → Nat) a + S2000x120.size a ≤ S2000x120.size a
  h_S2000x120 : 0 < S2000x120.numel
  bcast_S900000x1_S900000x120_0_1 : S900000x1.BroadcastsInDim S900000x120 (![0, 1] : Fin 2 → Fin S900000x120.rank)
  bcast_S_S100000x120 : S_.BroadcastsInDim S100000x120 (![] : Fin 0 → Fin S100000x120.rank)
  shapeCasts_S120_S1x120 : S120.ShapeCasts S1x120
  shapeCasts_S2000x120_S2000x120 : S2000x120.ShapeCasts S2000x120
  inb_S1x120_S1x120_0_0 : ∀ a, (![0, 0] : Fin 2 → Nat) a + S1x120.size a ≤ S1x120.size a
  h_S1x120 : 0 < S1x120.numel
  shapeCasts_S1x120_S1x120 : S1x120.ShapeCasts S1x120
  broadcasts_S1x120_S2000x120 : S1x120.Broadcasts S2000x120
  shapeCasts_S16_S1x16 : S16.ShapeCasts S1x16
  inb_S120x16_S120x16_0_0 : ∀ a, (![0, 0] : Fin 2 → Nat) a + S120x16.size a ≤ S120x16.size a
  h_S120x16 : 0 < S120x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S2000x128_S128x180_S2000x180_1_0_0_1_n_n_wf : DotDims.WF S2000x128 S128x180 S2000x180 [1] [0] [0] [1] [] []
  gather_S100000x180_S900000x1_S900000x180_1_0_n_n_0_1_1180_wf : GatherDims.WF S100000x180 S900000x1 S900000x180 [1] [0] [] [0] [] 1 ![1, 180]
  scatter_S100000x180_S900000x1_S900000x180_1_0_0_1_wf : ScatterDims.WF S100000x180 S900000x1 S900000x180 [1] [0] [0] 1
  dot_S2000x180_S180x120_S2000x120_1_0_0_1_n_n_wf : DotDims.WF S2000x180 S180x120 S2000x120 [1] [0] [0] [1] [] []
  gather_S100000x120_S900000x1_S900000x120_1_0_n_n_0_1_1120_wf : GatherDims.WF S100000x120 S900000x1 S900000x120 [1] [0] [] [0] [] 1 ![1, 120]
  scatter_S100000x120_S900000x1_S900000x120_1_0_0_1_wf : ScatterDims.WF S100000x120 S900000x1 S900000x120 [1] [0] [0] 1
  dot_S2000x120_S120x16_S2000x16_1_0_0_1_n_n_wf : DotDims.WF S2000x120 S120x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x180.size a ≤ S128x180.size a
  hwx0_1 : ∀ i : grid0.Coords, EltTy.bits .f32 = 32 ∨ (Rect.block (s := S128x180) S128x180.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x180.size a ≤ S100000x180.size a
  hwx0_2 : ∀ i : grid0.Coords, EltTy.bits .f32 = 32 ∨ (Rect.block (s := S100000x180) S2000x180.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x180.size a ≤ S100000x180.size a
  hwx1_0 : ∀ i : grid1.Coords, EltTy.bits .f32 = 32 ∨ (Rect.block (s := S100000x180) S2000x180.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x180.size a ≤ S1x180.size a
  hwx1_1 : ∀ i : grid1.Coords, EltTy.bits .f32 = 32 ∨ (Rect.block (s := S1x180) S1x180.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x180.size a ≤ S100000x180.size a
  hwx1_2 : ∀ i : grid1.Coords, EltTy.bits .f32 = 32 ∨ (Rect.block (s := S100000x180) S2000x180.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x180.size a ≤ S100000x180.size a
  hwx2_0 : ∀ i : grid2.Coords, EltTy.bits .f32 = 32 ∨ (Rect.block (s := S100000x180) S2000x180.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S180x120.size a ≤ S180x120.size a
  hwx2_1 : ∀ i : grid2.Coords, EltTy.bits .f32 = 32 ∨ (Rect.block (s := S180x120) S180x120.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x120.size a ≤ S100000x120.size a
  hwx2_2 : ∀ i : grid2.Coords, EltTy.bits .f32 = 32 ∨ (Rect.block (s := S100000x120) S2000x120.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x120.size a ≤ S100000x120.size a
  hwx3_0 : ∀ i : grid3.Coords, EltTy.bits .f32 = 32 ∨ (Rect.block (s := S100000x120) S2000x120.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x120.size a ≤ S1x120.size a
  hwx3_1 : ∀ i : grid3.Coords, EltTy.bits .f32 = 32 ∨ (Rect.block (s := S1x120) S1x120.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x120.size a ≤ S100000x120.size a
  hwx3_2 : ∀ i : grid3.Coords, EltTy.bits .f32 = 32 ∨ (Rect.block (s := S100000x120) S2000x120.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x120.size a ≤ S100000x120.size a
  hwx4_0 : ∀ i : grid4.Coords, EltTy.bits .f32 = 32 ∨ (Rect.block (s := S100000x120) S2000x120.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S120x16.size a ≤ S120x16.size a
  hwx4_1 : ∀ i : grid4.Coords, EltTy.bits .f32 = 32 ∨ (Rect.block (s := S120x16) S120x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x16.size a ≤ S100000x16.size a
  hwx4_3 : ∀ i : grid4.Coords, EltTy.bits .f32 = 32 ∨ (Rect.block (s := S100000x16) S2000x16.size (cc4_transform_3 i) (hinb4_3 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S2000x128_S128x180_S2000x180_1_0_0_1_n_n : DotDims S2000x128 S128x180 S2000x180 where
  lhsContracting := [1]
  rhsContracting := [0]
  lhsNonContracting := [0]
  rhsNonContracting := [1]
  lhsBatch := []
  rhsBatch := []
  wf := dot_S2000x128_S128x180_S2000x180_1_0_0_1_n_n_wf
def gather_S100000x180_S900000x1_S900000x180_1_0_n_n_0_1_1180 : GatherDims S100000x180 S900000x1 S900000x180 where
  offsetDims := [1]
  collapsedSliceDims := [0]
  operandBatchingDims := []
  startIndicesBatchingDims := []
  startIndexMap := [0]
  indexVectorDim := 1
  sliceSizes := ![1, 180]
  wf := gather_S100000x180_S900000x1_S900000x180_1_0_n_n_0_1_1180_wf
def scatter_S100000x180_S900000x1_S900000x180_1_0_0_1 : ScatterDims S100000x180 S900000x1 S900000x180 where
  updateWindowDims := [1]
  insertedWindowDims := [0]
  scatterDimsToOperandDims := [0]
  indexVectorDim := 1
  wf := scatter_S100000x180_S900000x1_S900000x180_1_0_0_1_wf
def dot_S2000x180_S180x120_S2000x120_1_0_0_1_n_n : DotDims S2000x180 S180x120 S2000x120 where
  lhsContracting := [1]
  rhsContracting := [0]
  lhsNonContracting := [0]
  rhsNonContracting := [1]
  lhsBatch := []
  rhsBatch := []
  wf := dot_S2000x180_S180x120_S2000x120_1_0_0_1_n_n_wf
def gather_S100000x120_S900000x1_S900000x120_1_0_n_n_0_1_1120 : GatherDims S100000x120 S900000x1 S900000x120 where
  offsetDims := [1]
  collapsedSliceDims := [0]
  operandBatchingDims := []
  startIndicesBatchingDims := []
  startIndexMap := [0]
  indexVectorDim := 1
  sliceSizes := ![1, 120]
  wf := gather_S100000x120_S900000x1_S900000x120_1_0_n_n_0_1_1120_wf
def scatter_S100000x120_S900000x1_S900000x120_1_0_0_1 : ScatterDims S100000x120 S900000x1 S900000x120 where
  updateWindowDims := [1]
  insertedWindowDims := [0]
  scatterDimsToOperandDims := [0]
  indexVectorDim := 1
  wf := scatter_S100000x120_S900000x1_S900000x120_1_0_0_1_wf
def dot_S2000x120_S120x16_S2000x16_1_0_0_1_n_n : DotDims S2000x120 S120x16 S2000x16 where
  lhsContracting := [1]
  rhsContracting := [0]
  lhsNonContracting := [0]
  rhsNonContracting := [1]
  lhsBatch := []
  rhsBatch := []
  wf := dot_S2000x120_S120x16_S2000x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x180.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x180.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x180.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x180.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x180.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S2000x180.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S180x120.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2000x120.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S2000x120.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x120.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x120.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S2000x120.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S120x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S2000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S128x180 : Shape := ⟨2, ![128, 180]⟩
abbrev S180 : Shape := ⟨1, ![180]⟩
abbrev S180x120 : Shape := ⟨2, ![180, 120]⟩
abbrev S120 : Shape := ⟨1, ![120]⟩
abbrev S120x16 : Shape := ⟨2, ![120, 16]⟩
abbrev S16 : Shape := ⟨1, ![16]⟩
abbrev S2x800000 : Shape := ⟨2, ![2, 800000]⟩
abbrev S1x800000 : Shape := ⟨2, ![1, 800000]⟩
abbrev S800000 : Shape := ⟨1, ![800000]⟩
abbrev S100000x180 : Shape := ⟨2, ![100000, 180]⟩
abbrev S100000 : Shape := ⟨1, ![100000]⟩
abbrev S900000 : Shape := ⟨1, ![900000]⟩
abbrev S_ : Shape := ⟨0, ![]⟩
abbrev S900000x1 : Shape := ⟨2, ![900000, 1]⟩
abbrev S900000x180 : Shape := ⟨2, ![900000, 180]⟩
abbrev S1x180 : Shape := ⟨2, ![1, 180]⟩
abbrev S100000x120 : Shape := ⟨2, ![100000, 120]⟩
abbrev S900000x120 : Shape := ⟨2, ![900000, 120]⟩
abbrev S1x120 : Shape := ⟨2, ![1, 120]⟩
abbrev S100000x16 : Shape := ⟨2, ![100000, 16]⟩
abbrev S1x16 : Shape := ⟨2, ![1, 16]⟩
abbrev S100000x1 : Shape := ⟨2, ![100000, 1]⟩

abbrev nBuf : Space → Nat
  | .hbm => 145
  | .vmem => 0
  | .smem => 0
  | _ => 0

abbrev hbmTy0_0 (i : Nat) : BufTy := match i % 128 with
  | 0 => ⟨S100000x128, .f32⟩
  | 1 => ⟨S128x180, .f32⟩
  | 2 => ⟨S180, .f32⟩
  | 3 => ⟨S180x120, .f32⟩
  | 4 => ⟨S120, .f32⟩
  | 5 => ⟨S120x16, .f32⟩
  | 6 => ⟨S16, .f32⟩
  | 7 => ⟨S2x800000, .i32⟩
  | 8 => ⟨S1x800000, .i32⟩
  | 9 => ⟨S800000, .i32⟩
  | 10 => ⟨S1x800000, .i32⟩
  | 11 => ⟨S800000, .i32⟩
  | 12 => ⟨S100000x180, .f32⟩
  | 13 => ⟨S100000, .i32⟩
  | 14 => ⟨S900000, .i32⟩
  | 15 => ⟨S900000, .i32⟩
  | 16 => ⟨S_, .f32⟩
  | 17 => ⟨S900000, .f32⟩
  | 18 => ⟨S_, .f32⟩
  | 19 => ⟨S100000, .f32⟩
  | 20 => ⟨S900000x1, .i32⟩
  | 21 => ⟨S100000, .f32⟩
  | 22 => ⟨S100000, .f32⟩
  | 23 => ⟨S_, .i32⟩
  | 24 => ⟨S900000, .i32⟩
  | 25 => ⟨S900000, .i1⟩
  | 26 => ⟨S_, .i32⟩
  | 27 => ⟨S900000, .i32⟩
  | 28 => ⟨S900000, .i32⟩
  | 29 => ⟨S900000, .i32⟩
  | 30 => ⟨S900000x1, .i32⟩
  | 31 => ⟨S900000, .f32⟩
  | 32 => ⟨S_, .i32⟩
  | 33 => ⟨S900000, .i32⟩
  | 34 => ⟨S900000, .i1⟩
  | 35 => ⟨S_, .i32⟩
  | 36 => ⟨S900000, .i32⟩
  | 37 => ⟨S900000, .i32⟩
  | 38 => ⟨S900000, .i32⟩
  | 39 => ⟨S900000x1, .i32⟩
  | 40 => ⟨S900000, .f32⟩
  | 41 => ⟨S900000, .f32⟩
  | 42 => ⟨S_, .i32⟩
  | 43 => ⟨S900000, .i32⟩
  | 44 => ⟨S900000, .i1⟩
  | 45 => ⟨S_, .i32⟩
  | 46 => ⟨S900000, .i32⟩
  | 47 => ⟨S900000, .i32⟩
  | 48 => ⟨S900000, .i32⟩
  | 49 => ⟨S900000x1, .i32⟩
  | 50 => ⟨S900000x180, .f32⟩
  | 51 => ⟨S900000x1, .f32⟩
  | 52 => ⟨S900000x180, .f32⟩
  | 53 => ⟨S900000x180, .f32⟩
  | 54 => ⟨S_, .f32⟩
  | 55 => ⟨S100000x180, .f32⟩
  | 56 => ⟨S900000x1, .i32⟩
  | 57 => ⟨S100000x180, .f32⟩
  | 58 => ⟨S1x180, .f32⟩
  | 59 => ⟨S100000x180, .f32⟩
  | 60 => ⟨S100000x180, .f32⟩
  | 61 => ⟨S_, .f32⟩
  | 62 => ⟨S_, .f32⟩
  | 63 => ⟨S100000x180, .f32⟩
  | 64 => ⟨S100000x180, .i1⟩
  | 65 => ⟨S_, .f32⟩
  | 66 => ⟨S100000x180, .f32⟩
  | 67 => ⟨S100000x180, .f32⟩
  | 68 => ⟨S100000x180, .f32⟩
  | 69 => ⟨S100000x120, .f32⟩
  | 70 => ⟨S100000, .i32⟩
  | 71 => ⟨S900000, .i32⟩
  | 72 => ⟨S900000, .i32⟩
  | 73 => ⟨S_, .f32⟩
  | 74 => ⟨S900000, .f32⟩
  | 75 => ⟨S_, .f32⟩
  | 76 => ⟨S100000, .f32⟩
  | 77 => ⟨S900000x1, .i32⟩
  | 78 => ⟨S100000, .f32⟩
  | 79 => ⟨S100000, .f32⟩
  | 80 => ⟨S_, .i32⟩
  | 81 => ⟨S900000, .i32⟩
  | 82 => ⟨S900000, .i1⟩
  | 83 => ⟨S_, .i32⟩
  | 84 => ⟨S900000, .i32⟩
  | 85 => ⟨S900000, .i32⟩
  | 86 => ⟨S900000, .i32⟩
  | 87 => ⟨S900000x1, .i32⟩
  | 88 => ⟨S900000, .f32⟩
  | 89 => ⟨S_, .i32⟩
  | 90 => ⟨S900000, .i32⟩
  | 91 => ⟨S900000, .i1⟩
  | 92 => ⟨S_, .i32⟩
  | 93 => ⟨S900000, .i32⟩
  | 94 => ⟨S900000, .i32⟩
  | 95 => ⟨S900000, .i32⟩
  | 96 => ⟨S900000x1, .i32⟩
  | 97 => ⟨S900000, .f32⟩
  | 98 => ⟨S900000, .f32⟩
  | 99 => ⟨S_, .i32⟩
  | 100 => ⟨S900000, .i32⟩
  | 101 => ⟨S900000, .i1⟩
  | 102 => ⟨S_, .i32⟩
  | 103 => ⟨S900000, .i32⟩
  | 104 => ⟨S900000, .i32⟩
  | 105 => ⟨S900000, .i32⟩
  | 106 => ⟨S900000x1, .i32⟩
  | 107 => ⟨S900000x120, .f32⟩
  | 108 => ⟨S900000x1, .f32⟩
  | 109 => ⟨S900000x120, .f32⟩
  | 110 => ⟨S900000x120, .f32⟩
  | 111 => ⟨S_, .f32⟩
  | 112 => ⟨S100000x120, .f32⟩
  | 113 => ⟨S900000x1, .i32⟩
  | 114 => ⟨S100000x120, .f32⟩
  | 115 => ⟨S1x120, .f32⟩
  | 116 => ⟨S100000x120, .f32⟩
  | 117 => ⟨S100000x120, .f32⟩
  | 118 => ⟨S_, .f32⟩
  | 119 => ⟨S_, .f32⟩
  | 120 => ⟨S100000x120, .f32⟩
  | 121 => ⟨S100000x120, .i1⟩
  | 122 => ⟨S_, .f32⟩
  | 123 => ⟨S100000x120, .f32⟩
  | 124 => ⟨S100000x120, .f32⟩
  | 125 => ⟨S100000x120, .f32⟩
  | 126 => ⟨S100000x16, .f32⟩
  | 127 => ⟨S1x16, .f32⟩
  | _ => ⟨S100000x128, .f32⟩

abbrev hbmTy0_1 (i : Nat) : BufTy := match i % 128 with
  | 0 => ⟨S100000x16, .f32⟩
  | 1 => ⟨S100000x16, .f32⟩
  | 2 => ⟨S_, .f32⟩
  | 3 => ⟨S100000, .f32⟩
  | 4 => ⟨S_, .f32⟩
  | 5 => ⟨S100000, .f32⟩
  | 6 => ⟨S100000, .f32⟩
  | 7 => ⟨S100000x1, .f32⟩
  | 8 => ⟨S100000x16, .f32⟩
  | 9 => ⟨S100000x16, .f32⟩
  | 10 => ⟨S100000x16, .f32⟩
  | 11 => ⟨S_, .f32⟩
  | 12 => ⟨S100000, .f32⟩
  | 13 => ⟨S100000x1, .f32⟩
  | 14 => ⟨S100000x1, .f32⟩
  | 15 => ⟨S100000x16, .f32⟩
  | 16 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_12 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_14 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_16 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_17 : Ref sig .tc := ⟨.hbm, 118, rfl⟩
abbrev main_call1_cst : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_call1_v3 : Ref sig .tc := ⟨.hbm, 123, rfl⟩
abbrev main_call1_v4 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_call2_cst : Ref sig .tc := ⟨.hbm, 130, rfl⟩
abbrev main_call2_v0 : Ref sig .tc := ⟨.hbm, 131, rfl⟩
abbrev main_call2_cst_0 : Ref sig .tc := ⟨.hbm, 132, rfl⟩
abbrev main_call2_v1 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_call2_v5 : Ref sig .tc := ⟨.hbm, 137, rfl⟩
abbrev main_call2_v6 : Ref sig .tc := ⟨.hbm, 138, rfl⟩
abbrev main_call2_cst_1 : Ref sig .tc := ⟨.hbm, 139, rfl⟩
abbrev main_call2_v7 : Ref sig .tc := ⟨.hbm, 140, rfl⟩
abbrev main_call2_v8 : Ref sig .tc := ⟨.hbm, 141, rfl⟩
abbrev main_call2_v9 : Ref sig .tc := ⟨.hbm, 142, rfl⟩
abbrev main_call2_v10 : Ref sig .tc := ⟨.hbm, 143, rfl⟩
abbrev main_v90 : Ref sig .tc := ⟨.hbm, 144, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x180_0_1 : S900000x1.BroadcastsInDim S900000x180 (![0, 1] : Fin 2 → Fin S900000x180.rank)
  bcast_S_S100000x180 : S_.BroadcastsInDim S100000x180 (![] : Fin 0 → Fin S100000x180.rank)
  bcast_S180_S1x180_1 : S180.BroadcastsInDim S1x180 (![1] : Fin 1 → Fin S1x180.rank)
  bcast_S1x180_S100000x180_0_1 : S1x180.BroadcastsInDim S100000x180 (![0, 1] : Fin 2 → Fin S100000x180.rank)
  bcast_S900000x1_S900000x120_0_1 : S900000x1.BroadcastsInDim S900000x120 (![0, 1] : Fin 2 → Fin S900000x120.rank)
  bcast_S_S100000x120 : S_.BroadcastsInDim S100000x120 (![] : Fin 0 → Fin S100000x120.rank)
  bcast_S120_S1x120_1 : S120.BroadcastsInDim S1x120 (![1] : Fin 1 → Fin S1x120.rank)
  bcast_S1x120_S100000x120_0_1 : S1x120.BroadcastsInDim S100000x120 (![0, 1] : Fin 2 → Fin S100000x120.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x128_S128x180_S100000x180_1_0_0_1_n_n_wf : DotDims.WF S100000x128 S128x180 S100000x180 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x180_S900000x1_S900000x180_1_0_n_n_0_1_1180_wf : GatherDims.WF S100000x180 S900000x1 S900000x180 [1] [0] [] [0] [] 1 ![1, 180]
  scatter_S100000x180_S900000x1_S900000x180_1_0_0_1_wf : ScatterDims.WF S100000x180 S900000x1 S900000x180 [1] [0] [0] 1
  dot_S100000x180_S180x120_S100000x120_1_0_0_1_n_n_wf : DotDims.WF S100000x180 S180x120 S100000x120 [1] [0] [0] [1] [] []
  gather_S100000x120_S900000x1_S900000x120_1_0_n_n_0_1_1120_wf : GatherDims.WF S100000x120 S900000x1 S900000x120 [1] [0] [] [0] [] 1 ![1, 120]
  scatter_S100000x120_S900000x1_S900000x120_1_0_0_1_wf : ScatterDims.WF S100000x120 S900000x1 S900000x120 [1] [0] [0] 1
  dot_S100000x120_S120x16_S100000x16_1_0_0_1_n_n_wf : DotDims.WF S100000x120 S120x16 S100000x16 [1] [0] [0] [1] [] []

variable [Facts₀]

def dot_S100000x128_S128x180_S100000x180_1_0_0_1_n_n : DotDims S100000x128 S128x180 S100000x180 where
  lhsContracting := [1]
  rhsContracting := [0]
  lhsNonContracting := [0]
  rhsNonContracting := [1]
  lhsBatch := []
  rhsBatch := []
  wf := dot_S100000x128_S128x180_S100000x180_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x180_S900000x1_S900000x180_1_0_n_n_0_1_1180 : GatherDims S100000x180 S900000x1 S900000x180 where
  offsetDims := [1]
  collapsedSliceDims := [0]
  operandBatchingDims := []
  startIndicesBatchingDims := []
  startIndexMap := [0]
  indexVectorDim := 1
  sliceSizes := ![1, 180]
  wf := gather_S100000x180_S900000x1_S900000x180_1_0_n_n_0_1_1180_wf
def scatter_S100000x180_S900000x1_S900000x180_1_0_0_1 : ScatterDims S100000x180 S900000x1 S900000x180 where
  updateWindowDims := [1]
  insertedWindowDims := [0]
  scatterDimsToOperandDims := [0]
  indexVectorDim := 1
  wf := scatter_S100000x180_S900000x1_S900000x180_1_0_0_1_wf
def dot_S100000x180_S180x120_S100000x120_1_0_0_1_n_n : DotDims S100000x180 S180x120 S100000x120 where
  lhsContracting := [1]
  rhsContracting := [0]
  lhsNonContracting := [0]
  rhsNonContracting := [1]
  lhsBatch := []
  rhsBatch := []
  wf := dot_S100000x180_S180x120_S100000x120_1_0_0_1_n_n_wf
def gather_S100000x120_S900000x1_S900000x120_1_0_n_n_0_1_1120 : GatherDims S100000x120 S900000x1 S900000x120 where
  offsetDims := [1]
  collapsedSliceDims := [0]
  operandBatchingDims := []
  startIndicesBatchingDims := []
  startIndexMap := [0]
  indexVectorDim := 1
  sliceSizes := ![1, 120]
  wf := gather_S100000x120_S900000x1_S900000x120_1_0_n_n_0_1_1120_wf
def scatter_S100000x120_S900000x1_S900000x120_1_0_0_1 : ScatterDims S100000x120 S900000x1 S900000x120 where
  updateWindowDims := [1]
  insertedWindowDims := [0]
  scatterDimsToOperandDims := [0]
  indexVectorDim := 1
  wf := scatter_S100000x120_S900000x1_S900000x120_1_0_0_1_wf
def dot_S100000x120_S120x16_S100000x16_1_0_0_1_n_n : DotDims S100000x120 S120x16 S100000x16 where
  lhsContracting := [1]
  rhsContracting := [0]
  lhsNonContracting := [0]
  rhsNonContracting := [1]
  lhsBatch := []
  rhsBatch := []
  wf := dot_S100000x120_S120x16_S100000x16_1_0_0_1_n_n_wf

class Facts : Prop extends Facts₀ where

variable [Facts]
-- ==== Proof.Spec.lean ====
/-
  The two-layer graph convolution network that both programs compute, written once as a function of the
  argument arrays, over whole arrays.

  Nodes are the 100000 rows; the edge list `e` has a row of 800000 sources and a row of 800000 targets, and
  every node is also its own neighbour, so there are 900000 (source, target) pairs: `ends0 e` and `ends1 e`.
  `deg e` counts the pairs ending at each node, `norm e` gives pair `(s, d)` the weight
  `deg(s)^(-1/2) · deg(d)^(-1/2)`, and one propagation step (`agg180`, `agg120`) sends row `d` to the sum over the
  pairs ending at `d` of the pair's weight times row `s`. A layer is a matrix product (`mm1`, `mm2`), a
  propagation step, and then `biasLeaky`: add the bias row and keep a non-negative entry, scaling a negative
  one by the slope. The head (`head`) is a third matrix product plus a bias row, followed by the row-wise
  `x ↦ (x - max) - log Σ exp (x - max)`.
-/
import proofs.«178770_j81570018886156_1_alg».proof.ReferenceIdeal

noncomputable section

namespace Cert.Gcn

open Idealize.ShloMosaic Idealize.SL.Sem Cert.ReferenceIdeal Cert.ReferenceIdeal.Facts₀

variable {F : FTy → Type} [FloatOps F] [Cert.ReferenceIdeal.Facts]

/-- An array of shape `s` with elements of type `e`. -/
abbrev Arr (F : FTy → Type) [FloatOps F] (s : Shape) (e : EltTy) : Type := (⟨s, e⟩ : BufTy).Contents (Elt F)

/-! ## The pairs -/

/-- The sources of the 900000 pairs: row 0 of the edge list, then every node once. -/
def ends0 (e : Arr F S2x800000 .i32) : Arr F S900000 .i32 :=
  concatenate S900000 0 [⟨S800000, shapeCast S800000 (extractStridedSlice S1x800000 ![0, 0] e slices_S2x800000_S1x800000_0_0) shapeCasts_S1x800000_S800000⟩, ⟨S100000, iotaInDim S100000 32 0⟩] concatenates_S800000_S100000_S900000_d0

/-- The targets of the 900000 pairs: row 1 of the edge list, then every node once. -/
def ends1 (e : Arr F S2x800000 .i32) : Arr F S900000 .i32 :=
  concatenate S900000 0 [⟨S800000, shapeCast S800000 (extractStridedSlice S1x800000 ![1, 0] e slices_S2x800000_S1x800000_1_0) shapeCasts_S1x800000_S800000⟩, ⟨S100000, iotaInDim S100000 32 0⟩] concatenates_S800000_S100000_S900000_d0

/-- A list of node numbers as a column of row numbers. -/
def col (i : Arr F S900000 .i32) : Arr F S900000x1 .i32 :=
  broadcastInDim S900000x1 ![0] bcast_S900000_S900000x1_0 i

/-- The same column for reading rows: a negative number counts from the end (the node count is added). -/
def wrapCol (i : Arr F S900000 .i32) : Arr F S900000x1 .i32 :=
  broadcastInDim S900000x1 ![0] bcast_S900000_S900000x1_0
    (select (cmpi .slt i (broadcastInDim S900000 ![] bcast_S_S900000 (constantI S_ 32 0#32) : Arr F S900000 .i32))
      (addi i (broadcastInDim S900000 ![] bcast_S_S900000 (constantI S_ 32 100000#32) : Arr F S900000 .i32)) i)

/-! ## Degrees and pair weights -/

/-- How many pairs end at each node. -/
def deg (e : Arr F S2x800000 .i32) : Arr F S100000 .f32 :=
  Host.scatterAdd scatter_S100000_S900000x1_S900000_n_0_0_1
    (broadcastInDim S100000 ![] bcast_S_S100000 (constant S_ .f32 0x00000000#32) : Arr F S100000 .f32)
    (col (ends1 e))
    (broadcastInDim S900000 ![] bcast_S_S900000 (constant S_ .f32 0x3F800000#32) : Arr F S900000 .f32)

/-- The weight of each pair: the inverse square roots of the degrees of its two ends, multiplied. -/
def norm (e : Arr F S2x800000 .i32) : Arr F S900000 .f32 :=
  mulf (Host.gather gather_S100000_S900000x1_S900000_n_0_n_n_0_1_1 (Host.rsqrt (deg e)) (wrapCol (ends0 e)))
    (Host.gather gather_S100000_S900000x1_S900000_n_0_n_n_0_1_1 (Host.rsqrt (deg e)) (wrapCol (ends1 e)))

/-! ## Propagation -/

/-- One propagation step on rows of width 180. -/
def agg180 (h : Arr F S100000x180 .f32) (e : Arr F S2x800000 .i32) : Arr F S100000x180 .f32 :=
  Host.scatterAdd scatter_S100000x180_S900000x1_S900000x180_1_0_0_1
    (broadcastInDim S100000x180 ![] bcast_S_S100000x180 (constant S_ .f32 0x00000000#32) : Arr F S100000x180 .f32)
    (col (ends1 e))
    (mulf (Host.gather gather_S100000x180_S900000x1_S900000x180_1_0_n_n_0_1_1180 h (wrapCol (ends0 e)))
      (broadcastInDim S900000x180 ![0, 1] bcast_S900000x1_S900000x180_0_1
        (broadcastInDim S900000x1 ![0] bcast_S900000_S900000x1_0 (norm e) : Arr F S900000x1 .f32) : Arr F S900000x180 .f32))

/-- One propagation step on rows of width 120. -/
def agg120 (h : Arr F S100000x120 .f32) (e : Arr F S2x800000 .i32) : Arr F S100000x120 .f32 :=
  Host.scatterAdd scatter_S100000x120_S900000x1_S900000x120_1_0_0_1
    (broadcastInDim S100000x120 ![] bcast_S_S100000x120 (constant S_ .f32 0x00000000#32) : Arr F S100000x120 .f32)
    (col (ends1 e))
    (mulf (Host.gather gather_S100000x120_S900000x1_S900000x120_1_0_n_n_0_1_1120 h (wrapCol (ends0 e)))
      (broadcastInDim S900000x120 ![0, 1] bcast_S900000x1_S900000x120_0_1
        (broadcastInDim S900000x1 ![0] bcast_S900000_S900000x1_0 (norm e) : Arr F S900000x1 .f32) : Arr F S900000x120 .f32))

/-! ## The dense pieces -/

/-- Rows of width 128 times a 128 × 180 matrix. -/
def mm1 (x : Arr F S100000x128 .f32) (w : Arr F S128x180 .f32) : Arr F S100000x180 .f32 :=
  Host.dotGeneral dot_S100000x128_S128x180_S100000x180_1_0_0_1_n_n none x w

/-- Rows of width 180 times a 180 × 120 matrix. -/
def mm2 (x : Arr F S100000x180 .f32) (w : Arr F S180x120 .f32) : Arr F S100000x120 .f32 :=
  Host.dotGeneral dot_S100000x180_S180x120_S100000x120_1_0_0_1_n_n none x w

/-- Rows of width 120 times a 120 × 16 matrix. -/
def mm3 (x : Arr F S100000x120 .f32) (w : Arr F S120x16 .f32) : Arr F S100000x16 .f32 :=
  Host.dotGeneral dot_S100000x120_S120x16_S100000x16_1_0_0_1_n_n none x w

/-- A bias vector as a one-row matrix. -/
def row180 (b : Arr F S180 .f32) : Arr F S1x180 .f32 := broadcastInDim S1x180 ![1] bcast_S180_S1x180_1 b
def row120 (b : Arr F S120 .f32) : Arr F S1x120 .f32 := broadcastInDim S1x120 ![1] bcast_S120_S1x120_1 b
def row16 (b : Arr F S16 .f32) : Arr F S1x16 .f32 := broadcastInDim S1x16 ![1] bcast_S16_S1x16_1 b

/-- Keep a non-negative entry, scale a negative one by the slope. -/
def leaky180 (s : Arr F S100000x180 .f32) : Arr F S100000x180 .f32 :=
  select (cmpf .oge s (broadcastInDim S100000x180 ![] bcast_S_S100000x180 (constant S_ .f32 0x00000000#32) : Arr F S100000x180 .f32))
    s (mulf (broadcastInDim S100000x180 ![] bcast_S_S100000x180 (id (constant S_ .f32 0x3C23D70A#32 : Arr F S_ .f32)) : Arr F S100000x180 .f32) s)

def leaky120 (s : Arr F S100000x120 .f32) : Arr F S100000x120 .f32 :=
  select (cmpf .oge s (broadcastInDim S100000x120 ![] bcast_S_S100000x120 (constant S_ .f32 0x00000000#32) : Arr F S100000x120 .f32))
    s (mulf (broadcastInDim S100000x120 ![] bcast_S_S100000x120 (id (constant S_ .f32 0x3C23D70A#32 : Arr F S_ .f32)) : Arr F S100000x120 .f32) s)

/-- Add the bias row to every row, then `leaky180`. -/
def biasLeaky180 (a : Arr F S100000x180 .f32) (b : Arr F S1x180 .f32) : Arr F S100000x180 .f32 :=
  leaky180 (addf a (broadcastInDim S100000x180 ![0, 1] bcast_S1x180_S100000x180_0_1 b : Arr F S100000x180 .f32))

def biasLeaky120 (a : Arr F S100000x120 .f32) (b : Arr F S1x120 .f32) : Arr F S100000x120 .f32 :=
  leaky120 (addf a (broadcastInDim S100000x120 ![0, 1] bcast_S1x120_S100000x120_0_1 b : Arr F S100000x120 .f32))

/-! ## The head -/

/-- The largest entry of each row (never below the least value). -/
def rowMax (l : Arr F S100000x16 .f32) : Arr F S100000 .f32 :=
  maximumf (broadcastInDim S100000 ![] bcast_S_S100000 (constant S_ .f32 0xFF800000#32) : Arr F S100000 .f32)
    (Host.reduce FloatOps.maximumf l (constant S_ .f32 0xFF800000#32) reducesTo_S100000x16_S100000_d1 h_S_)

/-- Each row with its largest entry taken off. -/
def shifted (l : Arr F S100000x16 .f32) : Arr F S100000x16 .f32 :=
  subf l (broadcastInDim S100000x16 ![0, 1] bcast_S100000x1_S100000x16_0_1
    (broadcastInDim S100000x1 ![0] bcast_S100000_S100000x1_0 (rowMax l) : Arr F S100000x1 .f32) : Arr F S100000x16 .f32)

/-- `x ↦ (x - max) - log Σ exp (x - max)`, row by row. -/
def logSoftmax (l : Arr F S100000x16 .f32) : Arr F S100000x16 .f32 :=
  subf (shifted l) (broadcastInDim S100000x16 ![0, 1] bcast_S100000x1_S100000x16_0_1
    (Host.log (broadcastInDim S100000x1 ![0] bcast_S100000_S100000x1_0
      (Host.reduceAdd (Host.exp (shifted l)) (constant S_ .f32 0x00000000#32) reducesTo_S100000x16_S100000_d1 h_S_) : Arr F S100000x1 .f32)) : Arr F S100000x16 .f32)

/-- The third matrix product plus the bias row. -/
def logits (h : Arr F S100000x120 .f32) (w : Arr F S120x16 .f32) (b : Arr F S1x16 .f32) : Arr F S100000x16 .f32 :=
  addf (mm3 h w) (broadcastInDim S100000x16 ![0, 1] bcast_S1x16_S100000x16_0_1 b : Arr F S100000x16 .f32)

def head (h : Arr F S100000x120 .f32) (w : Arr F S120x16 .f32) (b : Arr F S1x16 .f32) : Arr F S100000x16 .f32 :=
  logSoftmax (logits h w b)

/-! ## The network -/

def out (x : Arr F S100000x128 .f32) (W1 : Arr F S128x180 .f32) (b1 : Arr F S180 .f32) (W2 : Arr F S180x120 .f32)
    (b2 : Arr F S120 .f32) (Wl : Arr F S120x16 .f32) (bl : Arr F S16 .f32) (e : Arr F S2x800000 .i32) : Arr F S100000x16 .f32 :=
  head (biasLeaky120 (agg120 (mm2 (biasLeaky180 (agg180 (mm1 x W1) e) (row180 b1)) W2) e) (row120 b2)) Wl (row16 bl)

end Cert.Gcn

end
-- ==== Proof.Reg0.lean ====
/-
  The first region computes a matrix product block of rows by block of rows: grid point `t` multiplies rows
  `2000 t … 2000 t + 1999` of the first array by the whole second array and writes rows `2000 t … 2000 t + 1999` of
  the result. Entry (r, q) of a product of matrices depends only on row r of the left factor and column q of the right
  one: it is the sum over the 128 contracted positions k of (r, k) times (k, q). A block's row p is the whole array's
  row `2000 t + p`, so the block's product at (p, q) and the whole product at (2000 t + p, q) are the same sum, term by
  term; the 50 blocks tile the 100000 rows, so the array the region leaves is the whole product.
-/
import proofs.«178770_j81570018886156_1_alg».proof.Proof.Gen.KernelIdeal.Frame
import proofs.«178770_j81570018886156_1_alg».proof.Proof.Gen.ReferenceIdeal
import proofs.«178770_j81570018886156_1_alg».proof.Proof.Spec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## The two products' index maps, coordinate by coordinate -/

/-- The dimension numbers of one block's product: 2000 rows of width 128 times a 128 × 180 matrix. -/
abbrev DB : DotDims S2000x128 S128x180 S2000x180 := Cert.KernelIdeal.dot_S2000x128_S128x180_S2000x180_1_0_0_1_n_n
/-- The dimension numbers of the whole product: 100000 rows of width 128 times the same matrix. -/
abbrev DW : DotDims Cert.ReferenceIdeal.S100000x128 Cert.ReferenceIdeal.S128x180 Cert.ReferenceIdeal.S100000x180 :=
  Cert.ReferenceIdeal.dot_S100000x128_S128x180_S100000x180_1_0_0_1_n_n

theorem lhsB_0 (j : S2000x180.Idx) (k : DB.contr.Idx) : (DB.lhsIdx j k 0 : ℕ) = j 0 := by
  simp [DotDims.lhsIdx, DB, Cert.KernelIdeal.dot_S2000x128_S128x180_S2000x180_1_0_0_1_n_n]; rfl
theorem lhsB_1 (j : S2000x180.Idx) (k : DB.contr.Idx) : (DB.lhsIdx j k 1 : ℕ) = k ⟨0, by decide⟩ := by
  simp [DotDims.lhsIdx, DB, Cert.KernelIdeal.dot_S2000x128_S128x180_S2000x180_1_0_0_1_n_n]; rfl
theorem rhsB_0 (j : S2000x180.Idx) (k : DB.contr.Idx) : (DB.rhsIdx j k 0 : ℕ) = k ⟨0, by decide⟩ := by
  simp [DotDims.rhsIdx, DB, Cert.KernelIdeal.dot_S2000x128_S128x180_S2000x180_1_0_0_1_n_n]; rfl
theorem rhsB_1 (j : S2000x180.Idx) (k : DB.contr.Idx) : (DB.rhsIdx j k 1 : ℕ) = j 1 := by
  simp [DotDims.rhsIdx, DB, Cert.KernelIdeal.dot_S2000x128_S128x180_S2000x180_1_0_0_1_n_n]; rfl

theorem lhsW_0 (j : Cert.ReferenceIdeal.S100000x180.Idx) (k : DW.contr.Idx) : (DW.lhsIdx j k 0 : ℕ) = j 0 := by
  simp [DotDims.lhsIdx, DW, Cert.ReferenceIdeal.dot_S100000x128_S128x180_S100000x180_1_0_0_1_n_n]; rfl
theorem lhsW_1 (j : Cert.ReferenceIdeal.S100000x180.Idx) (k : DW.contr.Idx) : (DW.lhsIdx j k 1 : ℕ) = k ⟨0, by decide⟩ := by
  simp [DotDims.lhsIdx, DW, Cert.ReferenceIdeal.dot_S100000x128_S128x180_S100000x180_1_0_0_1_n_n]; rfl
theorem rhsW_0 (j : Cert.ReferenceIdeal.S100000x180.Idx) (k : DW.contr.Idx) : (DW.rhsIdx j k 0 : ℕ) = k ⟨0, by decide⟩ := by
  simp [DotDims.rhsIdx, DW, Cert.ReferenceIdeal.dot_S100000x128_S128x180_S100000x180_1_0_0_1_n_n]; rfl
theorem rhsW_1 (j : Cert.ReferenceIdeal.S100000x180.Idx) (k : DW.contr.Idx) : (DW.rhsIdx j k 1 : ℕ) = j 1 := by
  simp [DotDims.rhsIdx, DW, Cert.ReferenceIdeal.dot_S100000x128_S128x180_S100000x180_1_0_0_1_n_n]; rfl

/-! ## The two products read at an index -/

/-- One block's product at row `p`, column `q`: the sum over the 128 contracted positions of the products of row
    `p`'s entries with column `q`'s. The changes of float format on the way in are the identity on the extended
    reals, and the accumulator is the zero array. -/
theorem block_apply (x : Vec Ideal S2000x128 .f32) (w : Vec Ideal S128x180 .f32) (p : Fin 2000) (q : Fin 180) :
    k0_pay1 (F := Ideal) x w (ix2 p q) = ∑ k : Fin 128, x (ix2 p k) * w (ix2 k q) := by
  unfold k0_pay1
  refine (Ideal.matmul_constant_zero_apply DB none _ _ (ix2 p q)).trans ?_
  rw [← Equiv.sum_comp (contrEquiv1 DB 128 rfl rfl).symm]
  refine Finset.sum_congr rfl fun k _ => ?_
  have ck := contrEquiv1_symm_val DB 128 rfl rfl k
  have hl : DB.lhsIdx (ix2 p q) ((contrEquiv1 DB 128 rfl rfl).symm k) = ix2 p k := by
    funext ax; apply Fin.ext
    match ax with
    | ⟨0, _⟩ => exact lhsB_0 _ _
    | ⟨1, _⟩ => exact (lhsB_1 _ _).trans ck
  have hr : DB.rhsIdx (ix2 p q) ((contrEquiv1 DB 128 rfl rfl).symm k) = ix2 k q := by
    funext ax; apply Fin.ext
    match ax with
    | ⟨0, _⟩ => exact (rhsB_0 _ _).trans ck
    | ⟨1, _⟩ => exact rhsB_1 _ _
  rw [hl, hr]
  rfl

/-- The whole product at row `r`, column `q`: the same sum, over row `r` of the 100000. -/
theorem whole_apply (X : FVec Ideal Cert.ReferenceIdeal.S100000x128 .f32) (W : FVec Ideal Cert.ReferenceIdeal.S128x180 .f32)
    (r : Fin 100000) (q : Fin 180) :
    Cert.Gcn.mm1 (F := Ideal) X W (ix2 r q) = ∑ k : Fin 128, X (ix2 r k) * W (ix2 k q) := by
  unfold Cert.Gcn.mm1
  show FloatOps.dotGeneral DW none _ X W (ix2 r q) = _
  rw [Ideal.dotGeneral_apply, ← Equiv.sum_comp (contrEquiv1 DW 128 rfl rfl).symm]
  refine Finset.sum_congr rfl fun k _ => ?_
  have ck := contrEquiv1_symm_val DW 128 rfl rfl k
  have hl : DW.lhsIdx (ix2 r q) ((contrEquiv1 DW 128 rfl rfl).symm k) = ix2 r k := by
    funext ax; apply Fin.ext
    match ax with
    | ⟨0, _⟩ => exact lhsW_0 _ _
    | ⟨1, _⟩ => exact (lhsW_1 _ _).trans ck
  have hr : DW.rhsIdx (ix2 r q) ((contrEquiv1 DW 128 rfl rfl).symm k) = ix2 k q := by
    funext ax; apply Fin.ext
    match ax with
    | ⟨0, _⟩ => exact (rhsW_0 _ _).trans ck
    | ⟨1, _⟩ => exact rhsW_1 _ _
  rw [hl, hr]

/-- Row `p` of a block and row `r` of the whole array give the same entry of the two products as soon as the two
    rows hold the same 128 entries: the sums agree term by term. -/
theorem point_eq (X : FVec Ideal Cert.ReferenceIdeal.S100000x128 .f32) (W : FVec Ideal Cert.ReferenceIdeal.S128x180 .f32)
    (x : Vec Ideal S2000x128 .f32) (w : Vec Ideal S128x180 .f32) (p : Fin 2000) (q : Fin 180) (r : Fin 100000)
    (hx : ∀ k : Fin 128, x (ix2 p k) = X (ix2 r k)) (hw : ∀ k : Fin 128, w (ix2 k q) = W (ix2 k q)) :
    k0_pay1 (F := Ideal) x w (ix2 p q) = Cert.Gcn.mm1 (F := Ideal) X W (ix2 r q) := by
  rw [block_apply, whole_apply]
  exact Finset.sum_congr rfl fun k _ => by rw [hx k, hw k]

/-! ## From the blocks to the array -/

theorem zeros : (![0, 0] : Fin 2 → Nat) = fun _ => 0 := funext fun a => by fin_cases a <;> rfl

/-- Where the three windows' blocks sit at grid point `t`: the row blocks of the first operand and of the result at
    block row `t`, the second operand whole. -/
theorem block_places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Blocks
variable (V : (c : Dev nD) → (b : Ref sig .tc) → Buf (Elt Ideal) ((c : Thread nD τ).loc b))

/-- The first window's block at point `t` is rows `2000 t … 2000 t + 1999` of the first array. -/
theorem rows_apply (c : Dev nD) (t : Fin cfg0.N) (p : Fin 2000) (k : Fin 128) (r : Fin 100000) (hr : r.val = t.val * 2000 + p.val) :
    (iblk0 (F := Ideal) V c 0 t : Vec Ideal S2000x128 .f32) (ix2 p k) = (V c main_arg0 : S100000x128.Idx → Elt Ideal .f32) (ix2 r k) := by
  obtain ⟨e0, e1, -⟩ := block_places t
  unfold iblk0
  rw [View.read_apply]
  show V c main_arg0 _ = V c main_arg0 _
  congr 1
  funext a
  apply Fin.ext
  match a with
  | ⟨0, _⟩ => show win0_0.index t 0 * 2000 + 1 * p.val = r.val; rw [e0, hr]; omega
  | ⟨1, _⟩ => show win0_0.index t 1 * 128 + 1 * k.val = k.val; rw [e1]; omega

/-- The second window's block at every point is the whole second array. -/
theorem weights_apply (c : Dev nD) (t : Fin cfg0.N) (k : Fin 128) (q : Fin 180) :
    (iblk0 (F := Ideal) V c 1 t : Vec Ideal S128x180 .f32) (ix2 k q) = (V c main_arg1 : S128x180.Idx → Elt Ideal .f32) (ix2 k q) := by
  obtain ⟨-, -, e2, e3, -⟩ := block_places t
  unfold iblk0
  rw [View.read_apply]
  show V c main_arg1 _ = V c main_arg1 _
  congr 1
  funext a
  apply Fin.ext
  match a with
  | ⟨0, _⟩ => show win0_1.index t 0 * 128 + 1 * k.val = k.val; rw [e2]; omega
  | ⟨1, _⟩ => show win0_1.index t 1 * 180 + 1 * q.val = q.val; rw [e3]; omega

end Blocks

section Array
variable (V : (c : Dev nD) → (b : Ref sig .tc) → Buf (Elt Ideal) ((c : Thread nD τ).loc b))

/-- What grid point `t` writes back is block `t` of the whole product of the two arrays the region reads. -/
theorem flushed_eq (c : Dev nD) (t : Fin cfg0.N) :
    (dat0 (F := Ideal) V c).flushed 2 t
      = ((cfg0.win 2).blk t).view.read (Elt Ideal) (Cert.Gcn.mm1 (F := Ideal) (V c main_arg0) (V c main_arg1)) := by
  show (cfg0.win 2).cut (grid0.coords t) ((dat0 V c).after 2 t) = _
  rw [after0_2]
  unfold out0_2
  rw [View.canon_unit_zero zeros]
  simp only [View.ld_unit_zero (S := S2000x128) zeros, View.ld_unit_zero (S := S128x180) zeros]
  have hN : t.val < 50 := Nat.lt_of_lt_of_eq t.isLt N_0
  obtain ⟨-, -, -, -, e4, e5⟩ := block_places t
  funext j
  obtain ⟨p, q, rfl⟩ : ∃ (p : Fin 2000) (q : Fin 180), j = ix2 p q := ⟨j 0, j 1, eq_ix2 j⟩
  have hemb : ((cfg0.win 2).blk t).view.emb (ix2 p q)
      = (ix2 (⟨t.val * 2000 + p.val, by omega⟩ : Fin 100000) q : S100000x180.Idx) := by
    funext a
    apply Fin.ext
    match a with
    | ⟨0, _⟩ => show win0_2.index t 0 * 2000 + 1 * p.val = t.val * 2000 + p.val; rw [e4]; omega
    | ⟨1, _⟩ => show win0_2.index t 1 * 180 + 1 * q.val = q.val; rw [e5]; omega
  show k0_pay1 (F := Ideal) (iblk0 V c 0 t) (iblk0 V c 1 t) (ix2 p q)
      = Cert.Gcn.mm1 (F := Ideal) (V c main_arg0) (V c main_arg1) (((cfg0.win 2).blk t).view.emb (ix2 p q))
  rw [hemb]
  exact point_eq (V c main_arg0) (V c main_arg1) (iblk0 V c 0 t) (iblk0 V c 1 t) p q ⟨t.val * 2000 + p.val, by omega⟩
    (fun k => rows_apply V c t p k _ rfl) (fun k => weights_apply V c t k q)

/-- An index of the result array is in point `t`'s block iff each coordinate is in the block's range on its axis. -/
theorem mem_blk (t : Fin cfg0.N) (i : S100000x180.Idx) :
    i ∈ ((cfg0.win 2).blk t).view.set ↔ ∀ a : Fin 2, win0_2.index t a * S2000x180.size a ≤ (i a).val ∧ (i a).val < win0_2.index t a * S2000x180.size a + S2000x180.size a := by
  show i ∈ ((View.whole main_v27).slice (win0_2.rect t)).set ↔ _
  rw [View.set_slice_whole, Rect.mem_set_unit]
  exact Iff.rfl

/-- Every row lies in some point's block: row `r` in the block of point `r / 2000`. -/
theorem cover (i : S100000x180.Idx) : ∃ t : Fin cfg0.N, (cfg0.win 2).flush t = true ∧ i ∈ ((cfg0.win 2).blk t).view.set := by
  have hi0 : (i 0).val < 100000 := (i 0).isLt
  have hi1 : (i 1).val < 180 := (i 1).isLt
  have hlt : (i 0).val / 2000 < cfg0.N := by rw [show cfg0.N = 50 from N_0]; omega
  obtain ⟨-, -, -, -, e4, e5⟩ := block_places ⟨(i 0).val / 2000, hlt⟩
  refine ⟨⟨(i 0).val / 2000, hlt⟩, flush0_2 _, ?_⟩
  rw [mem_blk]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e4]; dsimp only; omega
  | ⟨1, _⟩ =>
    show win0_2.index ⟨(i 0).val / 2000, hlt⟩ (1 : Fin 2) * 180 ≤ (i 1).val ∧ (i 1).val < win0_2.index ⟨(i 0).val / 2000, hlt⟩ (1 : Fin 2) * 180 + 180
    rw [e5]; omega

end Array

/-- After the first region its output array is the whole matrix product of the two arrays it reads. -/
theorem final (V : (c : Dev nD) → (b : Ref sig .tc) → Buf (Elt Ideal) ((c : Thread nD τ).loc b)) (c : Dev nD) :
    (dat0 (F := Ideal) V c).arrAt 2 cfg0.N = Cert.Gcn.mm1 (F := Ideal) (V c main_arg0) (V c main_arg1) :=
  (dat0 (F := Ideal) V c).arrAt_eq_of_cover 2 (Cert.Gcn.mm1 (F := Ideal) (V c main_arg0) (V c main_arg1))
    (fun t _ => flushed_eq V c t) cover

end Cert.KernelIdeal.Reg0

end
-- ==== Proof.Reg1.lean ====
import proofs.«178770_j81570018886156_1_alg».proof.Proof.Gen.KernelIdeal.Frame
import proofs.«178770_j81570018886156_1_alg».proof.Proof.Gen.ReferenceIdeal
import proofs.«178770_j81570018886156_1_alg».proof.Proof.Spec
import Idealize.ShloMosaic.PureOps.Ideal
import Idealize.ShloMosaic.PureOps.Ideal.Laws
import Idealize.ShloMosaic.Lib.Pipeline.Value
import Idealize.ShloMosaic.Lib.ValueIdx

/-
  The bias-and-leaky region on rows of width 180.

  The region walks the 100000 rows in 50 blocks of 2000 rows. At each block it adds the one bias row to every row of
  the block and then keeps an entry v that is positive, replacing any other by v · s (s the slope). The specification
  adds the same bias row and keeps an entry that is non-negative, replacing any other by s · v. The two agree entry by
  entry: they differ only at v = 0, where both give 0, and in the order of the product. The blocks are the row blocks
  of one whole-array function, and together they cover every row, so the output array ends as that function of the
  input array and the bias row.
-/

set_option maxRecDepth 16384

noncomputable section

namespace Cert.KernelIdeal.Reg1

open Cert.KernelIdeal Cert.KernelIdeal.Gen
open Idealize.ShloMosaic Idealize.ShloMosaic.TcCoe Idealize.SL.Sem
open Idealize.ShloMosaic.Pipeline (Dat Cfg Window)

/-! ## One entry -/

/-- Keeping a positive entry and scaling the others on the right is keeping a non-negative entry and scaling the
    others on the left: at zero both give zero, and below zero the product commutes. -/
theorem leaky_law (v s : EReal) :
    Scalar.select (Ideal.cmp .ogt v 0) v (v * s) = Scalar.select (Ideal.cmp .oge v 0) v (s * v) := by
  unfold Scalar.select Ideal.cmp
  rcases lt_trichotomy v 0 with h | h | h
  · have h1 : ¬ (0 < v) := not_lt.mpr h.le
    have h2 : ¬ (0 ≤ v) := not_le.mpr h
    simp [h1, h2, mul_comm]
  · subst h; simp
  · have h2 : 0 ≤ v := h.le
    simp [h, h2]

/-- The one-row bias block spread down the 2000 rows of a block, read at an entry: the bias row's entry in that column. -/
theorem bias_row_apply (x1 : Vec Ideal S1x180 .f32) (j : S2000x180.Idx) (k : S1x180.Idx)
    (hk0 : (k 0).val = 0) (hk1 : (k 1).val = (j 1).val) :
    broadcastTo S2000x180 x1 broadcasts_S1x180_S2000x180 j = x1 k := by
  refine broadcastTo_apply x1 _ j k fun a => ?_
  match a with
  | ⟨0, _⟩ => exact hk0
  | ⟨1, _⟩ => exact hk1

/-- The body's result at an entry of a block: with v the row entry plus the bias entry of its column, v if it is
    positive and v times the slope otherwise. -/
theorem pay_apply (x0 : Vec Ideal S2000x180 .f32) (x1 : Vec Ideal S1x180 .f32) (j : S2000x180.Idx) (k : S1x180.Idx)
    (hk0 : (k 0).val = 0) (hk1 : (k 1).val = (j 1).val) :
    k1_pay1 x0 x1 j
      = Scalar.select (Ideal.cmp .ogt (x0 j + x1 k) 0) (x0 j + x1 k) ((x0 j + x1 k) * Ideal.ofBits .f32 0x3C23D70A#32) := by
  unfold k1_pay1
  simp only [shapeCast_self]
  show Scalar.select (Ideal.cmp .ogt (x0 j + broadcastTo S2000x180 x1 broadcasts_S1x180_S2000x180 j) (Ideal.ofBits .f32 0x00000000#32))
      (x0 j + broadcastTo S2000x180 x1 broadcasts_S1x180_S2000x180 j)
      ((x0 j + broadcastTo S2000x180 x1 broadcasts_S1x180_S2000x180 j) * Ideal.ofBits .f32 0x3C23D70A#32) = _
  rw [bias_row_apply x1 j k hk0 hk1, Ideal.ofBits_zero_f32]

/-- The specification at an entry of the array: with v the entry plus the bias entry of its column, v if it is
    non-negative and the slope times v otherwise. -/
theorem spec_apply (a : Cert.Gcn.Arr Ideal S100000x180 .f32) (b : Cert.Gcn.Arr Ideal S1x180 .f32)
    (i : S100000x180.Idx) (k : S1x180.Idx) (hk0 : (k 0).val = 0) (hk1 : (k 1).val = (i 1).val) :
    Cert.Gcn.biasLeaky180 (F := Ideal) a b i
      = Scalar.select (Ideal.cmp .oge ((a : S100000x180.Idx → EReal) i + (b : S1x180.Idx → EReal) k) 0)
          ((a : S100000x180.Idx → EReal) i + (b : S1x180.Idx → EReal) k)
          (Ideal.ofBits .f32 0x3C23D70A#32 * ((a : S100000x180.Idx → EReal) i + (b : S1x180.Idx → EReal) k)) := by
  have hb : broadcastInDim Cert.ReferenceIdeal.S100000x180 ![0, 1] Cert.ReferenceIdeal.Facts₀.bcast_S1x180_S100000x180_0_1
      (b : S1x180.Idx → EReal) i = (b : S1x180.Idx → EReal) k := by
    refine broadcastInDim_apply _ _ _ i k fun a => ?_
    match a with
    | ⟨0, _⟩ => exact hk0
    | ⟨1, _⟩ => exact hk1
  unfold Cert.Gcn.biasLeaky180 Cert.Gcn.leaky180
  show Scalar.select
      (Ideal.cmp .oge ((a : S100000x180.Idx → EReal) i + broadcastInDim Cert.ReferenceIdeal.S100000x180 ![0, 1] Cert.ReferenceIdeal.Facts₀.bcast_S1x180_S100000x180_0_1 (b : S1x180.Idx → EReal) i) (Ideal.ofBits .f32 0x00000000#32))
      ((a : S100000x180.Idx → EReal) i + broadcastInDim Cert.ReferenceIdeal.S100000x180 ![0, 1] Cert.ReferenceIdeal.Facts₀.bcast_S1x180_S100000x180_0_1 (b : S1x180.Idx → EReal) i)
      (Ideal.ofBits .f32 0x3C23D70A#32 * ((a : S100000x180.Idx → EReal) i + broadcastInDim Cert.ReferenceIdeal.S100000x180 ![0, 1] Cert.ReferenceIdeal.Facts₀.bcast_S1x180_S100000x180_0_1 (b : S1x180.Idx → EReal) i)) = _
  rw [hb, Ideal.ofBits_zero_f32]

/-- At one entry the body's result and the specification's agree when their operands agree: the row entry read at the
    same place of the array, the bias entry in the same column of the one bias row. -/
theorem entry_eq (x0 : Vec Ideal S2000x180 .f32) (x1 : Vec Ideal S1x180 .f32)
    (a : Cert.Gcn.Arr Ideal S100000x180 .f32) (b : Cert.Gcn.Arr Ideal S1x180 .f32)
    (j : S2000x180.Idx) (i : S100000x180.Idx) (k : S1x180.Idx)
    (hk0 : (k 0).val = 0) (hk1 : (k 1).val = (j 1).val) (hi1 : (i 1).val = (j 1).val)
    (h0 : x0 j = (a : S100000x180.Idx → EReal) i) (h1 : x1 k = (b : S1x180.Idx → EReal) k) :
    k1_pay1 x0 x1 j = Cert.Gcn.biasLeaky180 (F := Ideal) a b i := by
  rw [pay_apply x0 x1 j k hk0 hk1, spec_apply a b i k hk0 (hk1.trans hi1.symm), h0, h1, leaky_law]

/-! ## From the blocks to the array -/

theorem offsets_zero : (![0, 0] : Fin 2 → Nat) = fun _ => 0 := funext fun a => by fin_cases a <;> rfl

/-- Where the three windows' blocks sit at each of the 50 points: the input's and the output's block at point t is
    row block t (columns whole), and the bias row's block is always the whole one-row array. -/
theorem block_places : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point t writes back is row block t of the specification's array: entry (r, q) of the block is entry
    (2000 t + r, q) of the array, whose input entry is the input block's (r, q) and whose bias entry is (0, q). -/
theorem flushed_eq (V : (c : Dev nD) → (b : Ref sig .tc) → Buf (Elt Ideal) ((c : Thread nD τ).loc b)) (c : Dev nD)
    (t : Fin cfg1.N) :
    (dat1 (F := Ideal) V c).flushed 2 t
      = ((cfg1.win 2).blk t).view.read (Elt Ideal) (Cert.Gcn.biasLeaky180 (F := Ideal) (V c main_v40) (V c main_v41)) := by
  show (cfg1.win 2).cut (grid1.coords t) ((dat1 V c).after 2 t) = _
  rw [after1_2]
  unfold out1_2
  rw [View.canon_unit_zero offsets_zero]
  simp only [View.ld_unit_zero (S := S2000x180) offsets_zero, View.ld_unit_zero (S := S1x180) offsets_zero]
  obtain ⟨e0, e1, e2, e3, e4, e5⟩ := block_places t
  funext j
  show k1_pay1 (iblk1 V c 0 t) (iblk1 V c 1 t) j
    = Cert.Gcn.biasLeaky180 (F := Ideal) (V c main_v40) (V c main_v41) (((cfg1.win 2).blk t).view.emb j)
  refine entry_eq (iblk1 V c 0 t) (iblk1 V c 1 t) (V c main_v40) (V c main_v41) j (((cfg1.win 2).blk t).view.emb j)
    (ValueIdx.ix2 (⟨0, by decide⟩ : Fin 1) (j 1)) rfl rfl ?_ ?_ ?_
  · show win1_2.index t (1 : Fin 2) * 180 + 1 * (j 1).val = (j 1).val
    rw [e5]; omega
  · show V c main_v40 (((cfg1.win 0).blk t).view.emb j) = V c main_v40 (((cfg1.win 2).blk t).view.emb j)
    refine congrArg _ (funext fun a => Fin.ext ?_)
    match a with
    | ⟨0, _⟩ => show win1_0.index t (0 : Fin 2) * 2000 + 1 * (j 0).val = win1_2.index t (0 : Fin 2) * 2000 + 1 * (j 0).val; rw [e0, e4]
    | ⟨1, _⟩ => show win1_0.index t (1 : Fin 2) * 180 + 1 * (j 1).val = win1_2.index t (1 : Fin 2) * 180 + 1 * (j 1).val; rw [e1, e5]
  · show V c main_v41 (((cfg1.win 1).blk t).view.emb (ValueIdx.ix2 (⟨0, by decide⟩ : Fin 1) (j 1)))
      = V c main_v41 (ValueIdx.ix2 (⟨0, by decide⟩ : Fin 1) (j 1))
    refine congrArg _ (funext fun a => Fin.ext ?_)
    match a with
    | ⟨0, _⟩ => show win1_1.index t (0 : Fin 2) * 1 + 1 * 0 = 0; rw [e2]
    | ⟨1, _⟩ => show win1_1.index t (1 : Fin 2) * 180 + 1 * (j 1).val = (j 1).val; rw [e3]; omega

/-- An entry of the output array is in point t's block iff each coordinate is in the block's range on its axis. -/
theorem mem_blk (t : Fin cfg1.N) (i : S100000x180.Idx) :
    i ∈ ((cfg1.win 2).blk t).view.set
      ↔ ∀ a : Fin 2, win1_2.index t a * S2000x180.size a ≤ (i a).val
          ∧ (i a).val < win1_2.index t a * S2000x180.size a + S2000x180.size a := by
  show i ∈ ((View.whole main_v42).slice (win1_2.rect t)).set ↔ _
  rw [View.set_slice_whole, Rect.mem_set_unit]
  exact Iff.rfl

/-- Every entry is in some point's block: row r lies in the block of point r / 2000. -/
theorem cover (i : S100000x180.Idx) :
    ∃ t : Fin cfg1.N, (cfg1.win 2).flush t = true ∧ i ∈ ((cfg1.win 2).blk t).view.set := by
  have hi0 : (i 0).val < 100000 := (i 0).isLt
  have hi1 : (i 1).val < 180 := (i 1).isLt
  have hN : cfg1.N = 50 := rfl
  let t : Fin cfg1.N := ⟨(i 0).val / 2000, by rw [hN]; omega⟩
  obtain ⟨-, -, -, -, e4, e5⟩ := block_places t
  have ht : t.val = (i 0).val / 2000 := rfl
  refine ⟨t, flush1_2 t, ?_⟩
  rw [mem_blk]
  intro a
  match a with
  | ⟨0, _⟩ =>
    show win1_2.index t (0 : Fin 2) * 2000 ≤ (i 0).val ∧ (i 0).val < win1_2.index t (0 : Fin 2) * 2000 + 2000
    rw [e4, ht]; omega
  | ⟨1, _⟩ =>
    show win1_2.index t (1 : Fin 2) * 180 ≤ (i 1).val ∧ (i 1).val < win1_2.index t (1 : Fin 2) * 180 + 180
    rw [e5]; omega

/-- After the second region its output array is the bias row added to every row of its input, then the leaky step. -/
theorem final (V : (c : Dev nD) → (b : Ref sig .tc) → Buf (Elt Ideal) ((c : Thread nD τ).loc b)) (c : Dev nD) :
    (dat1 (F := Ideal) V c).arrAt 2 cfg1.N = Cert.Gcn.biasLeaky180 (F := Ideal) (V c main_v40) (V c main_v41) :=
  (dat1 (F := Ideal) V c).arrAt_eq_of_cover 2 (Cert.Gcn.biasLeaky180 (F := Ideal) (V c main_v40) (V c main_v41))
    (fun t _ => flushed_eq V c t) cover

end Cert.KernelIdeal.Reg1

end
-- ==== Proof.Reg2.lean ====
/-
  The third region computes a matrix product block of rows by block of rows: grid point `t` multiplies rows
  `2000 t … 2000 t + 1999` of the first array by the whole second array and writes rows `2000 t … 2000 t + 1999` of
  the result. Entry (r, q) of a product of matrices depends only on row r of the left factor and column q of the right
  one: it is the sum over the 180 contracted positions k of (r, k) times (k, q). A block's row p is the whole array's
  row `2000 t + p`, so the block's product at (p, q) and the whole product at (2000 t + p, q) are the same sum, term by
  term; the 50 blocks tile the 100000 rows, so the array the region leaves is the whole product.
-/
import proofs.«178770_j81570018886156_1_alg».proof.Proof.Gen.KernelIdeal.Frame
import proofs.«178770_j81570018886156_1_alg».proof.Proof.Gen.ReferenceIdeal
import proofs.«178770_j81570018886156_1_alg».proof.Proof.Spec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Reg2

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## The two products' index maps, coordinate by coordinate -/

/-- The dimension numbers of one block's product: 2000 rows of width 180 times a 180 × 120 matrix. -/
abbrev DB : DotDims S2000x180 S180x120 S2000x120 := Cert.KernelIdeal.dot_S2000x180_S180x120_S2000x120_1_0_0_1_n_n
/-- The dimension numbers of the whole product: 100000 rows of width 180 times the same matrix. -/
abbrev DW : DotDims Cert.ReferenceIdeal.S100000x180 Cert.ReferenceIdeal.S180x120 Cert.ReferenceIdeal.S100000x120 :=
  Cert.ReferenceIdeal.dot_S100000x180_S180x120_S100000x120_1_0_0_1_n_n

theorem lhsB_0 (j : S2000x120.Idx) (k : DB.contr.Idx) : (DB.lhsIdx j k 0 : ℕ) = j 0 := by
  simp [DotDims.lhsIdx, DB, Cert.KernelIdeal.dot_S2000x180_S180x120_S2000x120_1_0_0_1_n_n]; rfl
theorem lhsB_1 (j : S2000x120.Idx) (k : DB.contr.Idx) : (DB.lhsIdx j k 1 : ℕ) = k ⟨0, by decide⟩ := by
  simp [DotDims.lhsIdx, DB, Cert.KernelIdeal.dot_S2000x180_S180x120_S2000x120_1_0_0_1_n_n]; rfl
theorem rhsB_0 (j : S2000x120.Idx) (k : DB.contr.Idx) : (DB.rhsIdx j k 0 : ℕ) = k ⟨0, by decide⟩ := by
  simp [DotDims.rhsIdx, DB, Cert.KernelIdeal.dot_S2000x180_S180x120_S2000x120_1_0_0_1_n_n]; rfl
theorem rhsB_1 (j : S2000x120.Idx) (k : DB.contr.Idx) : (DB.rhsIdx j k 1 : ℕ) = j 1 := by
  simp [DotDims.rhsIdx, DB, Cert.KernelIdeal.dot_S2000x180_S180x120_S2000x120_1_0_0_1_n_n]; rfl

theorem lhsW_0 (j : Cert.ReferenceIdeal.S100000x120.Idx) (k : DW.contr.Idx) : (DW.lhsIdx j k 0 : ℕ) = j 0 := by
  simp [DotDims.lhsIdx, DW, Cert.ReferenceIdeal.dot_S100000x180_S180x120_S100000x120_1_0_0_1_n_n]; rfl
theorem lhsW_1 (j : Cert.ReferenceIdeal.S100000x120.Idx) (k : DW.contr.Idx) : (DW.lhsIdx j k 1 : ℕ) = k ⟨0, by decide⟩ := by
  simp [DotDims.lhsIdx, DW, Cert.ReferenceIdeal.dot_S100000x180_S180x120_S100000x120_1_0_0_1_n_n]; rfl
theorem rhsW_0 (j : Cert.ReferenceIdeal.S100000x120.Idx) (k : DW.contr.Idx) : (DW.rhsIdx j k 0 : ℕ) = k ⟨0, by decide⟩ := by
  simp [DotDims.rhsIdx, DW, Cert.ReferenceIdeal.dot_S100000x180_S180x120_S100000x120_1_0_0_1_n_n]; rfl
theorem rhsW_1 (j : Cert.ReferenceIdeal.S100000x120.Idx) (k : DW.contr.Idx) : (DW.rhsIdx j k 1 : ℕ) = j 1 := by
  simp [DotDims.rhsIdx, DW, Cert.ReferenceIdeal.dot_S100000x180_S180x120_S100000x120_1_0_0_1_n_n]; rfl

/-! ## The two products read at an index -/

/-- One block's product at row `p`, column `q`: the sum over the 180 contracted positions of the products of row
    `p`'s entries with column `q`'s. The cast of the block to its own shape and the changes of float format on the
    way in are the identity on the extended reals, and the accumulator is the zero array. -/
theorem block_apply (x : Vec Ideal S2000x180 .f32) (w : Vec Ideal S180x120 .f32) (p : Fin 2000) (q : Fin 120) :
    k2_pay1 (F := Ideal) x w (ix2 p q) = ∑ k : Fin 180, x (ix2 p k) * w (ix2 k q) := by
  unfold k2_pay1
  refine (Ideal.matmul_constant_zero_apply DB none _ _ (ix2 p q)).trans ?_
  rw [← Equiv.sum_comp (contrEquiv1 DB 180 rfl rfl).symm]
  refine Finset.sum_congr rfl fun k _ => ?_
  have ck := contrEquiv1_symm_val DB 180 rfl rfl k
  have hl : DB.lhsIdx (ix2 p q) ((contrEquiv1 DB 180 rfl rfl).symm k) = ix2 p k := by
    funext ax; apply Fin.ext
    match ax with
    | ⟨0, _⟩ => exact lhsB_0 _ _
    | ⟨1, _⟩ => exact (lhsB_1 _ _).trans ck
  have hr : DB.rhsIdx (ix2 p q) ((contrEquiv1 DB 180 rfl rfl).symm k) = ix2 k q := by
    funext ax; apply Fin.ext
    match ax with
    | ⟨0, _⟩ => exact (rhsB_0 _ _).trans ck
    | ⟨1, _⟩ => exact rhsB_1 _ _
  rw [hl, hr]
  exact congrArg (· * w (ix2 k q)) (congrFun (shapeCast_self x shapeCasts_S2000x180_S2000x180) (ix2 p k))

/-- The whole product at row `r`, column `q`: the same sum, over row `r` of the 100000. -/
theorem whole_apply (X : FVec Ideal Cert.ReferenceIdeal.S100000x180 .f32) (W : FVec Ideal Cert.ReferenceIdeal.S180x120 .f32)
    (r : Fin 100000) (q : Fin 120) :
    Cert.Gcn.mm2 (F := Ideal) X W (ix2 r q) = ∑ k : Fin 180, X (ix2 r k) * W (ix2 k q) := by
  unfold Cert.Gcn.mm2
  show FloatOps.dotGeneral DW none _ X W (ix2 r q) = _
  rw [Ideal.dotGeneral_apply, ← Equiv.sum_comp (contrEquiv1 DW 180 rfl rfl).symm]
  refine Finset.sum_congr rfl fun k _ => ?_
  have ck := contrEquiv1_symm_val DW 180 rfl rfl k
  have hl : DW.lhsIdx (ix2 r q) ((contrEquiv1 DW 180 rfl rfl).symm k) = ix2 r k := by
    funext ax; apply Fin.ext
    match ax with
    | ⟨0, _⟩ => exact lhsW_0 _ _
    | ⟨1, _⟩ => exact (lhsW_1 _ _).trans ck
  have hr : DW.rhsIdx (ix2 r q) ((contrEquiv1 DW 180 rfl rfl).symm k) = ix2 k q := by
    funext ax; apply Fin.ext
    match ax with
    | ⟨0, _⟩ => exact (rhsW_0 _ _).trans ck
    | ⟨1, _⟩ => exact rhsW_1 _ _
  rw [hl, hr]

/-- Row `p` of a block and row `r` of the whole array give the same entry of the two products as soon as the two
    rows hold the same 180 entries: the sums agree term by term. -/
theorem point_eq (X : FVec Ideal Cert.ReferenceIdeal.S100000x180 .f32) (W : FVec Ideal Cert.ReferenceIdeal.S180x120 .f32)
    (x : Vec Ideal S2000x180 .f32) (w : Vec Ideal S180x120 .f32) (p : Fin 2000) (q : Fin 120) (r : Fin 100000)
    (hx : ∀ k : Fin 180, x (ix2 p k) = X (ix2 r k)) (hw : ∀ k : Fin 180, w (ix2 k q) = W (ix2 k q)) :
    k2_pay1 (F := Ideal) x w (ix2 p q) = Cert.Gcn.mm2 (F := Ideal) X W (ix2 r q) := by
  rw [block_apply, whole_apply]
  exact Finset.sum_congr rfl fun k _ => by rw [hx k, hw k]

/-! ## From the blocks to the array -/

theorem zeros : (![0, 0] : Fin 2 → Nat) = fun _ => 0 := funext fun a => by fin_cases a <;> rfl

/-- Where the three windows' blocks sit at grid point `t`: the row blocks of the first operand and of the result at
    block row `t`, the second operand whole. -/
theorem block_places : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section Blocks
variable (V : (c : Dev nD) → (b : Ref sig .tc) → Buf (Elt Ideal) ((c : Thread nD τ).loc b))

/-- The first window's block at point `t` is rows `2000 t … 2000 t + 1999` of the first array. -/
theorem rows_apply (c : Dev nD) (t : Fin cfg2.N) (p : Fin 2000) (k : Fin 180) (r : Fin 100000) (hr : r.val = t.val * 2000 + p.val) :
    (iblk2 (F := Ideal) V c 0 t : Vec Ideal S2000x180 .f32) (ix2 p k) = (V c main_v42 : S100000x180.Idx → Elt Ideal .f32) (ix2 r k) := by
  obtain ⟨e0, e1, -⟩ := block_places t
  unfold iblk2
  rw [View.read_apply]
  show V c main_v42 _ = V c main_v42 _
  congr 1
  funext a
  apply Fin.ext
  match a with
  | ⟨0, _⟩ => show win2_0.index t 0 * 2000 + 1 * p.val = r.val; rw [e0, hr]; omega
  | ⟨1, _⟩ => show win2_0.index t 1 * 180 + 1 * k.val = k.val; rw [e1]; omega

/-- The second window's block at every point is the whole second array. -/
theorem weights_apply (c : Dev nD) (t : Fin cfg2.N) (k : Fin 180) (q : Fin 120) :
    (iblk2 (F := Ideal) V c 1 t : Vec Ideal S180x120 .f32) (ix2 k q) = (V c main_arg3 : S180x120.Idx → Elt Ideal .f32) (ix2 k q) := by
  obtain ⟨-, -, e2, e3, -⟩ := block_places t
  unfold iblk2
  rw [View.read_apply]
  show V c main_arg3 _ = V c main_arg3 _
  congr 1
  funext a
  apply Fin.ext
  match a with
  | ⟨0, _⟩ => show win2_1.index t 0 * 180 + 1 * k.val = k.val; rw [e2]; omega
  | ⟨1, _⟩ => show win2_1.index t 1 * 120 + 1 * q.val = q.val; rw [e3]; omega

end Blocks

section Array
variable (V : (c : Dev nD) → (b : Ref sig .tc) → Buf (Elt Ideal) ((c : Thread nD τ).loc b))

/-- What grid point `t` writes back is block `t` of the whole product of the two arrays the region reads. -/
theorem flushed_eq (c : Dev nD) (t : Fin cfg2.N) :
    (dat2 (F := Ideal) V c).flushed 2 t
      = ((cfg2.win 2).blk t).view.read (Elt Ideal) (Cert.Gcn.mm2 (F := Ideal) (V c main_v42) (V c main_arg3)) := by
  show (cfg2.win 2).cut (grid2.coords t) ((dat2 V c).after 2 t) = _
  rw [after2_2]
  unfold out2_2
  rw [View.canon_unit_zero zeros]
  simp only [View.ld_unit_zero (S := S2000x180) zeros, View.ld_unit_zero (S := S180x120) zeros]
  have hN : t.val < 50 := Nat.lt_of_lt_of_eq t.isLt N_2
  obtain ⟨-, -, -, -, e4, e5⟩ := block_places t
  funext j
  obtain ⟨p, q, rfl⟩ : ∃ (p : Fin 2000) (q : Fin 120), j = ix2 p q := ⟨j 0, j 1, eq_ix2 j⟩
  have hemb : ((cfg2.win 2).blk t).view.emb (ix2 p q)
      = (ix2 (⟨t.val * 2000 + p.val, by omega⟩ : Fin 100000) q : S100000x120.Idx) := by
    funext a
    apply Fin.ext
    match a with
    | ⟨0, _⟩ => show win2_2.index t 0 * 2000 + 1 * p.val = t.val * 2000 + p.val; rw [e4]; omega
    | ⟨1, _⟩ => show win2_2.index t 1 * 120 + 1 * q.val = q.val; rw [e5]; omega
  show k2_pay1 (F := Ideal) (iblk2 V c 0 t) (iblk2 V c 1 t) (ix2 p q)
      = Cert.Gcn.mm2 (F := Ideal) (V c main_v42) (V c main_arg3) (((cfg2.win 2).blk t).view.emb (ix2 p q))
  rw [hemb]
  exact point_eq (V c main_v42) (V c main_arg3) (iblk2 V c 0 t) (iblk2 V c 1 t) p q ⟨t.val * 2000 + p.val, by omega⟩
    (fun k => rows_apply V c t p k _ rfl) (fun k => weights_apply V c t k q)

/-- An index of the result array is in point `t`'s block iff each coordinate is in the block's range on its axis. -/
theorem mem_blk (t : Fin cfg2.N) (i : S100000x120.Idx) :
    i ∈ ((cfg2.win 2).blk t).view.set ↔ ∀ a : Fin 2, win2_2.index t a * S2000x120.size a ≤ (i a).val ∧ (i a).val < win2_2.index t a * S2000x120.size a + S2000x120.size a := by
  show i ∈ ((View.whole main_v43).slice (win2_2.rect t)).set ↔ _
  rw [View.set_slice_whole, Rect.mem_set_unit]
  exact Iff.rfl

/-- Every row lies in some point's block: row `r` in the block of point `r / 2000`. -/
theorem cover (i : S100000x120.Idx) : ∃ t : Fin cfg2.N, (cfg2.win 2).flush t = true ∧ i ∈ ((cfg2.win 2).blk t).view.set := by
  have hi0 : (i 0).val < 100000 := (i 0).isLt
  have hi1 : (i 1).val < 120 := (i 1).isLt
  have hlt : (i 0).val / 2000 < cfg2.N := by rw [show cfg2.N = 50 from N_2]; omega
  obtain ⟨-, -, -, -, e4, e5⟩ := block_places ⟨(i 0).val / 2000, hlt⟩
  refine ⟨⟨(i 0).val / 2000, hlt⟩, flush2_2 _, ?_⟩
  rw [mem_blk]
  intro a
  match a with
  | ⟨0, _⟩ =>
    show win2_2.index ⟨(i 0).val / 2000, hlt⟩ (0 : Fin 2) * 2000 ≤ (i 0).val ∧ (i 0).val < win2_2.index ⟨(i 0).val / 2000, hlt⟩ (0 : Fin 2) * 2000 + 2000
    rw [e4]; dsimp only; omega
  | ⟨1, _⟩ =>
    show win2_2.index ⟨(i 0).val / 2000, hlt⟩ (1 : Fin 2) * 120 ≤ (i 1).val ∧ (i 1).val < win2_2.index ⟨(i 0).val / 2000, hlt⟩ (1 : Fin 2) * 120 + 120
    rw [e5]; omega

end Array

/-- After the third region its output array is the whole matrix product of the two arrays it reads. -/
theorem final (V : (c : Dev nD) → (b : Ref sig .tc) → Buf (Elt Ideal) ((c : Thread nD τ).loc b)) (c : Dev nD) :
    (dat2 (F := Ideal) V c).arrAt 2 cfg2.N = Cert.Gcn.mm2 (F := Ideal) (V c main_v42) (V c main_arg3) :=
  (dat2 (F := Ideal) V c).arrAt_eq_of_cover 2 (Cert.Gcn.mm2 (F := Ideal) (V c main_v42) (V c main_arg3))
    (fun t _ => flushed_eq V c t) cover

end Cert.KernelIdeal.Reg2

end
-- ==== Proof.Reg3.lean ====
import proofs.«178770_j81570018886156_1_alg».proof.Proof.Gen.KernelIdeal.Frame
import proofs.«178770_j81570018886156_1_alg».proof.Proof.Gen.ReferenceIdeal
import proofs.«178770_j81570018886156_1_alg».proof.Proof.Spec
import Idealize.ShloMosaic.PureOps.Ideal
import Idealize.ShloMosaic.PureOps.Ideal.Laws
import Idealize.ShloMosaic.Lib.Pipeline.Value
import Idealize.ShloMosaic.Lib.ValueIdx

/-
  The bias-and-leaky region on rows of width 120.

  The region walks the 100000 rows in 50 blocks of 2000 rows. At each block it adds the one bias row to every row of
  the block and then keeps an entry v that is positive, replacing any other by v · s (s the slope). The specification
  adds the same bias row and keeps an entry that is non-negative, replacing any other by s · v. The two agree entry by
  entry: they differ only at v = 0, where both give 0, and in the order of the product. The blocks are the row blocks
  of one whole-array function, and together they cover every row, so the output array ends as that function of the
  input array and the bias row.
-/

set_option maxRecDepth 16384

noncomputable section

namespace Cert.KernelIdeal.Reg3

open Cert.KernelIdeal Cert.KernelIdeal.Gen
open Idealize.ShloMosaic Idealize.ShloMosaic.TcCoe Idealize.SL.Sem
open Idealize.ShloMosaic.Pipeline (Dat Cfg Window)

/-! ## One entry -/

/-- Keeping a positive entry and scaling the others on the right is keeping a non-negative entry and scaling the
    others on the left: at zero both give zero, and below zero the product commutes. -/
theorem leaky_law (v s : EReal) :
    Scalar.select (Ideal.cmp .ogt v 0) v (v * s) = Scalar.select (Ideal.cmp .oge v 0) v (s * v) := by
  unfold Scalar.select Ideal.cmp
  rcases lt_trichotomy v 0 with h | h | h
  · have h1 : ¬ (0 < v) := not_lt.mpr h.le
    have h2 : ¬ (0 ≤ v) := not_le.mpr h
    simp [h1, h2, mul_comm]
  · subst h; simp
  · have h2 : 0 ≤ v := h.le
    simp [h, h2]

/-- The one-row bias block spread down the 2000 rows of a block, read at an entry: the bias row's entry in that column. -/
theorem bias_row_apply (x1 : Vec Ideal S1x120 .f32) (j : S2000x120.Idx) (k : S1x120.Idx)
    (hk0 : (k 0).val = 0) (hk1 : (k 1).val = (j 1).val) :
    broadcastTo S2000x120 x1 broadcasts_S1x120_S2000x120 j = x1 k := by
  refine broadcastTo_apply x1 _ j k fun a => ?_
  match a with
  | ⟨0, _⟩ => exact hk0
  | ⟨1, _⟩ => exact hk1

/-- The body's result at an entry of a block: with v the row entry plus the bias entry of its column, v if it is
    positive and v times the slope otherwise. -/
theorem pay_apply (x0 : Vec Ideal S2000x120 .f32) (x1 : Vec Ideal S1x120 .f32) (j : S2000x120.Idx) (k : S1x120.Idx)
    (hk0 : (k 0).val = 0) (hk1 : (k 1).val = (j 1).val) :
    k3_pay1 x0 x1 j
      = Scalar.select (Ideal.cmp .ogt (x0 j + x1 k) 0) (x0 j + x1 k) ((x0 j + x1 k) * Ideal.ofBits .f32 0x3C23D70A#32) := by
  unfold k3_pay1
  simp only [shapeCast_self]
  show Scalar.select (Ideal.cmp .ogt (x0 j + broadcastTo S2000x120 x1 broadcasts_S1x120_S2000x120 j) (Ideal.ofBits .f32 0x00000000#32))
      (x0 j + broadcastTo S2000x120 x1 broadcasts_S1x120_S2000x120 j)
      ((x0 j + broadcastTo S2000x120 x1 broadcasts_S1x120_S2000x120 j) * Ideal.ofBits .f32 0x3C23D70A#32) = _
  rw [bias_row_apply x1 j k hk0 hk1, Ideal.ofBits_zero_f32]

/-- The specification at an entry of the array: with v the entry plus the bias entry of its column, v if it is
    non-negative and the slope times v otherwise. -/
theorem spec_apply (a : Cert.Gcn.Arr Ideal S100000x120 .f32) (b : Cert.Gcn.Arr Ideal S1x120 .f32)
    (i : S100000x120.Idx) (k : S1x120.Idx) (hk0 : (k 0).val = 0) (hk1 : (k 1).val = (i 1).val) :
    Cert.Gcn.biasLeaky120 (F := Ideal) a b i
      = Scalar.select (Ideal.cmp .oge ((a : S100000x120.Idx → EReal) i + (b : S1x120.Idx → EReal) k) 0)
          ((a : S100000x120.Idx → EReal) i + (b : S1x120.Idx → EReal) k)
          (Ideal.ofBits .f32 0x3C23D70A#32 * ((a : S100000x120.Idx → EReal) i + (b : S1x120.Idx → EReal) k)) := by
  have hb : broadcastInDim Cert.ReferenceIdeal.S100000x120 ![0, 1] Cert.ReferenceIdeal.Facts₀.bcast_S1x120_S100000x120_0_1
      (b : S1x120.Idx → EReal) i = (b : S1x120.Idx → EReal) k := by
    refine broadcastInDim_apply _ _ _ i k fun a => ?_
    match a with
    | ⟨0, _⟩ => exact hk0
    | ⟨1, _⟩ => exact hk1
  unfold Cert.Gcn.biasLeaky120 Cert.Gcn.leaky120
  show Scalar.select
      (Ideal.cmp .oge ((a : S100000x120.Idx → EReal) i + broadcastInDim Cert.ReferenceIdeal.S100000x120 ![0, 1] Cert.ReferenceIdeal.Facts₀.bcast_S1x120_S100000x120_0_1 (b : S1x120.Idx → EReal) i) (Ideal.ofBits .f32 0x00000000#32))
      ((a : S100000x120.Idx → EReal) i + broadcastInDim Cert.ReferenceIdeal.S100000x120 ![0, 1] Cert.ReferenceIdeal.Facts₀.bcast_S1x120_S100000x120_0_1 (b : S1x120.Idx → EReal) i)
      (Ideal.ofBits .f32 0x3C23D70A#32 * ((a : S100000x120.Idx → EReal) i + broadcastInDim Cert.ReferenceIdeal.S100000x120 ![0, 1] Cert.ReferenceIdeal.Facts₀.bcast_S1x120_S100000x120_0_1 (b : S1x120.Idx → EReal) i)) = _
  rw [hb, Ideal.ofBits_zero_f32]

/-- At one entry the body's result and the specification's agree when their operands agree: the row entry read at the
    same place of the array, the bias entry in the same column of the one bias row. -/
theorem entry_eq (x0 : Vec Ideal S2000x120 .f32) (x1 : Vec Ideal S1x120 .f32)
    (a : Cert.Gcn.Arr Ideal S100000x120 .f32) (b : Cert.Gcn.Arr Ideal S1x120 .f32)
    (j : S2000x120.Idx) (i : S100000x120.Idx) (k : S1x120.Idx)
    (hk0 : (k 0).val = 0) (hk1 : (k 1).val = (j 1).val) (hi1 : (i 1).val = (j 1).val)
    (h0 : x0 j = (a : S100000x120.Idx → EReal) i) (h1 : x1 k = (b : S1x120.Idx → EReal) k) :
    k3_pay1 x0 x1 j = Cert.Gcn.biasLeaky120 (F := Ideal) a b i := by
  rw [pay_apply x0 x1 j k hk0 hk1, spec_apply a b i k hk0 (hk1.trans hi1.symm), h0, h1, leaky_law]

/-! ## From the blocks to the array -/

theorem offsets_zero : (![0, 0] : Fin 2 → Nat) = fun _ => 0 := funext fun a => by fin_cases a <;> rfl

/-- Where the three windows' blocks sit at each of the 50 points: the input's and the output's block at point t is
    row block t (columns whole), and the bias row's block is always the whole one-row array. -/
theorem block_places : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is row block t of the specification's array: entry (r, q) of the block is entry
    (2000 t + r, q) of the array, whose input entry is the input block's (r, q) and whose bias entry is (0, q). -/
theorem flushed_eq (V : (c : Dev nD) → (b : Ref sig .tc) → Buf (Elt Ideal) ((c : Thread nD τ).loc b)) (c : Dev nD)
    (t : Fin cfg3.N) :
    (dat3 (F := Ideal) V c).flushed 2 t
      = ((cfg3.win 2).blk t).view.read (Elt Ideal) (Cert.Gcn.biasLeaky120 (F := Ideal) (V c main_v56) (V c main_v57)) := by
  show (cfg3.win 2).cut (grid3.coords t) ((dat3 V c).after 2 t) = _
  rw [after3_2]
  unfold out3_2
  rw [View.canon_unit_zero offsets_zero]
  simp only [View.ld_unit_zero (S := S2000x120) offsets_zero, View.ld_unit_zero (S := S1x120) offsets_zero]
  obtain ⟨e0, e1, e2, e3, e4, e5⟩ := block_places t
  funext j
  show k3_pay1 (iblk3 V c 0 t) (iblk3 V c 1 t) j
    = Cert.Gcn.biasLeaky120 (F := Ideal) (V c main_v56) (V c main_v57) (((cfg3.win 2).blk t).view.emb j)
  refine entry_eq (iblk3 V c 0 t) (iblk3 V c 1 t) (V c main_v56) (V c main_v57) j (((cfg3.win 2).blk t).view.emb j)
    (ValueIdx.ix2 (⟨0, by decide⟩ : Fin 1) (j 1)) rfl rfl ?_ ?_ ?_
  · show win3_2.index t (1 : Fin 2) * 120 + 1 * (j 1).val = (j 1).val
    rw [e5]; omega
  · show V c main_v56 (((cfg3.win 0).blk t).view.emb j) = V c main_v56 (((cfg3.win 2).blk t).view.emb j)
    refine congrArg _ (funext fun a => Fin.ext ?_)
    match a with
    | ⟨0, _⟩ => show win3_0.index t (0 : Fin 2) * 2000 + 1 * (j 0).val = win3_2.index t (0 : Fin 2) * 2000 + 1 * (j 0).val; rw [e0, e4]
    | ⟨1, _⟩ => show win3_0.index t (1 : Fin 2) * 120 + 1 * (j 1).val = win3_2.index t (1 : Fin 2) * 120 + 1 * (j 1).val; rw [e1, e5]
  · show V c main_v57 (((cfg3.win 1).blk t).view.emb (ValueIdx.ix2 (⟨0, by decide⟩ : Fin 1) (j 1)))
      = V c main_v57 (ValueIdx.ix2 (⟨0, by decide⟩ : Fin 1) (j 1))
    refine congrArg _ (funext fun a => Fin.ext ?_)
    match a with
    | ⟨0, _⟩ => show win3_1.index t (0 : Fin 2) * 1 + 1 * 0 = 0; rw [e2]
    | ⟨1, _⟩ => show win3_1.index t (1 : Fin 2) * 120 + 1 * (j 1).val = (j 1).val; rw [e3]; omega

/-- An entry of the output array is in point t's block iff each coordinate is in the block's range on its axis. -/
theorem mem_blk (t : Fin cfg3.N) (i : S100000x120.Idx) :
    i ∈ ((cfg3.win 2).blk t).view.set
      ↔ ∀ a : Fin 2, win3_2.index t a * S2000x120.size a ≤ (i a).val
          ∧ (i a).val < win3_2.index t a * S2000x120.size a + S2000x120.size a := by
  show i ∈ ((View.whole main_v58).slice (win3_2.rect t)).set ↔ _
  rw [View.set_slice_whole, Rect.mem_set_unit]
  exact Iff.rfl

/-- Every entry is in some point's block: row r lies in the block of point r / 2000. -/
theorem cover (i : S100000x120.Idx) :
    ∃ t : Fin cfg3.N, (cfg3.win 2).flush t = true ∧ i ∈ ((cfg3.win 2).blk t).view.set := by
  have hi0 : (i 0).val < 100000 := (i 0).isLt
  have hi1 : (i 1).val < 120 := (i 1).isLt
  have hN : cfg3.N = 50 := rfl
  let t : Fin cfg3.N := ⟨(i 0).val / 2000, by rw [hN]; omega⟩
  obtain ⟨-, -, -, -, e4, e5⟩ := block_places t
  have ht : t.val = (i 0).val / 2000 := rfl
  refine ⟨t, flush3_2 t, ?_⟩
  rw [mem_blk]
  intro a
  match a with
  | ⟨0, _⟩ =>
    show win3_2.index t (0 : Fin 2) * 2000 ≤ (i 0).val ∧ (i 0).val < win3_2.index t (0 : Fin 2) * 2000 + 2000
    rw [e4, ht]; omega
  | ⟨1, _⟩ =>
    show win3_2.index t (1 : Fin 2) * 120 ≤ (i 1).val ∧ (i 1).val < win3_2.index t (1 : Fin 2) * 120 + 120
    rw [e5]; omega

/-- After the fourth region its output array is the bias row added to every row of its input, then the leaky step. -/
theorem final (V : (c : Dev nD) → (b : Ref sig .tc) → Buf (Elt Ideal) ((c : Thread nD τ).loc b)) (c : Dev nD) :
    (dat3 (F := Ideal) V c).arrAt 2 cfg3.N = Cert.Gcn.biasLeaky120 (F := Ideal) (V c main_v56) (V c main_v57) :=
  (dat3 (F := Ideal) V c).arrAt_eq_of_cover 2 (Cert.Gcn.biasLeaky120 (F := Ideal) (V c main_v56) (V c main_v57))
    (fun t _ => flushed_eq V c t) cover

end Cert.KernelIdeal.Reg3

end
-- ==== Proof.Reg4.lean ====
/-
  The last region: each grid point takes a block of 2000 rows of the hidden array, multiplies it by the 120 × 16 weight
  matrix, adds the bias row to every row, and replaces each row `x` of sixteen logits by `(x − max x) − log Σ exp (x − max x)`.
  The reference does the same on all 100000 rows at once. Row `t · 2000 + p` of the whole product is a sum over that row of
  the input alone, so it is row `p` of block `t`'s product; the bias row is the same row on both sides; and the row-wise part
  is one function of a row's sixteen logits (`rowLsm`), reached from the kernel's lane reductions and from the reference's
  reductions over the second axis alike. The maximum is carried as a fold of `max` from the least value, so the reference's
  extra `max` against the least value changes nothing. The fifty blocks tile the output array: row `r` lies in block `r / 2000`.
-/
import proofs.«178770_j81570018886156_1_alg».proof.Proof.Gen.KernelIdeal.Frame
import proofs.«178770_j81570018886156_1_alg».proof.Proof.Gen.ReferenceIdeal
import proofs.«178770_j81570018886156_1_alg».proof.Proof.Spec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Reg4

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## One row: the sixteen logits and their log-softmax -/

/-- The largest of a row's sixteen entries (never below the least value). -/
def rowTop (l : Fin 16 → EReal) : EReal :=
  (Finset.univ : Finset (Fin 16)).fold max (Ideal.ofBits .f32 0xFF800000#32) l

/-- A row's entry with the largest taken off, less the logarithm of the sum of the exponentials of all the row's entries
    so shifted. -/
def rowLsm (l : Fin 16 → EReal) (q : Fin 16) : EReal :=
  (l q - rowTop l) - Ideal.log (∑ q' : Fin 16, Ideal.exp (l q' - rowTop l))

/-- The least value taken against a fold of maxima that started from it changes nothing. -/
theorem max_rowTop (l : Fin 16 → EReal) : max (Ideal.ofBits .f32 0xFF800000#32) (rowTop l) = rowTop l :=
  max_eq_right ((Finset.le_fold_max _).mpr (Or.inl le_rfl))

/-! ## The kernel's side of the row-wise part -/

/-- The kernel's first shift: each entry less its row's lane maximum. -/
def kshift (v9 : FVec Ideal S2000x16 .f32) : FVec Ideal S2000x16 .f32 :=
  have v10 : FVec Ideal S2000 .f32 := multiReduction .maximumf [1] S2000 v9 0xFF800000#32 reduces_S2000x16_S2000 (.inl rfl) rfl
  have v11 : FVec Ideal S2000x1 .f32 := shapeCast S2000x1 v10 shapeCasts_S2000_S2000x1
  have v12 : FVec Ideal S2000x16 .f32 := broadcastTo S2000x16 v11 broadcasts_S2000x1_S2000x16
  subf v9 v12

/-- The kernel's steps after its logits: the shift, the exponentials' lane sum, its logarithm, the second shift. -/
def ksoft (v9 : FVec Ideal S2000x16 .f32) : FVec Ideal S2000x16 .f32 :=
  have v13 : FVec Ideal S2000x16 .f32 := kshift v9
  have v14 : FVec Ideal S2000x16 .f32 := exp v13
  have v15 : FVec Ideal S2000 .f32 := multiReduction .add [1] S2000 v14 0x00000000#32 reduces_S2000x16_S2000 (.inl rfl) rfl
  have v16 : FVec Ideal S2000x1 .f32 := shapeCast S2000x1 v15 shapeCasts_S2000_S2000x1
  have v17 : FVec Ideal S2000x1 .f32 := log v16
  have v18 : FVec Ideal S2000x16 .f32 := broadcastTo S2000x16 v17 broadcasts_S2000x1_S2000x16
  subf v13 v18

/-- The kernel's logits: the block product into a zero accumulator plus the bias row sent down the rows. -/
def klogits (v0 : Vec Ideal S2000x120 .f32) (v3 : Vec Ideal S120x16 .f32) (v6 : Vec Ideal S1x16 .f32) : FVec Ideal S2000x16 .f32 :=
  have v1 : FVec Ideal S2000x120 .f32 := shapeCast S2000x120 v0 shapeCasts_S2000x120_S2000x120
  have v2 : FVec Ideal S2000x120 .bf16 := truncf .bf16 v1 bitsLt_bf16_f32
  have v4 : FVec Ideal S120x16 .bf16 := truncf .bf16 v3 bitsLt_bf16_f32
  have cst : FVec Ideal S2000x16 .f32 := constant S2000x16 .f32 0x00000000#32
  have v5 : FVec Ideal S2000x16 .f32 := matmul dot_S2000x120_S120x16_S2000x16_1_0_0_1_n_n none v2 v4 cst
  have v7 : FVec Ideal S1x16 .f32 := shapeCast S1x16 v6 shapeCasts_S1x16_S1x16
  have v8 : FVec Ideal S2000x16 .f32 := broadcastTo S2000x16 v7 broadcasts_S1x16_S2000x16
  addf v5 v8

/-- The body's arithmetic is the row-wise part applied to the logits. -/
theorem pay_eq (v0 : Vec Ideal S2000x120 .f32) (v3 : Vec Ideal S120x16 .f32) (v6 : Vec Ideal S1x16 .f32) :
    k4_pay1 (F := Ideal) v0 v3 v6 = ksoft (klogits v0 v3 v6) := rfl

/-- A vector of 2000 entries laid out as a column, read at row `p`, is entry `p`. -/
theorem column_apply (v : FVec Ideal S2000 .f32) (p : Fin 2000) (z : Fin 1) :
    shapeCast S2000x1 v shapeCasts_S2000_S2000x1 (ix2 p z) = v (ix1 p) := by
  refine shapeCast_apply v shapeCasts_S2000_S2000x1 (ix2 p z) (ix1 p) ?_
  rw [Shape.rowMajor_val_one, Shape.rowMajor_val_two]
  show p.val = p.val * 1 + z.val
  have := z.isLt
  omega

/-- A column of 2000 entries sent across the sixteen lanes, read at `(p, q)`, is its entry at row `p`. -/
theorem lanes_apply (v : FVec Ideal S2000x1 .f32) (p : Fin 2000) (q : Fin 16) :
    broadcastTo S2000x16 v broadcasts_S2000x1_S2000x16 (ix2 p q) = v (ix2 p (0 : Fin 1)) := by
  refine broadcastTo_apply v broadcasts_S2000x1_S2000x16 (ix2 p q) (ix2 p (0 : Fin 1)) ?_
  intro a
  match a with
  | ⟨0, _⟩ => exact (if_neg (show ¬ (2000 : ℕ) = 1 by decide)).symm
  | ⟨1, _⟩ => exact (if_pos (show (1 : ℕ) = 1 from rfl)).symm

/-- Row `p` with lane `k` put back is `(p, k)`. -/
theorem lift_row (p : Fin 2000) (k : Fin (S2000x16.size 1)) :
    reduces_S2000x16_S2000.lift (ix1 p) k = ix2 p (⟨k.val, k.isLt⟩ : Fin 16) := by
  funext c; apply Fin.ext
  match c with
  | ⟨0, _⟩ => rfl
  | ⟨1, _⟩ => rfl

/-- The kernel's lane maximum of row `p` is the largest of that row's sixteen entries. -/
theorem ktop_apply (v9 : FVec Ideal S2000x16 .f32) (p : Fin 2000) :
    multiReduction .maximumf [1] S2000 v9 0xFF800000#32 reduces_S2000x16_S2000 (.inl rfl) rfl (ix1 p)
      = rowTop (fun q' => v9 (ix2 p q')) := by
  refine (Ideal.multiReduction_maximumf_single v9 _ reduces_S2000x16_S2000 (.inl rfl) rfl (ix1 p)).trans ?_
  have hf : (v9 ∘ reduces_S2000x16_S2000.lift (ix1 p)) = fun k : Fin 16 => v9 (ix2 p k) :=
    funext fun k => congrArg v9 (lift_row p k)
  exact congrArg (fun f => Finset.fold max (Ideal.ofBits .f32 0xFF800000#32) f (Finset.univ : Finset (Fin 16))) hf

/-- The kernel's lane sum of row `p` is the sum of that row's sixteen entries. -/
theorem ksum_apply (v14 : FVec Ideal S2000x16 .f32) (p : Fin 2000) :
    multiReduction .add [1] S2000 v14 0x00000000#32 reduces_S2000x16_S2000 (.inl rfl) rfl (ix1 p)
      = ∑ q' : Fin 16, v14 (ix2 p q') := by
  refine (Ideal.multiReduction_add_single v14 _ reduces_S2000x16_S2000 (.inl rfl) rfl (ix1 p)).trans ?_
  exact Finset.sum_congr rfl fun k _ => congrArg v14 (lift_row p k)

/-- The kernel's first shift at `(p, q)`: the entry less the largest of row `p`. -/
theorem kshift_apply (v9 : FVec Ideal S2000x16 .f32) (p : Fin 2000) (q : Fin 16) :
    kshift v9 (ix2 p q) = v9 (ix2 p q) - rowTop (fun q' => v9 (ix2 p q')) := by
  unfold kshift
  rw [subf_apply, lanes_apply, column_apply, ktop_apply]

/-- The kernel's row-wise part at `(p, q)` is the log-softmax of row `p` at lane `q`. -/
theorem ksoft_apply (v9 : FVec Ideal S2000x16 .f32) (p : Fin 2000) (q : Fin 16) :
    ksoft v9 (ix2 p q) = rowLsm (fun q' => v9 (ix2 p q')) q := by
  unfold ksoft rowLsm
  rw [subf_apply, lanes_apply, kshift_apply]
  refine congrArg (fun z : EReal => (v9 (ix2 p q) - rowTop (fun q' => v9 (ix2 p q'))) - z) ?_
  show Ideal.log (shapeCast S2000x1 _ shapeCasts_S2000_S2000x1 (ix2 p (0 : Fin 1))) = _
  rw [column_apply, ksum_apply]
  refine congrArg Ideal.log (Finset.sum_congr rfl fun k _ => ?_)
  show Ideal.exp (kshift v9 (ix2 p k)) = _
  rw [kshift_apply]

/-! ## The reference's side of the row-wise part -/

/-- The reference's reduction of a row of sixteen, as a fact about the same shapes. -/
theorem reducesR : Cert.ReferenceIdeal.S100000x16.Reduces [1] Cert.ReferenceIdeal.S100000 := by decide

/-- Row `r` with lane `k` put back is `(r, k)`. -/
theorem lift_rowR (r : Fin 100000) (k : Fin (Cert.ReferenceIdeal.S100000x16.size 1)) :
    reducesR.lift (ix1 r) k = ix2 r (⟨k.val, k.isLt⟩ : Fin 16) := by
  funext c; apply Fin.ext
  match c with
  | ⟨0, _⟩ => rfl
  | ⟨1, _⟩ => rfl

/-- The reference's row maximum at row `r` is the largest of that row's sixteen entries. -/
theorem rowMax_apply (l : Cert.Gcn.Arr Ideal Cert.ReferenceIdeal.S100000x16 .f32) (r : Fin 100000) :
    Cert.Gcn.rowMax (F := Ideal) l (ix1 r) = rowTop (fun q' => l (ix2 r q')) := by
  unfold Cert.Gcn.rowMax
  rw [maximumf_apply]
  refine Eq.trans ?_ (max_rowTop _)
  refine congrArg (max (Ideal.ofBits .f32 0xFF800000#32)) ?_
  refine (Host.reduce_eq_fold_single (FloatOps.maximumf (F := Ideal) (φ := .f32)) l (constant (F := Ideal) Cert.ReferenceIdeal.S_ .f32 0xFF800000#32)
    Cert.ReferenceIdeal.Facts₀.reducesTo_S100000x16_S100000_d1 reducesR Cert.ReferenceIdeal.Facts₀.h_S_ (ix1 r)).trans ?_
  have hf : (l ∘ reducesR.lift (ix1 r)) = fun k : Fin 16 => l (ix2 r k) :=
    funext fun k => congrArg l (lift_rowR r k)
  exact congrArg (fun f => Finset.fold max (Ideal.ofBits .f32 0xFF800000#32) f (Finset.univ : Finset (Fin 16))) hf

/-- A vector of 100000 entries laid out as a column, read at row `r`, is entry `r`. -/
theorem columnR_apply (v : Cert.Gcn.Arr Ideal Cert.ReferenceIdeal.S100000 .f32) (r : Fin 100000) (z : Fin 1) :
    (broadcastInDim Cert.ReferenceIdeal.S100000x1 ![0] Cert.ReferenceIdeal.Facts₀.bcast_S100000_S100000x1_0 v
        : Cert.Gcn.Arr Ideal Cert.ReferenceIdeal.S100000x1 .f32) (ix2 r z) = v (ix1 r) := by
  refine broadcastInDim_apply ![0] _ v (ix2 r z) (ix1 r) ?_
  intro a
  match a with
  | ⟨0, _⟩ => exact (if_neg (show ¬ (100000 : ℕ) = 1 by decide)).symm

/-- A column of 100000 entries sent across the sixteen lanes, read at `(r, q)`, is its entry at row `r`. -/
theorem lanesR_apply (u : Cert.Gcn.Arr Ideal Cert.ReferenceIdeal.S100000x1 .f32) (r : Fin 100000) (q : Fin 16) :
    (broadcastInDim Cert.ReferenceIdeal.S100000x16 ![0, 1] Cert.ReferenceIdeal.Facts₀.bcast_S100000x1_S100000x16_0_1 u
        : Cert.Gcn.Arr Ideal Cert.ReferenceIdeal.S100000x16 .f32) (ix2 r q) = u (ix2 r (0 : Fin 1)) := by
  refine broadcastInDim_apply ![0, 1] _ u (ix2 r q) (ix2 r (0 : Fin 1)) ?_
  intro a
  match a with
  | ⟨0, _⟩ => exact (if_neg (show ¬ (100000 : ℕ) = 1 by decide)).symm
  | ⟨1, _⟩ => exact (if_pos (show (1 : ℕ) = 1 from rfl)).symm

/-- The reference's shift at `(r, q)`: the entry less the largest of row `r`. -/
theorem shifted_apply (l : Cert.Gcn.Arr Ideal Cert.ReferenceIdeal.S100000x16 .f32) (r : Fin 100000) (q : Fin 16) :
    Cert.Gcn.shifted (F := Ideal) l (ix2 r q) = l (ix2 r q) - rowTop (fun q' => l (ix2 r q')) := by
  unfold Cert.Gcn.shifted
  rw [subf_apply, lanesR_apply, columnR_apply, rowMax_apply]

/-- The host's logarithm and exponential act entry by entry. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The host's sum over the lanes from zero, at row `r`, is the sum of that row's sixteen entries. -/
theorem hostSum_apply (x : Cert.Gcn.Arr Ideal Cert.ReferenceIdeal.S100000x16 .f32) (r : Fin 100000) :
    Host.reduceAdd (F := Ideal) (φ := .f32) x (constant (F := Ideal) Cert.ReferenceIdeal.S_ .f32 0x00000000#32)
        Cert.ReferenceIdeal.Facts₀.reducesTo_S100000x16_S100000_d1 Cert.ReferenceIdeal.Facts₀.h_S_ (ix1 r)
      = ∑ q' : Fin 16, x (ix2 r q') := by
  have e := Ideal.hostReduceAdd_single Cert.ReferenceIdeal.Facts₀.reducesTo_S100000x16_S100000_d1 reducesR x (Ideal.ofBits .f32 0x00000000#32) (ix1 r)
  refine Eq.trans ?_ (e.trans ?_)
  · rfl
  · rw [Ideal.ofBits_zero_f32, zero_add]
    exact Finset.sum_congr rfl fun k _ => congrArg x (lift_rowR r k)

/-- The reference's row-wise part at `(r, q)` is the log-softmax of row `r` at lane `q`. -/
theorem logSoftmax_apply (l : Cert.Gcn.Arr Ideal Cert.ReferenceIdeal.S100000x16 .f32) (r : Fin 100000) (q : Fin 16) :
    Cert.Gcn.logSoftmax (F := Ideal) l (ix2 r q) = rowLsm (fun q' => l (ix2 r q')) q := by
  unfold Cert.Gcn.logSoftmax rowLsm
  rw [subf_apply, shifted_apply, lanesR_apply, hostLog_apply, columnR_apply, hostSum_apply]
  refine congrArg (fun z : EReal => (l (ix2 r q) - rowTop (fun q' => l (ix2 r q'))) - Ideal.log z) ?_
  refine Finset.sum_congr rfl fun k _ => ?_
  rw [hostExp_apply, shifted_apply]

/-! ## The logits: row `r` of the product depends on row `r` of the input only -/

/-- The operand indices of the block product at output index `j` and contraction index `k`, axis by axis. -/
theorem lhsK_0 (j : S2000x16.Idx) (k : dot_S2000x120_S120x16_S2000x16_1_0_0_1_n_n.contr.Idx) :
    (dot_S2000x120_S120x16_S2000x16_1_0_0_1_n_n.lhsIdx j k 0).val = (j 0).val := rfl
theorem lhsK_1 (j : S2000x16.Idx) (k : dot_S2000x120_S120x16_S2000x16_1_0_0_1_n_n.contr.Idx) :
    (dot_S2000x120_S120x16_S2000x16_1_0_0_1_n_n.lhsIdx j k 1).val = (k ⟨0, by decide⟩).val := rfl
theorem rhsK_0 (j : S2000x16.Idx) (k : dot_S2000x120_S120x16_S2000x16_1_0_0_1_n_n.contr.Idx) :
    (dot_S2000x120_S120x16_S2000x16_1_0_0_1_n_n.rhsIdx j k 0).val = (k ⟨0, by decide⟩).val := rfl
theorem rhsK_1 (j : S2000x16.Idx) (k : dot_S2000x120_S120x16_S2000x16_1_0_0_1_n_n.contr.Idx) :
    (dot_S2000x120_S120x16_S2000x16_1_0_0_1_n_n.rhsIdx j k 1).val = (j 1).val := rfl

/-- The same for the whole product. -/
theorem lhsR_0 (j : Cert.ReferenceIdeal.S100000x16.Idx) (k : Cert.ReferenceIdeal.dot_S100000x120_S120x16_S100000x16_1_0_0_1_n_n.contr.Idx) :
    (Cert.ReferenceIdeal.dot_S100000x120_S120x16_S100000x16_1_0_0_1_n_n.lhsIdx j k 0).val = (j 0).val := rfl
theorem lhsR_1 (j : Cert.ReferenceIdeal.S100000x16.Idx) (k : Cert.ReferenceIdeal.dot_S100000x120_S120x16_S100000x16_1_0_0_1_n_n.contr.Idx) :
    (Cert.ReferenceIdeal.dot_S100000x120_S120x16_S100000x16_1_0_0_1_n_n.lhsIdx j k 1).val = (k ⟨0, by decide⟩).val := rfl
theorem rhsR_0 (j : Cert.ReferenceIdeal.S100000x16.Idx) (k : Cert.ReferenceIdeal.dot_S100000x120_S120x16_S100000x16_1_0_0_1_n_n.contr.Idx) :
    (Cert.ReferenceIdeal.dot_S100000x120_S120x16_S100000x16_1_0_0_1_n_n.rhsIdx j k 0).val = (k ⟨0, by decide⟩).val := rfl
theorem rhsR_1 (j : Cert.ReferenceIdeal.S100000x16.Idx) (k : Cert.ReferenceIdeal.dot_S100000x120_S120x16_S100000x16_1_0_0_1_n_n.contr.Idx) :
    (Cert.ReferenceIdeal.dot_S100000x120_S120x16_S100000x16_1_0_0_1_n_n.rhsIdx j k 1).val = (j 1).val := rfl

/-- The block's product and the whole product contract over one index set. -/
theorem contr_eq : dot_S2000x120_S120x16_S2000x16_1_0_0_1_n_n.contr
    = Cert.ReferenceIdeal.dot_S100000x120_S120x16_S100000x16_1_0_0_1_n_n.contr := rfl

/-- The block product at `(p, q)`: the sum over the 120 columns of row `p` of the block times column `q` of the weights. -/
theorem kdot_apply (x0 : Vec Ideal S2000x120 .f32) (w : Vec Ideal S120x16 .f32) (p : Fin 2000) (q : Fin 16) :
    matmul dot_S2000x120_S120x16_S2000x16_1_0_0_1_n_n none
        (truncf .bf16 (shapeCast S2000x120 x0 shapeCasts_S2000x120_S2000x120 : FVec Ideal S2000x120 .f32) bitsLt_bf16_f32 : FVec Ideal S2000x120 .bf16)
        (truncf .bf16 (w : FVec Ideal S120x16 .f32) bitsLt_bf16_f32 : FVec Ideal S120x16 .bf16)
        (constant (F := Ideal) S2000x16 .f32 0x00000000#32) (ix2 p q)
      = ∑ k : dot_S2000x120_S120x16_S2000x16_1_0_0_1_n_n.contr.Idx,
          x0 (ix2 p (⟨(k ⟨0, by decide⟩).val, (k ⟨0, by decide⟩).isLt⟩ : Fin 120)) * w (ix2 (⟨(k ⟨0, by decide⟩).val, (k ⟨0, by decide⟩).isLt⟩ : Fin 120) q) := by
  refine (Ideal.matmul_constant_zero_apply dot_S2000x120_S120x16_S2000x16_1_0_0_1_n_n none _ _ (ix2 p q)).trans ?_
  refine Finset.sum_congr rfl fun k _ => ?_
  rw [truncf_apply, truncf_apply, shapeCast_self]
  have hl : dot_S2000x120_S120x16_S2000x16_1_0_0_1_n_n.lhsIdx (ix2 p q) k
      = ix2 p (⟨(k ⟨0, by decide⟩).val, (k ⟨0, by decide⟩).isLt⟩ : Fin 120) :=
    Shape.idx_ext₂ (lhsK_0 _ _) (lhsK_1 _ _)
  have hr : dot_S2000x120_S120x16_S2000x16_1_0_0_1_n_n.rhsIdx (ix2 p q) k
      = ix2 (⟨(k ⟨0, by decide⟩).val, (k ⟨0, by decide⟩).isLt⟩ : Fin 120) q :=
    Shape.idx_ext₂ (rhsK_0 _ _) (rhsK_1 _ _)
  rw [hl, hr]

/-- The whole product at `(r, q)`: the same sum over row `r` of the input. -/
theorem mm3_apply (h : Cert.Gcn.Arr Ideal Cert.ReferenceIdeal.S100000x120 .f32) (w : Cert.Gcn.Arr Ideal Cert.ReferenceIdeal.S120x16 .f32)
    (r : Fin 100000) (q : Fin 16) :
    Cert.Gcn.mm3 (F := Ideal) h w (ix2 r q)
      = ∑ k : Cert.ReferenceIdeal.dot_S100000x120_S120x16_S100000x16_1_0_0_1_n_n.contr.Idx,
          h (ix2 r (⟨(k ⟨0, by decide⟩).val, (k ⟨0, by decide⟩).isLt⟩ : Fin 120)) * w (ix2 (⟨(k ⟨0, by decide⟩).val, (k ⟨0, by decide⟩).isLt⟩ : Fin 120) q) := by
  unfold Cert.Gcn.mm3
  simp only [Host.dotGeneral]
  refine (Ideal.dotGeneral_apply Cert.ReferenceIdeal.dot_S100000x120_S120x16_S100000x16_1_0_0_1_n_n none _ h w (ix2 r q)).trans ?_
  refine Finset.sum_congr rfl fun k _ => ?_
  have hl : Cert.ReferenceIdeal.dot_S100000x120_S120x16_S100000x16_1_0_0_1_n_n.lhsIdx (ix2 r q) k
      = ix2 r (⟨(k ⟨0, by decide⟩).val, (k ⟨0, by decide⟩).isLt⟩ : Fin 120) :=
    Shape.idx_ext₂ (lhsR_0 _ _) (lhsR_1 _ _)
  have hr : Cert.ReferenceIdeal.dot_S100000x120_S120x16_S100000x16_1_0_0_1_n_n.rhsIdx (ix2 r q) k
      = ix2 (⟨(k ⟨0, by decide⟩).val, (k ⟨0, by decide⟩).isLt⟩ : Fin 120) q :=
    Shape.idx_ext₂ (rhsR_0 _ _) (rhsR_1 _ _)
  rw [hl, hr]

/-- The kernel's bias row sent down the 2000 rows, at `(p, q)`, is its entry `(0, q)`. -/
theorem kbias_apply (b : Vec Ideal S1x16 .f32) (p : Fin 2000) (q : Fin 16) :
    broadcastTo S2000x16 (shapeCast S1x16 b shapeCasts_S1x16_S1x16 : FVec Ideal S1x16 .f32) broadcasts_S1x16_S2000x16 (ix2 p q)
      = b (ix2 (0 : Fin 1) q) := by
  rw [shapeCast_self]
  refine broadcastTo_apply b broadcasts_S1x16_S2000x16 (ix2 p q) (ix2 (0 : Fin 1) q) ?_
  intro a
  match a with
  | ⟨0, _⟩ => exact (if_pos (show (1 : ℕ) = 1 from rfl)).symm
  | ⟨1, _⟩ => exact (if_neg (show ¬ (16 : ℕ) = 1 by decide)).symm

/-- The reference's bias row sent down the 100000 rows, at `(r, q)`, is its entry `(0, q)`. -/
theorem rbias_apply (b : Cert.Gcn.Arr Ideal Cert.ReferenceIdeal.S1x16 .f32) (r : Fin 100000) (q : Fin 16) :
    (broadcastInDim Cert.ReferenceIdeal.S100000x16 ![0, 1] Cert.ReferenceIdeal.Facts₀.bcast_S1x16_S100000x16_0_1 b
        : Cert.Gcn.Arr Ideal Cert.ReferenceIdeal.S100000x16 .f32) (ix2 r q) = b (ix2 (0 : Fin 1) q) := by
  refine broadcastInDim_apply ![0, 1] _ b (ix2 r q) (ix2 (0 : Fin 1) q) ?_
  intro a
  match a with
  | ⟨0, _⟩ => exact (if_pos (show (1 : ℕ) = 1 from rfl)).symm
  | ⟨1, _⟩ => exact (if_neg (show ¬ (16 : ℕ) = 1 by decide)).symm

/-- Where row `p` of the block is row `r` of the input, the kernel's logits at `(p, q)` are the reference's at `(r, q)`. -/
theorem logits_eq (x0 : Vec Ideal S2000x120 .f32) (w : Vec Ideal S120x16 .f32) (b : Vec Ideal S1x16 .f32)
    (h : Cert.Gcn.Arr Ideal Cert.ReferenceIdeal.S100000x120 .f32) (p : Fin 2000) (r : Fin 100000) (q : Fin 16)
    (hx : ∀ k : Fin 120, x0 (ix2 p k) = h (ix2 r k)) :
    klogits x0 w b (ix2 p q) = Cert.Gcn.logits (F := Ideal) h w b (ix2 r q) := by
  unfold klogits Cert.Gcn.logits
  rw [addf_apply, addf_apply, kdot_apply, mm3_apply, kbias_apply, rbias_apply]
  refine congrArg (fun z : EReal => z + b (ix2 (0 : Fin 1) q)) ?_
  exact Finset.sum_congr rfl fun k _ => by rw [hx]; rfl

/-! ## One entry of a block -/

/-- Where row `p` of the block is row `r` of the input, and the block's other two operands are the weights and the bias row,
    the body's result at `(p, q)` is the head of the network at `(r, q)`. -/
theorem point (x0 : Vec Ideal S2000x120 .f32) (x1 : Vec Ideal S120x16 .f32) (x2 : Vec Ideal S1x16 .f32)
    (h : Cert.Gcn.Arr Ideal Cert.ReferenceIdeal.S100000x120 .f32) (w : Cert.Gcn.Arr Ideal Cert.ReferenceIdeal.S120x16 .f32)
    (b : Cert.Gcn.Arr Ideal Cert.ReferenceIdeal.S1x16 .f32) (p : Fin 2000) (r : Fin 100000) (q : Fin 16)
    (hx : ∀ k : Fin 120, x0 (ix2 p k) = h (ix2 r k)) (hw : ∀ y, x1 y = w y) (hb : ∀ y, x2 y = b y) :
    k4_pay1 (F := Ideal) x0 x1 x2 (ix2 p q) = Cert.Gcn.head (F := Ideal) h w b (ix2 r q) := by
  obtain rfl : x1 = w := funext hw
  obtain rfl : x2 = b := funext hb
  rw [pay_eq, ksoft_apply]
  unfold Cert.Gcn.head
  rw [logSoftmax_apply]
  exact congrArg (fun l => rowLsm l q) (funext fun q' => logits_eq x0 x1 x2 h p r q' hx)

/-! ## From blocks to the array -/

theorem hz : (![0, 0] : Fin 2 → Nat) = fun _ => 0 := funext fun a => by fin_cases a <;> rfl

/-- The printed index maps, decided over the fifty grid points: the row-block windows sit at block `(t, 0)`, the weights and
    the bias row at block `(0, 0)`. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

section Blocks

variable (V : (c : Dev nD) → (b : Ref sig .tc) → Buf (Elt Ideal) ((c : Thread nD τ).loc b))

/-- The input window's block at point `t`, read at `(p, k)`, is the input array at row `t · 2000 + p`. -/
theorem iblk0_apply (c : Dev nD) (t : Fin cfg4.N) (p : Fin 2000) (k : Fin 120) (r : Fin 100000) (hr : r.val = t.val * 2000 + p.val) :
    (iblk4 V c 0 t : Vec Ideal S2000x120 .f32) (ix2 p k) = (V c main_v58 : Vec Ideal S100000x120 .f32) (ix2 r k) := by
  obtain ⟨e0, e1, -⟩ := idx_facts t
  unfold iblk4
  rw [View.read_apply]
  show V c main_v58 _ = V c main_v58 _
  refine congrArg (V c main_v58) (funext fun a => Fin.ext ?_)
  match a with
  | ⟨0, _⟩ => show win4_0.index t (0 : Fin 2) * 2000 + 1 * p.val = r.val; rw [e0, hr]; omega
  | ⟨1, _⟩ => show win4_0.index t (1 : Fin 2) * 120 + 1 * k.val = k.val; rw [e1]; omega

/-- The weights' window holds the whole weights array at every point. -/
theorem iblk1_apply (c : Dev nD) (t : Fin cfg4.N) (y : S120x16.Idx) :
    (iblk4 V c 1 t : Vec Ideal S120x16 .f32) y = (V c main_arg5 : Vec Ideal S120x16 .f32) y := by
  obtain ⟨-, -, e2, e3, -⟩ := idx_facts t
  unfold iblk4
  rw [View.read_apply]
  show V c main_arg5 _ = V c main_arg5 _
  refine congrArg (V c main_arg5) (funext fun a => Fin.ext ?_)
  match a with
  | ⟨0, _⟩ => show win4_1.index t (0 : Fin 2) * 120 + 1 * (y 0).val = (y 0).val; rw [e2]; omega
  | ⟨1, _⟩ => show win4_1.index t (1 : Fin 2) * 16 + 1 * (y 1).val = (y 1).val; rw [e3]; omega

/-- The bias row's window holds the whole bias row at every point. -/
theorem iblk2_apply (c : Dev nD) (t : Fin cfg4.N) (y : S1x16.Idx) :
    (iblk4 V c 2 t : Vec Ideal S1x16 .f32) y = (V c main_v59 : Vec Ideal S1x16 .f32) y := by
  obtain ⟨-, -, -, -, e4, e5, -⟩ := idx_facts t
  unfold iblk4
  rw [View.read_apply]
  show V c main_v59 _ = V c main_v59 _
  refine congrArg (V c main_v59) (funext fun a => Fin.ext ?_)
  match a with
  | ⟨0, _⟩ => show win4_2.index t (0 : Fin 2) * 1 + 1 * (y 0).val = (y 0).val; rw [e4]; omega
  | ⟨1, _⟩ => show win4_2.index t (1 : Fin 2) * 16 + 1 * (y 1).val = (y 1).val; rw [e5]; omega

/-- What point `t` writes back is block `t` of the head of the network applied to the three arrays the region reads. -/
theorem flushed_eq (c : Dev nD) (t : Fin cfg4.N) :
    (dat4 (F := Ideal) V c).flushed 3 t = ((cfg4.win 3).blk t).view.read (Elt Ideal)
      (Cert.Gcn.head (F := Ideal) (V c main_v58) (V c main_arg5) (V c main_v59)) := by
  show (cfg4.win 3).cut (grid4.coords t) ((dat4 V c).after 3 t) = _
  rw [after4_3]
  unfold out4_3
  rw [View.canon_unit_zero hz]
  simp only [View.ld_unit_zero (S := S2000x120) hz, View.ld_unit_zero (S := S120x16) hz, View.ld_unit_zero (S := S1x16) hz]
  obtain ⟨-, -, -, -, -, -, e6, e7⟩ := idx_facts t
  funext j
  have hp : (j 0).val < 2000 := (j 0).isLt
  have hq : (j 1).val < 16 := (j 1).isLt
  have ht : t.val < 50 := t.isLt
  have hj : (cfg4.win 3).xinj (grid4.coords t) j = ix2 (⟨(j 0).val, hp⟩ : Fin 2000) (⟨(j 1).val, hq⟩ : Fin 16) :=
    funext fun a => Fin.ext (by match a with | ⟨0, _⟩ => rfl | ⟨1, _⟩ => rfl)
  have he : ((cfg4.win 3).blk t).view.emb j
      = ix2 (⟨t.val * 2000 + (j 0).val, by omega⟩ : Fin 100000) (⟨(j 1).val, hq⟩ : Fin 16) :=
    funext fun a => Fin.ext (by
      match a with
      | ⟨0, _⟩ => show win4_3.index t (0 : Fin 2) * 2000 + 1 * (j 0).val = t.val * 2000 + (j 0).val; rw [e6]; omega
      | ⟨1, _⟩ => show win4_3.index t (1 : Fin 2) * 16 + 1 * (j 1).val = (j 1).val; rw [e7]; omega)
  refine (congrArg (k4_pay1 (F := Ideal) (iblk4 V c 0 t) (iblk4 V c 1 t) (iblk4 V c 2 t)) hj).trans ?_
  refine Eq.trans ?_ (congrArg (Cert.Gcn.head (F := Ideal) (V c main_v58) (V c main_arg5) (V c main_v59)) he).symm
  exact point (iblk4 V c 0 t) (iblk4 V c 1 t) (iblk4 V c 2 t) (V c main_v58) (V c main_arg5) (V c main_v59)
    (⟨(j 0).val, hp⟩ : Fin 2000) (⟨t.val * 2000 + (j 0).val, by omega⟩ : Fin 100000) (⟨(j 1).val, hq⟩ : Fin 16)
    (fun k => iblk0_apply V c t _ k _ rfl) (iblk1_apply V c t) (iblk2_apply V c t)

/-- An index of the output array is in point `t`'s block iff each coordinate is in the block's range on its axis. -/
theorem mem_blk (t : Fin cfg4.N) (i : S100000x16.Idx) :
    i ∈ ((cfg4.win 3).blk t).view.set ↔ ∀ a : Fin 2, win4_3.index t a * S2000x16.size a ≤ (i a).val
      ∧ (i a).val < win4_3.index t a * S2000x16.size a + S2000x16.size a := by
  show i ∈ ((View.whole main_v60).slice (win4_3.rect t)).set ↔ _
  rw [View.set_slice_whole, Rect.mem_set_unit]
  exact Iff.rfl

/-- Row `r` of the output lies in the block of point `r / 2000`. -/
theorem cover (i : S100000x16.Idx) : ∃ t : Fin cfg4.N, (cfg4.win 3).flush t = true ∧ i ∈ ((cfg4.win 3).blk t).view.set := by
  have hi0 : (i 0).val < 100000 := (i 0).isLt
  have hi1 : (i 1).val < 16 := (i 1).isLt
  have hN : cfg4.N = 50 := N_4
  have hlt : (i 0).val / 2000 < cfg4.N := by rw [hN]; omega
  obtain ⟨-, -, -, -, -, -, e6, e7⟩ := idx_facts ⟨(i 0).val / 2000, hlt⟩
  refine ⟨⟨(i 0).val / 2000, hlt⟩, flush4_3 _, ?_⟩
  rw [mem_blk]
  intro a
  match a with
  | ⟨0, _⟩ =>
    show win4_3.index ⟨(i 0).val / 2000, hlt⟩ (0 : Fin 2) * 2000 ≤ (i 0).val
      ∧ (i 0).val < win4_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win4_3.index ⟨(i 0).val / 2000, hlt⟩ (1 : Fin 2) * 16 ≤ (i 1).val
      ∧ (i 1).val < win4_3.index ⟨(i 0).val / 2000, hlt⟩ (1 : Fin 2) * 16 + 16
    rw [e7]; omega

end Blocks

/-- After the last region its output array is the head of the network applied to the three arrays it reads. -/
theorem final (V : (c : Dev nD) → (b : Ref sig .tc) → Buf (Elt Ideal) ((c : Thread nD τ).loc b)) (c : Dev nD) :
    (dat4 (F := Ideal) V c).arrAt 3 cfg4.N = Cert.Gcn.head (F := Ideal) (V c main_v58) (V c main_arg5) (V c main_v59) :=
  (dat4 (F := Ideal) V c).arrAt_eq_of_cover 3 (Cert.Gcn.head (F := Ideal) (V c main_v58) (V c main_arg5) (V c main_v59))
    (fun t _ => flushed_eq V c t) cover

end Cert.KernelIdeal.Reg4

end
-- ==== Proof.Rows.lean ====
import proofs.«178770_j81570018886156_1_alg».proof.KernelIdeal
import proofs.«178770_j81570018886156_1_alg».proof.Proof.Gen.KernelIdeal
import proofs.«178770_j81570018886156_1_alg».proof.Proof.Gen.ReferenceIdeal
import proofs.«178770_j81570018886156_1_alg».proof.Proof.Spec
import Idealize.ShloMosaic.Lib.Pipeline.Value

noncomputable section

namespace Cert.KernelIdeal.Rows

open Cert.KernelIdeal Cert.KernelIdeal.Facts₀
open Idealize.ShloMosaic Idealize.ShloMosaic.TcCoe Idealize.SL.Sem

variable {F : FTy → Type} [FloatOps F]

/-- A vector laid out as a one-row matrix is the vector broadcast along a new leading axis of extent one: both read
    entry `(0, q)` at the vector's entry `q`. -/
theorem row180 (b : Cert.Gcn.Arr F S180 .f32) :
    (fun i => shapeCast S1x180 b shapeCasts_S180_S1x180 i) = Cert.Gcn.row180 (F := F) b := by
  funext i
  unfold Cert.Gcn.row180
  refine (shapeCast_addUnit_apply ![180] b shapeCasts_S180_S1x180 i).trans ?_
  refine (broadcastInDim_apply ![1] _ b i (fun a => i a.succ) ?_).symm
  intro a
  match a with
  | ⟨0, _⟩ => exact (if_neg (show ¬ (180 : ℕ) = 1 by decide)).symm

theorem row120 (b : Cert.Gcn.Arr F S120 .f32) :
    (fun i => shapeCast S1x120 b shapeCasts_S120_S1x120 i) = Cert.Gcn.row120 (F := F) b := by
  funext i
  unfold Cert.Gcn.row120
  refine (shapeCast_addUnit_apply ![120] b shapeCasts_S120_S1x120 i).trans ?_
  refine (broadcastInDim_apply ![1] _ b i (fun a => i a.succ) ?_).symm
  intro a
  match a with
  | ⟨0, _⟩ => exact (if_neg (show ¬ (120 : ℕ) = 1 by decide)).symm

theorem row16 (b : Cert.Gcn.Arr F S16 .f32) :
    (fun i => shapeCast S1x16 b shapeCasts_S16_S1x16 i) = Cert.Gcn.row16 (F := F) b := by
  funext i
  unfold Cert.Gcn.row16
  refine (shapeCast_addUnit_apply ![16] b shapeCasts_S16_S1x16 i).trans ?_
  refine (broadcastInDim_apply ![1] _ b i (fun a => i a.succ) ?_).symm
  intro a
  match a with
  | ⟨0, _⟩ => exact (if_neg (show ¬ (16 : ℕ) = 1 by decide)).symm

end Cert.KernelIdeal.Rows

end
-- ==== Proof.KWalk.lean ====
import proofs.«178770_j81570018886156_1_alg».proof.Proof.Gen.KernelIdeal.Frame
import proofs.«178770_j81570018886156_1_alg».proof.Proof.Gen.ReferenceIdeal
import proofs.«178770_j81570018886156_1_alg».proof.Proof.Spec
import Idealize.ShloMosaic.PureOps.Ideal
import proofs.«178770_j81570018886156_1_alg».proof.Proof.Reg0
import proofs.«178770_j81570018886156_1_alg».proof.Proof.Reg1
import proofs.«178770_j81570018886156_1_alg».proof.Proof.Reg2
import proofs.«178770_j81570018886156_1_alg».proof.Proof.Reg3
import proofs.«178770_j81570018886156_1_alg».proof.Proof.Reg4
import proofs.«178770_j81570018886156_1_alg».proof.Proof.Rows
import Idealize.ShloMosaic.Lib.StableHlo.Run

set_option maxRecDepth 16384

noncomputable section

/-! # The network's pieces as functions of the pair lists

The specification computes the degrees, the pairs' weights and a propagation step from the edge list. Here the same
terms are written once more as functions of the LISTS of pair ends (and, for a propagation step, of the weights), so that
a stretch of host operations can be read over whatever its input buffers hold and the lists substituted afterwards. -/

namespace Cert.KWalkPieces

open Idealize.ShloMosaic Idealize.SL.Sem Cert.ReferenceIdeal Cert.ReferenceIdeal.Facts₀ Cert.Gcn

variable {F : FTy → Type} [FloatOps F] [Cert.ReferenceIdeal.Facts]

/-- How many entries of the list `t` of targets name each node. -/
def degOf (t : Arr F S900000 .i32) : Arr F S100000 .f32 :=
  Host.scatterAdd scatter_S100000_S900000x1_S900000_n_0_0_1
    (broadcastInDim S100000 ![] bcast_S_S100000 (constant S_ .f32 0x00000000#32) : Arr F S100000 .f32)
    (col t)
    (broadcastInDim S900000 ![] bcast_S_S900000 (constant S_ .f32 0x3F800000#32) : Arr F S900000 .f32)

theorem deg_eq (e : Arr F S2x800000 .i32) : deg e = degOf (ends1 e) := rfl

/-- Each node's factor: the inverse square root of its degree. -/
def rdegOf (t : Arr F S900000 .i32) : Arr F S100000 .f32 := Host.rsqrt (degOf t)

/-- The weight of each pair (sources `s`, targets `t`): the nodes' factors `r` at its two ends, multiplied. -/
def normOf (r : Arr F S100000 .f32) (s t : Arr F S900000 .i32) : Arr F S900000 .f32 :=
  mulf (Host.gather gather_S100000_S900000x1_S900000_n_0_n_n_0_1_1 r (wrapCol s))
    (Host.gather gather_S100000_S900000x1_S900000_n_0_n_n_0_1_1 r (wrapCol t))

theorem norm_eq (e : Arr F S2x800000 .i32) :
    norm e = normOf (rdegOf (ends1 e)) (ends0 e) (ends1 e) := rfl

/-- One propagation step on rows of width 180 over the pairs (sources `s`, targets `t`) with weights `n`. -/
def agg180Of (h : Arr F S100000x180 .f32) (s t : Arr F S900000 .i32) (n : Arr F S900000 .f32) : Arr F S100000x180 .f32 :=
  Host.scatterAdd scatter_S100000x180_S900000x1_S900000x180_1_0_0_1
    (broadcastInDim S100000x180 ![] bcast_S_S100000x180 (constant S_ .f32 0x00000000#32) : Arr F S100000x180 .f32)
    (col t)
    (mulf (Host.gather gather_S100000x180_S900000x1_S900000x180_1_0_n_n_0_1_1180 h (wrapCol s))
      (broadcastInDim S900000x180 ![0, 1] bcast_S900000x1_S900000x180_0_1
        (broadcastInDim S900000x1 ![0] bcast_S900000_S900000x1_0 n : Arr F S900000x1 .f32) : Arr F S900000x180 .f32))

theorem agg180_eq (h : Arr F S100000x180 .f32) (e : Arr F S2x800000 .i32) :
    agg180 h e = agg180Of h (ends0 e) (ends1 e) (norm e) := rfl

/-- One propagation step on rows of width 120 over the pairs (sources `s`, targets `t`) with weights `n`. -/
def agg120Of (h : Arr F S100000x120 .f32) (s t : Arr F S900000 .i32) (n : Arr F S900000 .f32) : Arr F S100000x120 .f32 :=
  Host.scatterAdd scatter_S100000x120_S900000x1_S900000x120_1_0_0_1
    (broadcastInDim S100000x120 ![] bcast_S_S100000x120 (constant S_ .f32 0x00000000#32) : Arr F S100000x120 .f32)
    (col t)
    (mulf (Host.gather gather_S100000x120_S900000x1_S900000x120_1_0_n_n_0_1_1120 h (wrapCol s))
      (broadcastInDim S900000x120 ![0, 1] bcast_S900000x1_S900000x120_0_1
        (broadcastInDim S900000x1 ![0] bcast_S900000_S900000x1_0 n : Arr F S900000x1 .f32) : Arr F S900000x120 .f32))

theorem agg120_eq (h : Arr F S100000x120 .f32) (e : Arr F S2x800000 .i32) :
    agg120 h e = agg120Of h (ends0 e) (ends1 e) (norm e) := rfl

/-- A function of three arguments takes equal arguments to equal values. -/
theorem congr3 {α β γ δ : Sort _} (f : α → β → γ → δ) {a a' : α} {b b' : β} {c c' : γ}
    (ha : a = a') (hb : b = b') (hc : c = c') : f a b c = f a' b' c' := by
  subst ha hb hc; rfl

end Cert.KWalkPieces

namespace Cert.KernelIdeal.Walk

open Cert.KernelIdeal Cert.KernelIdeal.Gen
open Idealize.ShloMosaic Idealize.ShloMosaic.TcCoe Idealize.SL.Sem
open Idealize.ShloMosaic.Pipeline (Dat Cfg Window)
open Cert.KWalkPieces (rdegOf normOf agg180Of agg120Of congr3)

variable (m : (ℓ : Loc nD τ sig) → Buf (Elt Ideal) ℓ) (ρ : Dev nD → PrngReg) (c : Dev nD)

-- the eight argument arrays as launched
set_option quotPrecheck false
local notation "aX" => m ((c.tc : Thread nD τ).loc main_arg0)
local notation "aW1" => m ((c.tc : Thread nD τ).loc main_arg1)
local notation "aB1" => m ((c.tc : Thread nD τ).loc main_arg2)
local notation "aW2" => m ((c.tc : Thread nD τ).loc main_arg3)
local notation "aB2" => m ((c.tc : Thread nD τ).loc main_arg4)
local notation "aWl" => m ((c.tc : Thread nD τ).loc main_arg5)
local notation "aBl" => m ((c.tc : Thread nD τ).loc main_arg6)
local notation "aE" => m ((c.tc : Thread nD τ).loc main_arg7)

/-! ## Running a stretch of host operations in pieces -/

/-- Two stretches run one after the other are their concatenation run as one. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- A stretch run whole is its first `n` operations run, then the rest. -/
theorem after_take_drop {Val : EltTy → Type} (n : ℕ) (l : List (HloOp τ sig Val)) (V : Valuation τ sig Val) :
    StableHlo.after l V = StableHlo.after (l.drop n) (StableHlo.after (l.take n) V) := by
  rw [← after_append, List.take_append_drop]

/-! ## What each stretch leaves untouched

A buffer that is not the result of any operation of a stretch holds after it what it held before. -/

theorem keep0 (V : Valuation τ sig (Elt Ideal)) (r : Ref sig .tc)
    (hr : r ∉ [main_v0, main_v1, main_v2, main_v3, main_v4, main_v5, main_v6, main_cst, main_v7, main_cst_0, main_v8,
      main_v9, main_v10, main_v11, main_c, main_v12, main_v13, main_c_1, main_v14, main_v15, main_v16, main_v17, main_v18,
      main_c_2, main_v19, main_v20, main_c_3, main_v21, main_v22, main_v23, main_v24, main_v25, main_v26]) :
    StableHlo.after (hostOps0 (F := Ideal)) V (Proc.devRef .tc r) = V (Proc.devRef .tc r) :=
  StableHlo.after_of_writes_sub _ V (by
    simp only [hostOps0, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

theorem keep1 (V : Valuation τ sig (Elt Ideal)) (r : Ref sig .tc)
    (hr : r ∉ [main_c_4, main_v28, main_v29, main_c_5, main_v30, main_v31, main_v32, main_v33, main_v34, main_v35, main_v36,
      main_v37, main_cst_6, main_v38, main_v39, main_v40, main_v41]) :
    StableHlo.after (hostOps1 (F := Ideal)) V (Proc.devRef .tc r) = V (Proc.devRef .tc r) :=
  StableHlo.after_of_writes_sub _ V (by
    simp only [hostOps1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

theorem keep3 (V : Valuation τ sig (Elt Ideal)) (r : Ref sig .tc)
    (hr : r ∉ [main_c_7, main_v44, main_v45, main_c_8, main_v46, main_v47, main_v48, main_v49, main_v50, main_v51, main_v52,
      main_v53, main_cst_9, main_v54, main_v55, main_v56, main_v57]) :
    StableHlo.after (hostOps3 (F := Ideal)) V (Proc.devRef .tc r) = V (Proc.devRef .tc r) :=
  StableHlo.after_of_writes_sub _ V (by
    simp only [hostOps3, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

theorem keep4 (V : Valuation τ sig (Elt Ideal)) (r : Ref sig .tc) (hr : r ∉ [main_v59]) :
    StableHlo.after (hostOps4 (F := Ideal)) V (Proc.devRef .tc r) = V (Proc.devRef .tc r) :=
  StableHlo.after_of_writes_sub _ V (by
    simp only [hostOps4, List.Forall, StableHlo.reshape_writes, Finset.singleton_subset_iff, List.mem_toFinset]
    exact List.mem_map_of_mem (by decide)) hr

/-! ## The first stretch: the pairs, the degrees, the weights

Its first seven operations build the two lists of pair ends, the next seven the inverse square roots of the degrees, the
remaining nineteen the pairs' weights. Each piece is read over ANY contents `V` it starts from. -/

abbrev opsA : List (HloOp τ sig (Elt Ideal)) := (hostOps0 (F := Ideal)).take 7
abbrev opsB : List (HloOp τ sig (Elt Ideal)) := ((hostOps0 (F := Ideal)).drop 7).take 7
abbrev opsC : List (HloOp τ sig (Elt Ideal)) := ((hostOps0 (F := Ideal)).drop 7).drop 7

/-- The contents after the first seven operations, and after the first fourteen. -/
def Wa : Valuation τ sig (Elt Ideal) := StableHlo.after opsA (W0 m ρ c)
def Wb : Valuation τ sig (Elt Ideal) := StableHlo.after opsB (Wa m ρ c)

theorem W1_split : W1 (F := Ideal) m ρ c = StableHlo.after opsC (Wb m ρ c) := by
  show StableHlo.after hostOps0 (W0 m ρ c) = _
  unfold Wb Wa
  rw [after_take_drop 7 hostOps0, after_take_drop 7 (List.drop 7 hostOps0)]

section Pieces

variable (V : Valuation τ sig (Elt Ideal))

theorem A_v5 (e : Cert.Gcn.Arr Ideal Cert.ReferenceIdeal.S2x800000 .i32) (he : V (Proc.devRef .tc main_arg7) = e) :
    StableHlo.after opsA V (Proc.devRef .tc main_v5) = Cert.Gcn.ends0 (F := Ideal) e := by
  subst he
  simp only [opsA, hostOps0, List.take_succ_cons, List.take_zero]
  after_results
  rfl

theorem A_v6 (e : Cert.Gcn.Arr Ideal Cert.ReferenceIdeal.S2x800000 .i32) (he : V (Proc.devRef .tc main_arg7) = e) :
    StableHlo.after opsA V (Proc.devRef .tc main_v6) = Cert.Gcn.ends1 (F := Ideal) e := by
  subst he
  simp only [opsA, hostOps0, List.take_succ_cons, List.take_zero]
  after_results
  rfl

theorem B_v5 : StableHlo.after opsB V (Proc.devRef .tc main_v5) = V (Proc.devRef .tc main_v5) := by
  simp only [opsB, hostOps0, List.take_succ_cons, List.take_zero, List.drop_succ_cons, List.drop_zero]
  after_results_simp

theorem B_v6 : StableHlo.after opsB V (Proc.devRef .tc main_v6) = V (Proc.devRef .tc main_v6) := by
  simp only [opsB, hostOps0, List.take_succ_cons, List.take_zero, List.drop_succ_cons, List.drop_zero]
  after_results_simp

attribute [local irreducible] Host.scatterAdd Host.gather Host.rsqrt in
theorem B_v11 (t : Cert.Gcn.Arr Ideal Cert.ReferenceIdeal.S900000 .i32) (ht : V (Proc.devRef .tc main_v6) = t) :
    StableHlo.after opsB V (Proc.devRef .tc main_v11) = rdegOf (F := Ideal) t := by
  subst ht
  simp only [opsB, hostOps0, List.take_succ_cons, List.take_zero, List.drop_succ_cons, List.drop_zero]
  after_results_simp
  rfl

theorem C_v5 : StableHlo.after opsC V (Proc.devRef .tc main_v5) = V (Proc.devRef .tc main_v5) := by
  simp only [opsC, hostOps0, List.drop_succ_cons, List.drop_zero]
  after_results_simp

theorem C_v6 : StableHlo.after opsC V (Proc.devRef .tc main_v6) = V (Proc.devRef .tc main_v6) := by
  simp only [opsC, hostOps0, List.drop_succ_cons, List.drop_zero]
  after_results_simp

attribute [local irreducible] Host.scatterAdd Host.gather Host.rsqrt in
theorem C_v26 (r : Cert.Gcn.Arr Ideal Cert.ReferenceIdeal.S100000 .f32) (s t : Cert.Gcn.Arr Ideal Cert.ReferenceIdeal.S900000 .i32)
    (hr : V (Proc.devRef .tc main_v11) = r) (hs : V (Proc.devRef .tc main_v5) = s) (ht : V (Proc.devRef .tc main_v6) = t) :
    StableHlo.after opsC V (Proc.devRef .tc main_v26) = normOf (F := Ideal) r s t := by
  subst hr hs ht
  simp only [opsC, hostOps0, List.drop_succ_cons, List.drop_zero]
  after_results_simp
  rfl

/-! ## The later stretches, over any contents they start from -/

attribute [local irreducible] Host.scatterAdd Host.gather in
theorem H1_v40 (h : Cert.Gcn.Arr Ideal Cert.ReferenceIdeal.S100000x180 .f32) (s t : Cert.Gcn.Arr Ideal Cert.ReferenceIdeal.S900000 .i32)
    (n : Cert.Gcn.Arr Ideal Cert.ReferenceIdeal.S900000 .f32)
    (hh : V (Proc.devRef .tc main_v27) = h) (hs : V (Proc.devRef .tc main_v5) = s) (ht : V (Proc.devRef .tc main_v6) = t)
    (hn : V (Proc.devRef .tc main_v26) = n) :
    StableHlo.after (hostOps1 (F := Ideal)) V (Proc.devRef .tc main_v40) = agg180Of (F := Ideal) h s t n := by
  subst hh hs ht hn
  after_results_simp
  rfl

theorem H1_v41 (b : Cert.Gcn.Arr Ideal Cert.ReferenceIdeal.S180 .f32) (hb : V (Proc.devRef .tc main_arg2) = b) :
    StableHlo.after (hostOps1 (F := Ideal)) V (Proc.devRef .tc main_v41) = Cert.Gcn.row180 (F := Ideal) b := by
  subst hb
  after_results_simp
  exact Cert.KernelIdeal.Rows.row180 _

attribute [local irreducible] Host.scatterAdd Host.gather in
theorem H3_v56 (h : Cert.Gcn.Arr Ideal Cert.ReferenceIdeal.S100000x120 .f32) (s t : Cert.Gcn.Arr Ideal Cert.ReferenceIdeal.S900000 .i32)
    (n : Cert.Gcn.Arr Ideal Cert.ReferenceIdeal.S900000 .f32)
    (hh : V (Proc.devRef .tc main_v43) = h) (hs : V (Proc.devRef .tc main_v5) = s) (ht : V (Proc.devRef .tc main_v6) = t)
    (hn : V (Proc.devRef .tc main_v26) = n) :
    StableHlo.after (hostOps3 (F := Ideal)) V (Proc.devRef .tc main_v56) = agg120Of (F := Ideal) h s t n := by
  subst hh hs ht hn
  after_results_simp
  rfl

theorem H3_v57 (b : Cert.Gcn.Arr Ideal Cert.ReferenceIdeal.S120 .f32) (hb : V (Proc.devRef .tc main_arg4) = b) :
    StableHlo.after (hostOps3 (F := Ideal)) V (Proc.devRef .tc main_v57) = Cert.Gcn.row120 (F := Ideal) b := by
  subst hb
  after_results_simp
  exact Cert.KernelIdeal.Rows.row120 _

theorem H4_v59 (b : Cert.Gcn.Arr Ideal Cert.ReferenceIdeal.S16 .f32) (hb : V (Proc.devRef .tc main_arg6) = b) :
    StableHlo.after (hostOps4 (F := Ideal)) V (Proc.devRef .tc main_v59) = Cert.Gcn.row16 (F := Ideal) b := by
  subst hb
  after_results_simp
  exact Cert.KernelIdeal.Rows.row16 _

end Pieces

/-! ## The walk

Each boundary's contents at the buffers the next segment reads, from the launch forward. A buffer that a region does not
stage as an array, or that a stretch does not write, is carried over unchanged. -/

/-! ### After the first stretch -/

theorem Wa_v5 : Wa m ρ c (Proc.devRef .tc main_v5) = Cert.Gcn.ends0 (F := Ideal) aE := A_v5 (W0 m ρ c) _ rfl
theorem Wa_v6 : Wa m ρ c (Proc.devRef .tc main_v6) = Cert.Gcn.ends1 (F := Ideal) aE := A_v6 (W0 m ρ c) _ rfl
theorem Wb_v5 : Wb m ρ c (Proc.devRef .tc main_v5) = Cert.Gcn.ends0 (F := Ideal) aE := (B_v5 (Wa m ρ c)).trans (Wa_v5 m ρ c)
theorem Wb_v6 : Wb m ρ c (Proc.devRef .tc main_v6) = Cert.Gcn.ends1 (F := Ideal) aE := (B_v6 (Wa m ρ c)).trans (Wa_v6 m ρ c)
theorem Wb_v11 : Wb m ρ c (Proc.devRef .tc main_v11) = rdegOf (F := Ideal) (Cert.Gcn.ends1 (F := Ideal) aE) :=
  B_v11 (Wa m ρ c) _ (Wa_v6 m ρ c)

theorem W1_v5 : W1 (F := Ideal) m ρ c (Proc.devRef .tc main_v5) = Cert.Gcn.ends0 (F := Ideal) aE :=
  (congrFun (W1_split m ρ c) _).trans ((C_v5 (Wb m ρ c)).trans (Wb_v5 m ρ c))
theorem W1_v6 : W1 (F := Ideal) m ρ c (Proc.devRef .tc main_v6) = Cert.Gcn.ends1 (F := Ideal) aE :=
  (congrFun (W1_split m ρ c) _).trans ((C_v6 (Wb m ρ c)).trans (Wb_v6 m ρ c))
theorem W1_v26 : W1 (F := Ideal) m ρ c (Proc.devRef .tc main_v26) = Cert.Gcn.norm (F := Ideal) aE :=
  (congrFun (W1_split m ρ c) _).trans
    ((C_v26 (Wb m ρ c) _ _ _ (Wb_v11 m ρ c) (Wb_v5 m ρ c) (Wb_v6 m ρ c)).trans (Cert.KWalkPieces.norm_eq _).symm)

theorem W1_arg0 : W1 (F := Ideal) m ρ c (Proc.devRef .tc main_arg0) = aX := keep0 (W0 m ρ c) main_arg0 (by decide)
theorem W1_arg1 : W1 (F := Ideal) m ρ c (Proc.devRef .tc main_arg1) = aW1 := keep0 (W0 m ρ c) main_arg1 (by decide)
theorem W1_arg2 : W1 (F := Ideal) m ρ c (Proc.devRef .tc main_arg2) = aB1 := keep0 (W0 m ρ c) main_arg2 (by decide)
theorem W1_arg3 : W1 (F := Ideal) m ρ c (Proc.devRef .tc main_arg3) = aW2 := keep0 (W0 m ρ c) main_arg3 (by decide)
theorem W1_arg4 : W1 (F := Ideal) m ρ c (Proc.devRef .tc main_arg4) = aB2 := keep0 (W0 m ρ c) main_arg4 (by decide)
theorem W1_arg5 : W1 (F := Ideal) m ρ c (Proc.devRef .tc main_arg5) = aWl := keep0 (W0 m ρ c) main_arg5 (by decide)
theorem W1_arg6 : W1 (F := Ideal) m ρ c (Proc.devRef .tc main_arg6) = aBl := keep0 (W0 m ρ c) main_arg6 (by decide)

/-! ### After the first region: the first matrix product -/

theorem W2_v27 : W2 (F := Ideal) m ρ c (Proc.devRef .tc main_v27) = Cert.Gcn.mm1 (F := Ideal) aX aW1 :=
  (W2_arr m ρ c 2).trans ((Cert.KernelIdeal.Reg0.final (V1 m ρ) c).trans
    (congrArg₂ (Cert.Gcn.mm1 (F := Ideal)) (W1_arg0 m ρ c) (W1_arg1 m ρ c)))

theorem W2_v5 : W2 (F := Ideal) m ρ c (Proc.devRef .tc main_v5) = Cert.Gcn.ends0 (F := Ideal) aE :=
  (W2_of_ne m ρ c main_v5 (by decide)).trans (W1_v5 m ρ c)
theorem W2_v6 : W2 (F := Ideal) m ρ c (Proc.devRef .tc main_v6) = Cert.Gcn.ends1 (F := Ideal) aE :=
  (W2_of_ne m ρ c main_v6 (by decide)).trans (W1_v6 m ρ c)
theorem W2_v26 : W2 (F := Ideal) m ρ c (Proc.devRef .tc main_v26) = Cert.Gcn.norm (F := Ideal) aE :=
  (W2_of_ne m ρ c main_v26 (by decide)).trans (W1_v26 m ρ c)
theorem W2_arg2 : W2 (F := Ideal) m ρ c (Proc.devRef .tc main_arg2) = aB1 :=
  (W2_of_ne m ρ c main_arg2 (by decide)).trans (W1_arg2 m ρ c)
theorem W2_arg3 : W2 (F := Ideal) m ρ c (Proc.devRef .tc main_arg3) = aW2 :=
  (W2_of_ne m ρ c main_arg3 (by decide)).trans (W1_arg3 m ρ c)
theorem W2_arg4 : W2 (F := Ideal) m ρ c (Proc.devRef .tc main_arg4) = aB2 :=
  (W2_of_ne m ρ c main_arg4 (by decide)).trans (W1_arg4 m ρ c)
theorem W2_arg5 : W2 (F := Ideal) m ρ c (Proc.devRef .tc main_arg5) = aWl :=
  (W2_of_ne m ρ c main_arg5 (by decide)).trans (W1_arg5 m ρ c)
theorem W2_arg6 : W2 (F := Ideal) m ρ c (Proc.devRef .tc main_arg6) = aBl :=
  (W2_of_ne m ρ c main_arg6 (by decide)).trans (W1_arg6 m ρ c)

/-! ### After the second stretch: the first propagation step and the first bias row -/

theorem W3_v40 : W3 (F := Ideal) m ρ c (Proc.devRef .tc main_v40)
    = Cert.Gcn.agg180 (F := Ideal) (Cert.Gcn.mm1 (F := Ideal) aX aW1) aE :=
  (H1_v40 (W2 m ρ c) _ _ _ _ (W2_v27 m ρ c) (W2_v5 m ρ c) (W2_v6 m ρ c) (W2_v26 m ρ c)).trans
    (Cert.KWalkPieces.agg180_eq _ _).symm
theorem W3_v41 : W3 (F := Ideal) m ρ c (Proc.devRef .tc main_v41) = Cert.Gcn.row180 (F := Ideal) aB1 :=
  H1_v41 (W2 m ρ c) _ (W2_arg2 m ρ c)

theorem W3_v5 : W3 (F := Ideal) m ρ c (Proc.devRef .tc main_v5) = Cert.Gcn.ends0 (F := Ideal) aE :=
  (keep1 (W2 m ρ c) main_v5 (by decide)).trans (W2_v5 m ρ c)
theorem W3_v6 : W3 (F := Ideal) m ρ c (Proc.devRef .tc main_v6) = Cert.Gcn.ends1 (F := Ideal) aE :=
  (keep1 (W2 m ρ c) main_v6 (by decide)).trans (W2_v6 m ρ c)
theorem W3_v26 : W3 (F := Ideal) m ρ c (Proc.devRef .tc main_v26) = Cert.Gcn.norm (F := Ideal) aE :=
  (keep1 (W2 m ρ c) main_v26 (by decide)).trans (W2_v26 m ρ c)
theorem W3_arg3 : W3 (F := Ideal) m ρ c (Proc.devRef .tc main_arg3) = aW2 :=
  (keep1 (W2 m ρ c) main_arg3 (by decide)).trans (W2_arg3 m ρ c)
theorem W3_arg4 : W3 (F := Ideal) m ρ c (Proc.devRef .tc main_arg4) = aB2 :=
  (keep1 (W2 m ρ c) main_arg4 (by decide)).trans (W2_arg4 m ρ c)
theorem W3_arg5 : W3 (F := Ideal) m ρ c (Proc.devRef .tc main_arg5) = aWl :=
  (keep1 (W2 m ρ c) main_arg5 (by decide)).trans (W2_arg5 m ρ c)
theorem W3_arg6 : W3 (F := Ideal) m ρ c (Proc.devRef .tc main_arg6) = aBl :=
  (keep1 (W2 m ρ c) main_arg6 (by decide)).trans (W2_arg6 m ρ c)

/-! ### After the second region: the first layer -/

theorem W4_v42 : W4 (F := Ideal) m ρ c (Proc.devRef .tc main_v42)
    = Cert.Gcn.biasLeaky180 (F := Ideal) (Cert.Gcn.agg180 (F := Ideal) (Cert.Gcn.mm1 (F := Ideal) aX aW1) aE)
        (Cert.Gcn.row180 (F := Ideal) aB1) :=
  (W4_arr m ρ c 2).trans ((Cert.KernelIdeal.Reg1.final (V3 m ρ) c).trans
    (congrArg₂ (Cert.Gcn.biasLeaky180 (F := Ideal)) (W3_v40 m ρ c) (W3_v41 m ρ c)))

theorem W4_v5 : W4 (F := Ideal) m ρ c (Proc.devRef .tc main_v5) = Cert.Gcn.ends0 (F := Ideal) aE :=
  (W4_of_ne m ρ c main_v5 (by decide)).trans (W3_v5 m ρ c)
theorem W4_v6 : W4 (F := Ideal) m ρ c (Proc.devRef .tc main_v6) = Cert.Gcn.ends1 (F := Ideal) aE :=
  (W4_of_ne m ρ c main_v6 (by decide)).trans (W3_v6 m ρ c)
theorem W4_v26 : W4 (F := Ideal) m ρ c (Proc.devRef .tc main_v26) = Cert.Gcn.norm (F := Ideal) aE :=
  (W4_of_ne m ρ c main_v26 (by decide)).trans (W3_v26 m ρ c)
theorem W4_arg3 : W4 (F := Ideal) m ρ c (Proc.devRef .tc main_arg3) = aW2 :=
  (W4_of_ne m ρ c main_arg3 (by decide)).trans (W3_arg3 m ρ c)
theorem W4_arg4 : W4 (F := Ideal) m ρ c (Proc.devRef .tc main_arg4) = aB2 :=
  (W4_of_ne m ρ c main_arg4 (by decide)).trans (W3_arg4 m ρ c)
theorem W4_arg5 : W4 (F := Ideal) m ρ c (Proc.devRef .tc main_arg5) = aWl :=
  (W4_of_ne m ρ c main_arg5 (by decide)).trans (W3_arg5 m ρ c)
theorem W4_arg6 : W4 (F := Ideal) m ρ c (Proc.devRef .tc main_arg6) = aBl :=
  (W4_of_ne m ρ c main_arg6 (by decide)).trans (W3_arg6 m ρ c)

/-! ### After the third region: the second matrix product -/

theorem W5_v43 : W5 (F := Ideal) m ρ c (Proc.devRef .tc main_v43)
    = Cert.Gcn.mm2 (F := Ideal) (Cert.Gcn.biasLeaky180 (F := Ideal) (Cert.Gcn.agg180 (F := Ideal) (Cert.Gcn.mm1 (F := Ideal) aX aW1) aE)
        (Cert.Gcn.row180 (F := Ideal) aB1)) aW2 :=
  (W5_arr m ρ c 2).trans ((Cert.KernelIdeal.Reg2.final (V4 m ρ) c).trans
    (congrArg₂ (Cert.Gcn.mm2 (F := Ideal)) (W4_v42 m ρ c) (W4_arg3 m ρ c)))

theorem W5_v5 : W5 (F := Ideal) m ρ c (Proc.devRef .tc main_v5) = Cert.Gcn.ends0 (F := Ideal) aE :=
  (W5_of_ne m ρ c main_v5 (by decide)).trans (W4_v5 m ρ c)
theorem W5_v6 : W5 (F := Ideal) m ρ c (Proc.devRef .tc main_v6) = Cert.Gcn.ends1 (F := Ideal) aE :=
  (W5_of_ne m ρ c main_v6 (by decide)).trans (W4_v6 m ρ c)
theorem W5_v26 : W5 (F := Ideal) m ρ c (Proc.devRef .tc main_v26) = Cert.Gcn.norm (F := Ideal) aE :=
  (W5_of_ne m ρ c main_v26 (by decide)).trans (W4_v26 m ρ c)
theorem W5_arg4 : W5 (F := Ideal) m ρ c (Proc.devRef .tc main_arg4) = aB2 :=
  (W5_of_ne m ρ c main_arg4 (by decide)).trans (W4_arg4 m ρ c)
theorem W5_arg5 : W5 (F := Ideal) m ρ c (Proc.devRef .tc main_arg5) = aWl :=
  (W5_of_ne m ρ c main_arg5 (by decide)).trans (W4_arg5 m ρ c)
theorem W5_arg6 : W5 (F := Ideal) m ρ c (Proc.devRef .tc main_arg6) = aBl :=
  (W5_of_ne m ρ c main_arg6 (by decide)).trans (W4_arg6 m ρ c)

/-! ### After the third stretch: the second propagation step and the second bias row -/

/-- The first layer's value. -/
local notation "h1" => Cert.Gcn.biasLeaky180 (F := Ideal) (Cert.Gcn.agg180 (F := Ideal) (Cert.Gcn.mm1 (F := Ideal) aX aW1) aE)
  (Cert.Gcn.row180 (F := Ideal) aB1)

theorem W6_v56 : W6 (F := Ideal) m ρ c (Proc.devRef .tc main_v56)
    = Cert.Gcn.agg120 (F := Ideal) (Cert.Gcn.mm2 (F := Ideal) h1 aW2) aE :=
  (H3_v56 (W5 m ρ c) _ _ _ _ (W5_v43 m ρ c) (W5_v5 m ρ c) (W5_v6 m ρ c) (W5_v26 m ρ c)).trans
    (Cert.KWalkPieces.agg120_eq _ _).symm
theorem W6_v57 : W6 (F := Ideal) m ρ c (Proc.devRef .tc main_v57) = Cert.Gcn.row120 (F := Ideal) aB2 :=
  H3_v57 (W5 m ρ c) _ (W5_arg4 m ρ c)
theorem W6_arg5 : W6 (F := Ideal) m ρ c (Proc.devRef .tc main_arg5) = aWl :=
  (keep3 (W5 m ρ c) main_arg5 (by decide)).trans (W5_arg5 m ρ c)
theorem W6_arg6 : W6 (F := Ideal) m ρ c (Proc.devRef .tc main_arg6) = aBl :=
  (keep3 (W5 m ρ c) main_arg6 (by decide)).trans (W5_arg6 m ρ c)

/-! ### After the fourth region: the second layer -/

/-- The second layer's value. -/
local notation "h2" => Cert.Gcn.biasLeaky120 (F := Ideal) (Cert.Gcn.agg120 (F := Ideal) (Cert.Gcn.mm2 (F := Ideal) h1 aW2) aE)
  (Cert.Gcn.row120 (F := Ideal) aB2)

theorem W7_v58 : W7 (F := Ideal) m ρ c (Proc.devRef .tc main_v58) = h2 :=
  (W7_arr m ρ c 2).trans ((Cert.KernelIdeal.Reg3.final (V6 m ρ) c).trans
    (congrArg₂ (Cert.Gcn.biasLeaky120 (F := Ideal)) (W6_v56 m ρ c) (W6_v57 m ρ c)))
theorem W7_arg5 : W7 (F := Ideal) m ρ c (Proc.devRef .tc main_arg5) = aWl :=
  (W7_of_ne m ρ c main_arg5 (by decide)).trans (W6_arg5 m ρ c)
theorem W7_arg6 : W7 (F := Ideal) m ρ c (Proc.devRef .tc main_arg6) = aBl :=
  (W7_of_ne m ρ c main_arg6 (by decide)).trans (W6_arg6 m ρ c)

/-! ### After the last stretch: the head's bias row -/

theorem W8_v59 : W8 (F := Ideal) m ρ c (Proc.devRef .tc main_v59) = Cert.Gcn.row16 (F := Ideal) aBl :=
  H4_v59 (W7 m ρ c) _ (W7_arg6 m ρ c)
theorem W8_v58 : W8 (F := Ideal) m ρ c (Proc.devRef .tc main_v58) = h2 :=
  (keep4 (W7 m ρ c) main_v58 (by decide)).trans (W7_v58 m ρ c)
theorem W8_arg5 : W8 (F := Ideal) m ρ c (Proc.devRef .tc main_arg5) = aWl :=
  (keep4 (W7 m ρ c) main_arg5 (by decide)).trans (W7_arg5 m ρ c)

/-! ### After the last region: the head -/

theorem W9_v60 : W9 (F := Ideal) m ρ c (Proc.devRef .tc main_v60)
    = Cert.Gcn.head (F := Ideal) h2 aWl (Cert.Gcn.row16 (F := Ideal) aBl) :=
  (W9_arr m ρ c 3).trans ((Cert.KernelIdeal.Reg4.final (V8 m ρ) c).trans
    (congr3 (Cert.Gcn.head (F := Ideal)) (W8_v58 m ρ c) (W8_arg5 m ρ c) (W8_v59 m ρ c)))

/-- The result buffer's contents at the last boundary of the kernel program's run are the network's value of the
    argument arrays as launched. -/
theorem W9_out (m : (ℓ : Loc nD τ sig) → Buf (Elt Ideal) ℓ) (ρ : Dev nD → PrngReg) (c : Dev nD) :
    W9 (F := Ideal) m ρ c (Proc.devRef .tc main_v60) = Cert.Gcn.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  W9_v60 m ρ c

end Cert.KernelIdeal.Walk

end
-- ==== Proof.RefRun.lean ====
import proofs.«178770_j81570018886156_1_alg».proof.Proof.Gen.ReferenceIdeal
import proofs.«178770_j81570018886156_1_alg».proof.Proof.Spec
import Idealize.ShloMosaic.PureOps.Ideal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

/-!
  The reference program as ONE line of host operations and what that line computes.

  The program is printed in two windows, three of its statements calls of functions; with each called function's
  operations written in the call's place (over the call's own buffers) the windows are the lists `ops0` and `ops1`,
  and the program is `ops0 ++ ops1` run in order. The line is then cut where the network's layers end (`opsA` …
  `opsH`); for each cut, over ANY contents `V` of the buffers, the buffer the cut produces holds the layer's function
  (namespace `Cert.Gcn`) of what `V` holds at the buffers the cut reads, and every argument buffer is left as it was. Chaining
  the cuts gives the result buffer at `Cert.Gcn.out` of the arguments.
-/

set_option Elab.async false

variable {F : FTy → Type} [FloatOps F]

/-! ## The operations -/

/-- The first window's operations in order, the called function's operations in the call's place. -/
abbrev ops0 : List (HloOp τ sig (Elt F)) :=
  [ StableHlo.unary main_arg7 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg7 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg1 main_v4 ((fun l r => Host.dotGeneral dot_S100000x128_S128x180_S100000x180_1_0_0_1_n_n none l r) : (⟨S100000x128, .f32⟩ : BufTy).Contents (Elt F) → (⟨S128x180, .f32⟩ : BufTy).Contents (Elt F) → (⟨S100000x180, .f32⟩ : BufTy).Contents (Elt F)),
    StableHlo.nullary main_v5 (iotaInDim S100000 32 0),
    StableHlo.binary main_v1 main_v5 main_v6 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.binary main_v3 main_v5 main_v7 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.nullary main_cst (constant S_ .f32 0x3F800000#32),
    StableHlo.unary main_cst main_v8 (broadcastInDim S900000 ![] bcast_S_S900000 : (⟨S_, .f32⟩ : BufTy).Contents (Elt F) → (⟨S900000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S900000x1 ![0] bcast_S900000_S900000x1_0 : (⟨S900000, .i32⟩ : BufTy).Contents (Elt F) → (⟨S900000x1, .i32⟩ : BufTy).Contents (Elt F)),
    StableHlo.ternary main_v9 main_v10 main_v8 main_v11 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    StableHlo.unary main_v11 main_v12 (Host.rsqrt : (⟨S100000, .f32⟩ : BufTy).Contents (Elt F) → (⟨S100000, .f32⟩ : BufTy).Contents (Elt F)),
    StableHlo.nullary main_c (constantI S_ 32 0#32),
    StableHlo.unary main_c main_v13 (broadcastInDim S900000 ![] bcast_S_S900000 : (⟨S_, .i32⟩ : BufTy).Contents (Elt F) → (⟨S900000, .i32⟩ : BufTy).Contents (Elt F)),
    StableHlo.binary main_v6 main_v13 main_v14 (cmpi .slt : (⟨S900000, .i32⟩ : BufTy).Contents (Elt F) → (⟨S900000, .i32⟩ : BufTy).Contents (Elt F) → (⟨S900000, .i1⟩ : BufTy).Contents (Elt F)),
    StableHlo.nullary main_c_1 (constantI S_ 32 100000#32),
    StableHlo.unary main_c_1 main_v15 (broadcastInDim S900000 ![] bcast_S_S900000 : (⟨S_, .i32⟩ : BufTy).Contents (Elt F) → (⟨S900000, .i32⟩ : BufTy).Contents (Elt F)),
    StableHlo.binary main_v6 main_v15 main_v16 (addi : (⟨S900000, .i32⟩ : BufTy).Contents (Elt F) → (⟨S900000, .i32⟩ : BufTy).Contents (Elt F) → (⟨S900000, .i32⟩ : BufTy).Contents (Elt F)),
    StableHlo.ternary main_v14 main_v16 main_v6 main_v17 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v17 main_v18 (broadcastInDim S900000x1 ![0] bcast_S900000_S900000x1_0 : (⟨S900000, .i32⟩ : BufTy).Contents (Elt F) → (⟨S900000x1, .i32⟩ : BufTy).Contents (Elt F)),
    StableHlo.binary main_v12 main_v18 main_v19 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.nullary main_c_2 (constantI S_ 32 0#32),
    StableHlo.unary main_c_2 main_v20 (broadcastInDim S900000 ![] bcast_S_S900000 : (⟨S_, .i32⟩ : BufTy).Contents (Elt F) → (⟨S900000, .i32⟩ : BufTy).Contents (Elt F)),
    StableHlo.binary main_v7 main_v20 main_v21 (cmpi .slt : (⟨S900000, .i32⟩ : BufTy).Contents (Elt F) → (⟨S900000, .i32⟩ : BufTy).Contents (Elt F) → (⟨S900000, .i1⟩ : BufTy).Contents (Elt F)),
    StableHlo.nullary main_c_3 (constantI S_ 32 100000#32),
    StableHlo.unary main_c_3 main_v22 (broadcastInDim S900000 ![] bcast_S_S900000 : (⟨S_, .i32⟩ : BufTy).Contents (Elt F) → (⟨S900000, .i32⟩ : BufTy).Contents (Elt F)),
    StableHlo.binary main_v7 main_v22 main_v23 (addi : (⟨S900000, .i32⟩ : BufTy).Contents (Elt F) → (⟨S900000, .i32⟩ : BufTy).Contents (Elt F) → (⟨S900000, .i32⟩ : BufTy).Contents (Elt F)),
    StableHlo.ternary main_v21 main_v23 main_v7 main_v24 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v24 main_v25 (broadcastInDim S900000x1 ![0] bcast_S900000_S900000x1_0 : (⟨S900000, .i32⟩ : BufTy).Contents (Elt F) → (⟨S900000x1, .i32⟩ : BufTy).Contents (Elt F)),
    StableHlo.binary main_v12 main_v25 main_v26 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.binary main_v19 main_v26 main_v27 (mulf : (⟨S900000, .f32⟩ : BufTy).Contents (Elt F) → (⟨S900000, .f32⟩ : BufTy).Contents (Elt F) → (⟨S900000, .f32⟩ : BufTy).Contents (Elt F)),
    StableHlo.nullary main_c_4 (constantI S_ 32 0#32),
    StableHlo.unary main_c_4 main_v28 (broadcastInDim S900000 ![] bcast_S_S900000 : (⟨S_, .i32⟩ : BufTy).Contents (Elt F) → (⟨S900000, .i32⟩ : BufTy).Contents (Elt F)),
    StableHlo.binary main_v6 main_v28 main_v29 (cmpi .slt : (⟨S900000, .i32⟩ : BufTy).Contents (Elt F) → (⟨S900000, .i32⟩ : BufTy).Contents (Elt F) → (⟨S900000, .i1⟩ : BufTy).Contents (Elt F)),
    StableHlo.nullary main_c_5 (constantI S_ 32 100000#32),
    StableHlo.unary main_c_5 main_v30 (broadcastInDim S900000 ![] bcast_S_S900000 : (⟨S_, .i32⟩ : BufTy).Contents (Elt F) → (⟨S900000, .i32⟩ : BufTy).Contents (Elt F)),
    StableHlo.binary main_v6 main_v30 main_v31 (addi : (⟨S900000, .i32⟩ : BufTy).Contents (Elt F) → (⟨S900000, .i32⟩ : BufTy).Contents (Elt F) → (⟨S900000, .i32⟩ : BufTy).Contents (Elt F)),
    StableHlo.ternary main_v29 main_v31 main_v6 main_v32 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v32 main_v33 (broadcastInDim S900000x1 ![0] bcast_S900000_S900000x1_0 : (⟨S900000, .i32⟩ : BufTy).Contents (Elt F) → (⟨S900000x1, .i32⟩ : BufTy).Contents (Elt F)),
    StableHlo.binary main_v4 main_v33 main_v34 ((fun x i => Host.gather gather_S100000x180_S900000x1_S900000x180_1_0_n_n_0_1_1180 x i) : (⟨S100000x180, .f32⟩ : BufTy).Contents (Elt F) → (⟨S900000x1, .i32⟩ : BufTy).Contents (Elt F) → (⟨S900000x180, .f32⟩ : BufTy).Contents (Elt F)),
    StableHlo.unary main_v27 main_v35 (broadcastInDim S900000x1 ![0] bcast_S900000_S900000x1_0 : (⟨S900000, .f32⟩ : BufTy).Contents (Elt F) → (⟨S900000x1, .f32⟩ : BufTy).Contents (Elt F)),
    StableHlo.unary main_v35 main_v36 (broadcastInDim S900000x180 ![0, 1] bcast_S900000x1_S900000x180_0_1 : (⟨S900000x1, .f32⟩ : BufTy).Contents (Elt F) → (⟨S900000x180, .f32⟩ : BufTy).Contents (Elt F)),
    StableHlo.binary main_v34 main_v36 main_v37 (mulf : (⟨S900000x180, .f32⟩ : BufTy).Contents (Elt F) → (⟨S900000x180, .f32⟩ : BufTy).Contents (Elt F) → (⟨S900000x180, .f32⟩ : BufTy).Contents (Elt F)),
    StableHlo.nullary main_cst_6 (constant S_ .f32 0x00000000#32),
    StableHlo.unary main_cst_6 main_v38 (broadcastInDim S100000x180 ![] bcast_S_S100000x180 : (⟨S_, .f32⟩ : BufTy).Contents (Elt F) → (⟨S100000x180, .f32⟩ : BufTy).Contents (Elt F)),
    StableHlo.unary main_v7 main_v39 (broadcastInDim S900000x1 ![0] bcast_S900000_S900000x1_0 : (⟨S900000, .i32⟩ : BufTy).Contents (Elt F) → (⟨S900000x1, .i32⟩ : BufTy).Contents (Elt F)),
    StableHlo.ternary main_v38 main_v39 main_v37 main_v40 ((fun x i u => Host.scatterAdd scatter_S100000x180_S900000x1_S900000x180_1_0_0_1 x i u) : (⟨S100000x180, .f32⟩ : BufTy).Contents (Elt F) → (⟨S900000x1, .i32⟩ : BufTy).Contents (Elt F) → (⟨S900000x180, .f32⟩ : BufTy).Contents (Elt F) → (⟨S100000x180, .f32⟩ : BufTy).Contents (Elt F)),
    StableHlo.unary main_arg2 main_v41 (broadcastInDim S1x180 ![1] bcast_S180_S1x180_1 : (⟨S180, .f32⟩ : BufTy).Contents (Elt F) → (⟨S1x180, .f32⟩ : BufTy).Contents (Elt F)),
    StableHlo.unary main_v41 main_v42 (broadcastInDim S100000x180 ![0, 1] bcast_S1x180_S100000x180_0_1 : (⟨S1x180, .f32⟩ : BufTy).Contents (Elt F) → (⟨S100000x180, .f32⟩ : BufTy).Contents (Elt F)),
    StableHlo.binary main_v40 main_v42 main_v43 (addf : (⟨S100000x180, .f32⟩ : BufTy).Contents (Elt F) → (⟨S100000x180, .f32⟩ : BufTy).Contents (Elt F) → (⟨S100000x180, .f32⟩ : BufTy).Contents (Elt F)),
    StableHlo.nullary main_cst_7 (constant S_ .f32 0x3C23D70A#32),
    StableHlo.nullary main_call0_cst (constant S_ .f32 0x00000000#32),
    StableHlo.unary main_call0_cst main_call0_v0 (broadcastInDim S100000x180 ![] bcast_S_S100000x180 : (⟨S_, .f32⟩ : BufTy).Contents (Elt F) → (⟨S100000x180, .f32⟩ : BufTy).Contents (Elt F)),
    StableHlo.binary main_v43 main_call0_v0 main_call0_v1 (cmpf .oge : (⟨S100000x180, .f32⟩ : BufTy).Contents (Elt F) → (⟨S100000x180, .f32⟩ : BufTy).Contents (Elt F) → (⟨S100000x180, .i1⟩ : BufTy).Contents (Elt F)),
    StableHlo.unary main_cst_7 main_call0_v2 (id : (⟨S_, .f32⟩ : BufTy).Contents (Elt F) → (⟨S_, .f32⟩ : BufTy).Contents (Elt F)),
    StableHlo.unary main_call0_v2 main_call0_v3 (broadcastInDim S100000x180 ![] bcast_S_S100000x180 : (⟨S_, .f32⟩ : BufTy).Contents (Elt F) → (⟨S100000x180, .f32⟩ : BufTy).Contents (Elt F)),
    StableHlo.binary main_call0_v3 main_v43 main_call0_v4 (mulf : (⟨S100000x180, .f32⟩ : BufTy).Contents (Elt F) → (⟨S100000x180, .f32⟩ : BufTy).Contents (Elt F) → (⟨S100000x180, .f32⟩ : BufTy).Contents (Elt F)),
    StableHlo.ternary main_call0_v1 main_v43 main_call0_v4 main_v44 (select : (⟨S100000x180, .i1⟩ : BufTy).Contents (Elt F) → (⟨S100000x180, .f32⟩ : BufTy).Contents (Elt F) → (⟨S100000x180, .f32⟩ : BufTy).Contents (Elt F) → (⟨S100000x180, .f32⟩ : BufTy).Contents (Elt F)),
    StableHlo.binary main_v44 main_arg3 main_v45 ((fun l r => Host.dotGeneral dot_S100000x180_S180x120_S100000x120_1_0_0_1_n_n none l r) : (⟨S100000x180, .f32⟩ : BufTy).Contents (Elt F) → (⟨S180x120, .f32⟩ : BufTy).Contents (Elt F) → (⟨S100000x120, .f32⟩ : BufTy).Contents (Elt F)),
    StableHlo.nullary main_v46 (iotaInDim S100000 32 0),
    StableHlo.binary main_v1 main_v46 main_v47 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.binary main_v3 main_v46 main_v48 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.nullary main_cst_8 (constant S_ .f32 0x3F800000#32) ]

/-- The second window's operations in order, the called functions' operations in the calls' places. -/
abbrev ops1 : List (HloOp τ sig (Elt F)) :=
  [ StableHlo.unary main_cst_8 main_v49 (broadcastInDim S900000 ![] bcast_S_S900000 : (⟨S_, .f32⟩ : BufTy).Contents (Elt F) → (⟨S900000, .f32⟩ : BufTy).Contents (Elt F)),
    StableHlo.nullary main_cst_9 (constant S_ .f32 0x00000000#32),
    StableHlo.unary main_cst_9 main_v50 (broadcastInDim S100000 ![] bcast_S_S100000 : (⟨S_, .f32⟩ : BufTy).Contents (Elt F) → (⟨S100000, .f32⟩ : BufTy).Contents (Elt F)),
    StableHlo.unary main_v48 main_v51 (broadcastInDim S900000x1 ![0] bcast_S900000_S900000x1_0 : (⟨S900000, .i32⟩ : BufTy).Contents (Elt F) → (⟨S900000x1, .i32⟩ : BufTy).Contents (Elt F)),
    StableHlo.ternary main_v50 main_v51 main_v49 main_v52 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    StableHlo.unary main_v52 main_v53 (Host.rsqrt : (⟨S100000, .f32⟩ : BufTy).Contents (Elt F) → (⟨S100000, .f32⟩ : BufTy).Contents (Elt F)),
    StableHlo.nullary main_c_10 (constantI S_ 32 0#32),
    StableHlo.unary main_c_10 main_v54 (broadcastInDim S900000 ![] bcast_S_S900000 : (⟨S_, .i32⟩ : BufTy).Contents (Elt F) → (⟨S900000, .i32⟩ : BufTy).Contents (Elt F)),
    StableHlo.binary main_v47 main_v54 main_v55 (cmpi .slt : (⟨S900000, .i32⟩ : BufTy).Contents (Elt F) → (⟨S900000, .i32⟩ : BufTy).Contents (Elt F) → (⟨S900000, .i1⟩ : BufTy).Contents (Elt F)),
    StableHlo.nullary main_c_11 (constantI S_ 32 100000#32),
    StableHlo.unary main_c_11 main_v56 (broadcastInDim S900000 ![] bcast_S_S900000 : (⟨S_, .i32⟩ : BufTy).Contents (Elt F) → (⟨S900000, .i32⟩ : BufTy).Contents (Elt F)),
    StableHlo.binary main_v47 main_v56 main_v57 (addi : (⟨S900000, .i32⟩ : BufTy).Contents (Elt F) → (⟨S900000, .i32⟩ : BufTy).Contents (Elt F) → (⟨S900000, .i32⟩ : BufTy).Contents (Elt F)),
    StableHlo.ternary main_v55 main_v57 main_v47 main_v58 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v58 main_v59 (broadcastInDim S900000x1 ![0] bcast_S900000_S900000x1_0 : (⟨S900000, .i32⟩ : BufTy).Contents (Elt F) → (⟨S900000x1, .i32⟩ : BufTy).Contents (Elt F)),
    StableHlo.binary main_v53 main_v59 main_v60 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.nullary main_c_12 (constantI S_ 32 0#32),
    StableHlo.unary main_c_12 main_v61 (broadcastInDim S900000 ![] bcast_S_S900000 : (⟨S_, .i32⟩ : BufTy).Contents (Elt F) → (⟨S900000, .i32⟩ : BufTy).Contents (Elt F)),
    StableHlo.binary main_v48 main_v61 main_v62 (cmpi .slt : (⟨S900000, .i32⟩ : BufTy).Contents (Elt F) → (⟨S900000, .i32⟩ : BufTy).Contents (Elt F) → (⟨S900000, .i1⟩ : BufTy).Contents (Elt F)),
    StableHlo.nullary main_c_13 (constantI S_ 32 100000#32),
    StableHlo.unary main_c_13 main_v63 (broadcastInDim S900000 ![] bcast_S_S900000 : (⟨S_, .i32⟩ : BufTy).Contents (Elt F) → (⟨S900000, .i32⟩ : BufTy).Contents (Elt F)),
    StableHlo.binary main_v48 main_v63 main_v64 (addi : (⟨S900000, .i32⟩ : BufTy).Contents (Elt F) → (⟨S900000, .i32⟩ : BufTy).Contents (Elt F) → (⟨S900000, .i32⟩ : BufTy).Contents (Elt F)),
    StableHlo.ternary main_v62 main_v64 main_v48 main_v65 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v65 main_v66 (broadcastInDim S900000x1 ![0] bcast_S900000_S900000x1_0 : (⟨S900000, .i32⟩ : BufTy).Contents (Elt F) → (⟨S900000x1, .i32⟩ : BufTy).Contents (Elt F)),
    StableHlo.binary main_v53 main_v66 main_v67 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.binary main_v60 main_v67 main_v68 (mulf : (⟨S900000, .f32⟩ : BufTy).Contents (Elt F) → (⟨S900000, .f32⟩ : BufTy).Contents (Elt F) → (⟨S900000, .f32⟩ : BufTy).Contents (Elt F)),
    StableHlo.nullary main_c_14 (constantI S_ 32 0#32),
    StableHlo.unary main_c_14 main_v69 (broadcastInDim S900000 ![] bcast_S_S900000 : (⟨S_, .i32⟩ : BufTy).Contents (Elt F) → (⟨S900000, .i32⟩ : BufTy).Contents (Elt F)),
    StableHlo.binary main_v47 main_v69 main_v70 (cmpi .slt : (⟨S900000, .i32⟩ : BufTy).Contents (Elt F) → (⟨S900000, .i32⟩ : BufTy).Contents (Elt F) → (⟨S900000, .i1⟩ : BufTy).Contents (Elt F)),
    StableHlo.nullary main_c_15 (constantI S_ 32 100000#32),
    StableHlo.unary main_c_15 main_v71 (broadcastInDim S900000 ![] bcast_S_S900000 : (⟨S_, .i32⟩ : BufTy).Contents (Elt F) → (⟨S900000, .i32⟩ : BufTy).Contents (Elt F)),
    StableHlo.binary main_v47 main_v71 main_v72 (addi : (⟨S900000, .i32⟩ : BufTy).Contents (Elt F) → (⟨S900000, .i32⟩ : BufTy).Contents (Elt F) → (⟨S900000, .i32⟩ : BufTy).Contents (Elt F)),
    StableHlo.ternary main_v70 main_v72 main_v47 main_v73 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v73 main_v74 (broadcastInDim S900000x1 ![0] bcast_S900000_S900000x1_0 : (⟨S900000, .i32⟩ : BufTy).Contents (Elt F) → (⟨S900000x1, .i32⟩ : BufTy).Contents (Elt F)),
    StableHlo.binary main_v45 main_v74 main_v75 ((fun x i => Host.gather gather_S100000x120_S900000x1_S900000x120_1_0_n_n_0_1_1120 x i) : (⟨S100000x120, .f32⟩ : BufTy).Contents (Elt F) → (⟨S900000x1, .i32⟩ : BufTy).Contents (Elt F) → (⟨S900000x120, .f32⟩ : BufTy).Contents (Elt F)),
    StableHlo.unary main_v68 main_v76 (broadcastInDim S900000x1 ![0] bcast_S900000_S900000x1_0 : (⟨S900000, .f32⟩ : BufTy).Contents (Elt F) → (⟨S900000x1, .f32⟩ : BufTy).Contents (Elt F)),
    StableHlo.unary main_v76 main_v77 (broadcastInDim S900000x120 ![0, 1] bcast_S900000x1_S900000x120_0_1 : (⟨S900000x1, .f32⟩ : BufTy).Contents (Elt F) → (⟨S900000x120, .f32⟩ : BufTy).Contents (Elt F)),
    StableHlo.binary main_v75 main_v77 main_v78 (mulf : (⟨S900000x120, .f32⟩ : BufTy).Contents (Elt F) → (⟨S900000x120, .f32⟩ : BufTy).Contents (Elt F) → (⟨S900000x120, .f32⟩ : BufTy).Contents (Elt F)),
    StableHlo.nullary main_cst_16 (constant S_ .f32 0x00000000#32),
    StableHlo.unary main_cst_16 main_v79 (broadcastInDim S100000x120 ![] bcast_S_S100000x120 : (⟨S_, .f32⟩ : BufTy).Contents (Elt F) → (⟨S100000x120, .f32⟩ : BufTy).Contents (Elt F)),
    StableHlo.unary main_v48 main_v80 (broadcastInDim S900000x1 ![0] bcast_S900000_S900000x1_0 : (⟨S900000, .i32⟩ : BufTy).Contents (Elt F) → (⟨S900000x1, .i32⟩ : BufTy).Contents (Elt F)),
    StableHlo.ternary main_v79 main_v80 main_v78 main_v81 ((fun x i u => Host.scatterAdd scatter_S100000x120_S900000x1_S900000x120_1_0_0_1 x i u) : (⟨S100000x120, .f32⟩ : BufTy).Contents (Elt F) → (⟨S900000x1, .i32⟩ : BufTy).Contents (Elt F) → (⟨S900000x120, .f32⟩ : BufTy).Contents (Elt F) → (⟨S100000x120, .f32⟩ : BufTy).Contents (Elt F)),
    StableHlo.unary main_arg4 main_v82 (broadcastInDim S1x120 ![1] bcast_S120_S1x120_1 : (⟨S120, .f32⟩ : BufTy).Contents (Elt F) → (⟨S1x120, .f32⟩ : BufTy).Contents (Elt F)),
    StableHlo.unary main_v82 main_v83 (broadcastInDim S100000x120 ![0, 1] bcast_S1x120_S100000x120_0_1 : (⟨S1x120, .f32⟩ : BufTy).Contents (Elt F) → (⟨S100000x120, .f32⟩ : BufTy).Contents (Elt F)),
    StableHlo.binary main_v81 main_v83 main_v84 (addf : (⟨S100000x120, .f32⟩ : BufTy).Contents (Elt F) → (⟨S100000x120, .f32⟩ : BufTy).Contents (Elt F) → (⟨S100000x120, .f32⟩ : BufTy).Contents (Elt F)),
    StableHlo.nullary main_cst_17 (constant S_ .f32 0x3C23D70A#32),
    StableHlo.nullary main_call1_cst (constant S_ .f32 0x00000000#32),
    StableHlo.unary main_call1_cst main_call1_v0 (broadcastInDim S100000x120 ![] bcast_S_S100000x120 : (⟨S_, .f32⟩ : BufTy).Contents (Elt F) → (⟨S100000x120, .f32⟩ : BufTy).Contents (Elt F)),
    StableHlo.binary main_v84 main_call1_v0 main_call1_v1 (cmpf .oge : (⟨S100000x120, .f32⟩ : BufTy).Contents (Elt F) → (⟨S100000x120, .f32⟩ : BufTy).Contents (Elt F) → (⟨S100000x120, .i1⟩ : BufTy).Contents (Elt F)),
    StableHlo.unary main_cst_17 main_call1_v2 (id : (⟨S_, .f32⟩ : BufTy).Contents (Elt F) → (⟨S_, .f32⟩ : BufTy).Contents (Elt F)),
    StableHlo.unary main_call1_v2 main_call1_v3 (broadcastInDim S100000x120 ![] bcast_S_S100000x120 : (⟨S_, .f32⟩ : BufTy).Contents (Elt F) → (⟨S100000x120, .f32⟩ : BufTy).Contents (Elt F)),
    StableHlo.binary main_call1_v3 main_v84 main_call1_v4 (mulf : (⟨S100000x120, .f32⟩ : BufTy).Contents (Elt F) → (⟨S100000x120, .f32⟩ : BufTy).Contents (Elt F) → (⟨S100000x120, .f32⟩ : BufTy).Contents (Elt F)),
    StableHlo.ternary main_call1_v1 main_v84 main_call1_v4 main_v85 (select : (⟨S100000x120, .i1⟩ : BufTy).Contents (Elt F) → (⟨S100000x120, .f32⟩ : BufTy).Contents (Elt F) → (⟨S100000x120, .f32⟩ : BufTy).Contents (Elt F) → (⟨S100000x120, .f32⟩ : BufTy).Contents (Elt F)),
    StableHlo.binary main_v85 main_arg5 main_v86 ((fun l r => Host.dotGeneral dot_S100000x120_S120x16_S100000x16_1_0_0_1_n_n none l r) : (⟨S100000x120, .f32⟩ : BufTy).Contents (Elt F) → (⟨S120x16, .f32⟩ : BufTy).Contents (Elt F) → (⟨S100000x16, .f32⟩ : BufTy).Contents (Elt F)),
    StableHlo.unary main_arg6 main_v87 (broadcastInDim S1x16 ![1] bcast_S16_S1x16_1 : (⟨S16, .f32⟩ : BufTy).Contents (Elt F) → (⟨S1x16, .f32⟩ : BufTy).Contents (Elt F)),
    StableHlo.unary main_v87 main_v88 (broadcastInDim S100000x16 ![0, 1] bcast_S1x16_S100000x16_0_1 : (⟨S1x16, .f32⟩ : BufTy).Contents (Elt F) → (⟨S100000x16, .f32⟩ : BufTy).Contents (Elt F)),
    StableHlo.binary main_v86 main_v88 main_v89 (addf : (⟨S100000x16, .f32⟩ : BufTy).Contents (Elt F) → (⟨S100000x16, .f32⟩ : BufTy).Contents (Elt F) → (⟨S100000x16, .f32⟩ : BufTy).Contents (Elt F)),
    StableHlo.nullary main_call2_cst (constant S_ .f32 0xFF800000#32),
    StableHlo.binary main_v89 main_call2_cst main_call2_v0 (fun x v => Host.reduce FloatOps.maximumf x v reducesTo_S100000x16_S100000_d1 h_S_ : (⟨S100000x16, .f32⟩ : BufTy).Contents (Elt F) → (⟨S_, .f32⟩ : BufTy).Contents (Elt F) → (⟨S100000, .f32⟩ : BufTy).Contents (Elt F)),
    StableHlo.nullary main_call2_cst_0 (constant S_ .f32 0xFF800000#32),
    StableHlo.unary main_call2_cst_0 main_call2_v1 (broadcastInDim S100000 ![] bcast_S_S100000 : (⟨S_, .f32⟩ : BufTy).Contents (Elt F) → (⟨S100000, .f32⟩ : BufTy).Contents (Elt F)),
    StableHlo.binary main_call2_v1 main_call2_v0 main_call2_v2 (maximumf : (⟨S100000, .f32⟩ : BufTy).Contents (Elt F) → (⟨S100000, .f32⟩ : BufTy).Contents (Elt F) → (⟨S100000, .f32⟩ : BufTy).Contents (Elt F)),
    StableHlo.unary main_call2_v2 main_call2_v3 (broadcastInDim S100000x1 ![0] bcast_S100000_S100000x1_0 : (⟨S100000, .f32⟩ : BufTy).Contents (Elt F) → (⟨S100000x1, .f32⟩ : BufTy).Contents (Elt F)),
    StableHlo.unary main_call2_v3 main_call2_v4 (broadcastInDim S100000x16 ![0, 1] bcast_S100000x1_S100000x16_0_1 : (⟨S100000x1, .f32⟩ : BufTy).Contents (Elt F) → (⟨S100000x16, .f32⟩ : BufTy).Contents (Elt F)),
    StableHlo.binary main_v89 main_call2_v4 main_call2_v5 (subf : (⟨S100000x16, .f32⟩ : BufTy).Contents (Elt F) → (⟨S100000x16, .f32⟩ : BufTy).Contents (Elt F) → (⟨S100000x16, .f32⟩ : BufTy).Contents (Elt F)),
    StableHlo.unary main_call2_v5 main_call2_v6 (Host.exp : (⟨S100000x16, .f32⟩ : BufTy).Contents (Elt F) → (⟨S100000x16, .f32⟩ : BufTy).Contents (Elt F)),
    StableHlo.nullary main_call2_cst_1 (constant S_ .f32 0x00000000#32),
    StableHlo.binary main_call2_v6 main_call2_cst_1 main_call2_v7 (fun x v => Host.reduceAdd x v reducesTo_S100000x16_S100000_d1 h_S_ : (⟨S100000x16, .f32⟩ : BufTy).Contents (Elt F) → (⟨S_, .f32⟩ : BufTy).Contents (Elt F) → (⟨S100000, .f32⟩ : BufTy).Contents (Elt F)),
    StableHlo.unary main_call2_v7 main_call2_v8 (broadcastInDim S100000x1 ![0] bcast_S100000_S100000x1_0 : (⟨S100000, .f32⟩ : BufTy).Contents (Elt F) → (⟨S100000x1, .f32⟩ : BufTy).Contents (Elt F)),
    StableHlo.unary main_call2_v8 main_call2_v9 (Host.log : (⟨S100000x1, .f32⟩ : BufTy).Contents (Elt F) → (⟨S100000x1, .f32⟩ : BufTy).Contents (Elt F)),
    StableHlo.unary main_call2_v9 main_call2_v10 (broadcastInDim S100000x16 ![0, 1] bcast_S100000x1_S100000x16_0_1 : (⟨S100000x1, .f32⟩ : BufTy).Contents (Elt F) → (⟨S100000x16, .f32⟩ : BufTy).Contents (Elt F)),
    StableHlo.binary main_call2_v5 main_call2_v10 main_v90 (subf : (⟨S100000x16, .f32⟩ : BufTy).Contents (Elt F) → (⟨S100000x16, .f32⟩ : BufTy).Contents (Elt F) → (⟨S100000x16, .f32⟩ : BufTy).Contents (Elt F)) ]

attribute [local irreducible] Host.scatterAdd Host.gather Host.reduce Host.reduceAdd concatenate in
set_option maxRecDepth 8192 in
/-- The first window is its operations run in order: the called function's definition opened at its call, both sides are one
    chain of steps. A step of the called function moves its operands' and result's contents along an equation between a
    buffer's type and itself, which changes nothing. -/
theorem part0_eq (c : Dev nD) : main_part0 (F := F) c = seq ops0 := by
  simp only [main_part0, fn_leaky_relu.body, fn_where.body, seq, bind_assoc, pure_bind]
  first | done | rfl

attribute [local irreducible] Host.scatterAdd Host.gather Host.reduce Host.reduceAdd concatenate in
set_option maxRecDepth 8192 in
/-- The second window likewise. -/
theorem part1_eq (c : Dev nD) : main_part1 (F := F) c = seq ops1 := by
  simp only [main_part1, fn_leaky_relu_0.body, fn_where_1.body, fn_log_softmax.body, seq, bind_assoc, pure_bind]
  first | done | rfl

/-- The whole program is the two lists run one after the other. -/
theorem main_eq (c : Dev nD) : main (F := F) c = seq (ops0 ++ ops1) := by
  rw [seq_append, ← part0_eq c, ← part1_eq c]; rfl

/-! ## The cuts -/

/-- Up to the first propagation step's result: the two rows of the edge list, the first matrix product, the pairs, the degrees, the pair weights, the step. -/
abbrev opsA : List (HloOp τ sig (Elt F)) :=
  [ StableHlo.unary main_arg7 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg7 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg1 main_v4 ((fun l r => Host.dotGeneral dot_S100000x128_S128x180_S100000x180_1_0_0_1_n_n none l r) : (⟨S100000x128, .f32⟩ : BufTy).Contents (Elt F) → (⟨S128x180, .f32⟩ : BufTy).Contents (Elt F) → (⟨S100000x180, .f32⟩ : BufTy).Contents (Elt F)),
    StableHlo.nullary main_v5 (iotaInDim S100000 32 0),
    StableHlo.binary main_v1 main_v5 main_v6 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.binary main_v3 main_v5 main_v7 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.nullary main_cst (constant S_ .f32 0x3F800000#32),
    StableHlo.unary main_cst main_v8 (broadcastInDim S900000 ![] bcast_S_S900000 : (⟨S_, .f32⟩ : BufTy).Contents (Elt F) → (⟨S900000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S900000x1 ![0] bcast_S900000_S900000x1_0 : (⟨S900000, .i32⟩ : BufTy).Contents (Elt F) → (⟨S900000x1, .i32⟩ : BufTy).Contents (Elt F)),
    StableHlo.ternary main_v9 main_v10 main_v8 main_v11 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    StableHlo.unary main_v11 main_v12 (Host.rsqrt : (⟨S100000, .f32⟩ : BufTy).Contents (Elt F) → (⟨S100000, .f32⟩ : BufTy).Contents (Elt F)),
    StableHlo.nullary main_c (constantI S_ 32 0#32),
    StableHlo.unary main_c main_v13 (broadcastInDim S900000 ![] bcast_S_S900000 : (⟨S_, .i32⟩ : BufTy).Contents (Elt F) → (⟨S900000, .i32⟩ : BufTy).Contents (Elt F)),
    StableHlo.binary main_v6 main_v13 main_v14 (cmpi .slt : (⟨S900000, .i32⟩ : BufTy).Contents (Elt F) → (⟨S900000, .i32⟩ : BufTy).Contents (Elt F) → (⟨S900000, .i1⟩ : BufTy).Contents (Elt F)),
    StableHlo.nullary main_c_1 (constantI S_ 32 100000#32),
    StableHlo.unary main_c_1 main_v15 (broadcastInDim S900000 ![] bcast_S_S900000 : (⟨S_, .i32⟩ : BufTy).Contents (Elt F) → (⟨S900000, .i32⟩ : BufTy).Contents (Elt F)),
    StableHlo.binary main_v6 main_v15 main_v16 (addi : (⟨S900000, .i32⟩ : BufTy).Contents (Elt F) → (⟨S900000, .i32⟩ : BufTy).Contents (Elt F) → (⟨S900000, .i32⟩ : BufTy).Contents (Elt F)),
    StableHlo.ternary main_v14 main_v16 main_v6 main_v17 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v17 main_v18 (broadcastInDim S900000x1 ![0] bcast_S900000_S900000x1_0 : (⟨S900000, .i32⟩ : BufTy).Contents (Elt F) → (⟨S900000x1, .i32⟩ : BufTy).Contents (Elt F)),
    StableHlo.binary main_v12 main_v18 main_v19 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.nullary main_c_2 (constantI S_ 32 0#32),
    StableHlo.unary main_c_2 main_v20 (broadcastInDim S900000 ![] bcast_S_S900000 : (⟨S_, .i32⟩ : BufTy).Contents (Elt F) → (⟨S900000, .i32⟩ : BufTy).Contents (Elt F)),
    StableHlo.binary main_v7 main_v20 main_v21 (cmpi .slt : (⟨S900000, .i32⟩ : BufTy).Contents (Elt F) → (⟨S900000, .i32⟩ : BufTy).Contents (Elt F) → (⟨S900000, .i1⟩ : BufTy).Contents (Elt F)),
    StableHlo.nullary main_c_3 (constantI S_ 32 100000#32),
    StableHlo.unary main_c_3 main_v22 (broadcastInDim S900000 ![] bcast_S_S900000 : (⟨S_, .i32⟩ : BufTy).Contents (Elt F) → (⟨S900000, .i32⟩ : BufTy).Contents (Elt F)),
    StableHlo.binary main_v7 main_v22 main_v23 (addi : (⟨S900000, .i32⟩ : BufTy).Contents (Elt F) → (⟨S900000, .i32⟩ : BufTy).Contents (Elt F) → (⟨S900000, .i32⟩ : BufTy).Contents (Elt F)),
    StableHlo.ternary main_v21 main_v23 main_v7 main_v24 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v24 main_v25 (broadcastInDim S900000x1 ![0] bcast_S900000_S900000x1_0 : (⟨S900000, .i32⟩ : BufTy).Contents (Elt F) → (⟨S900000x1, .i32⟩ : BufTy).Contents (Elt F)),
    StableHlo.binary main_v12 main_v25 main_v26 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.binary main_v19 main_v26 main_v27 (mulf : (⟨S900000, .f32⟩ : BufTy).Contents (Elt F) → (⟨S900000, .f32⟩ : BufTy).Contents (Elt F) → (⟨S900000, .f32⟩ : BufTy).Contents (Elt F)),
    StableHlo.nullary main_c_4 (constantI S_ 32 0#32),
    StableHlo.unary main_c_4 main_v28 (broadcastInDim S900000 ![] bcast_S_S900000 : (⟨S_, .i32⟩ : BufTy).Contents (Elt F) → (⟨S900000, .i32⟩ : BufTy).Contents (Elt F)),
    StableHlo.binary main_v6 main_v28 main_v29 (cmpi .slt : (⟨S900000, .i32⟩ : BufTy).Contents (Elt F) → (⟨S900000, .i32⟩ : BufTy).Contents (Elt F) → (⟨S900000, .i1⟩ : BufTy).Contents (Elt F)),
    StableHlo.nullary main_c_5 (constantI S_ 32 100000#32),
    StableHlo.unary main_c_5 main_v30 (broadcastInDim S900000 ![] bcast_S_S900000 : (⟨S_, .i32⟩ : BufTy).Contents (Elt F) → (⟨S900000, .i32⟩ : BufTy).Contents (Elt F)),
    StableHlo.binary main_v6 main_v30 main_v31 (addi : (⟨S900000, .i32⟩ : BufTy).Contents (Elt F) → (⟨S900000, .i32⟩ : BufTy).Contents (Elt F) → (⟨S900000, .i32⟩ : BufTy).Contents (Elt F)),
    StableHlo.ternary main_v29 main_v31 main_v6 main_v32 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v32 main_v33 (broadcastInDim S900000x1 ![0] bcast_S900000_S900000x1_0 : (⟨S900000, .i32⟩ : BufTy).Contents (Elt F) → (⟨S900000x1, .i32⟩ : BufTy).Contents (Elt F)),
    StableHlo.binary main_v4 main_v33 main_v34 ((fun x i => Host.gather gather_S100000x180_S900000x1_S900000x180_1_0_n_n_0_1_1180 x i) : (⟨S100000x180, .f32⟩ : BufTy).Contents (Elt F) → (⟨S900000x1, .i32⟩ : BufTy).Contents (Elt F) → (⟨S900000x180, .f32⟩ : BufTy).Contents (Elt F)),
    StableHlo.unary main_v27 main_v35 (broadcastInDim S900000x1 ![0] bcast_S900000_S900000x1_0 : (⟨S900000, .f32⟩ : BufTy).Contents (Elt F) → (⟨S900000x1, .f32⟩ : BufTy).Contents (Elt F)),
    StableHlo.unary main_v35 main_v36 (broadcastInDim S900000x180 ![0, 1] bcast_S900000x1_S900000x180_0_1 : (⟨S900000x1, .f32⟩ : BufTy).Contents (Elt F) → (⟨S900000x180, .f32⟩ : BufTy).Contents (Elt F)),
    StableHlo.binary main_v34 main_v36 main_v37 (mulf : (⟨S900000x180, .f32⟩ : BufTy).Contents (Elt F) → (⟨S900000x180, .f32⟩ : BufTy).Contents (Elt F) → (⟨S900000x180, .f32⟩ : BufTy).Contents (Elt F)),
    StableHlo.nullary main_cst_6 (constant S_ .f32 0x00000000#32),
    StableHlo.unary main_cst_6 main_v38 (broadcastInDim S100000x180 ![] bcast_S_S100000x180 : (⟨S_, .f32⟩ : BufTy).Contents (Elt F) → (⟨S100000x180, .f32⟩ : BufTy).Contents (Elt F)),
    StableHlo.unary main_v7 main_v39 (broadcastInDim S900000x1 ![0] bcast_S900000_S900000x1_0 : (⟨S900000, .i32⟩ : BufTy).Contents (Elt F) → (⟨S900000x1, .i32⟩ : BufTy).Contents (Elt F)),
    StableHlo.ternary main_v38 main_v39 main_v37 main_v40 ((fun x i u => Host.scatterAdd scatter_S100000x180_S900000x1_S900000x180_1_0_0_1 x i u) : (⟨S100000x180, .f32⟩ : BufTy).Contents (Elt F) → (⟨S900000x1, .i32⟩ : BufTy).Contents (Elt F) → (⟨S900000x180, .f32⟩ : BufTy).Contents (Elt F) → (⟨S100000x180, .f32⟩ : BufTy).Contents (Elt F)) ]

/-- The first layer's bias and leaky rectifier. -/
abbrev opsB : List (HloOp τ sig (Elt F)) :=
  [ StableHlo.unary main_arg2 main_v41 (broadcastInDim S1x180 ![1] bcast_S180_S1x180_1 : (⟨S180, .f32⟩ : BufTy).Contents (Elt F) → (⟨S1x180, .f32⟩ : BufTy).Contents (Elt F)),
    StableHlo.unary main_v41 main_v42 (broadcastInDim S100000x180 ![0, 1] bcast_S1x180_S100000x180_0_1 : (⟨S1x180, .f32⟩ : BufTy).Contents (Elt F) → (⟨S100000x180, .f32⟩ : BufTy).Contents (Elt F)),
    StableHlo.binary main_v40 main_v42 main_v43 (addf : (⟨S100000x180, .f32⟩ : BufTy).Contents (Elt F) → (⟨S100000x180, .f32⟩ : BufTy).Contents (Elt F) → (⟨S100000x180, .f32⟩ : BufTy).Contents (Elt F)),
    StableHlo.nullary main_cst_7 (constant S_ .f32 0x3C23D70A#32),
    StableHlo.nullary main_call0_cst (constant S_ .f32 0x00000000#32),
    StableHlo.unary main_call0_cst main_call0_v0 (broadcastInDim S100000x180 ![] bcast_S_S100000x180 : (⟨S_, .f32⟩ : BufTy).Contents (Elt F) → (⟨S100000x180, .f32⟩ : BufTy).Contents (Elt F)),
    StableHlo.binary main_v43 main_call0_v0 main_call0_v1 (cmpf .oge : (⟨S100000x180, .f32⟩ : BufTy).Contents (Elt F) → (⟨S100000x180, .f32⟩ : BufTy).Contents (Elt F) → (⟨S100000x180, .i1⟩ : BufTy).Contents (Elt F)),
    StableHlo.unary main_cst_7 main_call0_v2 (id : (⟨S_, .f32⟩ : BufTy).Contents (Elt F) → (⟨S_, .f32⟩ : BufTy).Contents (Elt F)),
    StableHlo.unary main_call0_v2 main_call0_v3 (broadcastInDim S100000x180 ![] bcast_S_S100000x180 : (⟨S_, .f32⟩ : BufTy).Contents (Elt F) → (⟨S100000x180, .f32⟩ : BufTy).Contents (Elt F)),
    StableHlo.binary main_call0_v3 main_v43 main_call0_v4 (mulf : (⟨S100000x180, .f32⟩ : BufTy).Contents (Elt F) → (⟨S100000x180, .f32⟩ : BufTy).Contents (Elt F) → (⟨S100000x180, .f32⟩ : BufTy).Contents (Elt F)),
    StableHlo.ternary main_call0_v1 main_v43 main_call0_v4 main_v44 (select : (⟨S100000x180, .i1⟩ : BufTy).Contents (Elt F) → (⟨S100000x180, .f32⟩ : BufTy).Contents (Elt F) → (⟨S100000x180, .f32⟩ : BufTy).Contents (Elt F) → (⟨S100000x180, .f32⟩ : BufTy).Contents (Elt F)) ]

/-- The second matrix product, and the pairs built again from the two rows. -/
abbrev opsP : List (HloOp τ sig (Elt F)) :=
  [ StableHlo.binary main_v44 main_arg3 main_v45 ((fun l r => Host.dotGeneral dot_S100000x180_S180x120_S100000x120_1_0_0_1_n_n none l r) : (⟨S100000x180, .f32⟩ : BufTy).Contents (Elt F) → (⟨S180x120, .f32⟩ : BufTy).Contents (Elt F) → (⟨S100000x120, .f32⟩ : BufTy).Contents (Elt F)),
    StableHlo.nullary main_v46 (iotaInDim S100000 32 0),
    StableHlo.binary main_v1 main_v46 main_v47 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.binary main_v3 main_v46 main_v48 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.nullary main_cst_8 (constant S_ .f32 0x3F800000#32) ]

/-- The second propagation step (the degrees and pair weights computed again). -/
abbrev opsC : List (HloOp τ sig (Elt F)) :=
  [ StableHlo.unary main_cst_8 main_v49 (broadcastInDim S900000 ![] bcast_S_S900000 : (⟨S_, .f32⟩ : BufTy).Contents (Elt F) → (⟨S900000, .f32⟩ : BufTy).Contents (Elt F)),
    StableHlo.nullary main_cst_9 (constant S_ .f32 0x00000000#32),
    StableHlo.unary main_cst_9 main_v50 (broadcastInDim S100000 ![] bcast_S_S100000 : (⟨S_, .f32⟩ : BufTy).Contents (Elt F) → (⟨S100000, .f32⟩ : BufTy).Contents (Elt F)),
    StableHlo.unary main_v48 main_v51 (broadcastInDim S900000x1 ![0] bcast_S900000_S900000x1_0 : (⟨S900000, .i32⟩ : BufTy).Contents (Elt F) → (⟨S900000x1, .i32⟩ : BufTy).Contents (Elt F)),
    StableHlo.ternary main_v50 main_v51 main_v49 main_v52 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    StableHlo.unary main_v52 main_v53 (Host.rsqrt : (⟨S100000, .f32⟩ : BufTy).Contents (Elt F) → (⟨S100000, .f32⟩ : BufTy).Contents (Elt F)),
    StableHlo.nullary main_c_10 (constantI S_ 32 0#32),
    StableHlo.unary main_c_10 main_v54 (broadcastInDim S900000 ![] bcast_S_S900000 : (⟨S_, .i32⟩ : BufTy).Contents (Elt F) → (⟨S900000, .i32⟩ : BufTy).Contents (Elt F)),
    StableHlo.binary main_v47 main_v54 main_v55 (cmpi .slt : (⟨S900000, .i32⟩ : BufTy).Contents (Elt F) → (⟨S900000, .i32⟩ : BufTy).Contents (Elt F) → (⟨S900000, .i1⟩ : BufTy).Contents (Elt F)),
    StableHlo.nullary main_c_11 (constantI S_ 32 100000#32),
    StableHlo.unary main_c_11 main_v56 (broadcastInDim S900000 ![] bcast_S_S900000 : (⟨S_, .i32⟩ : BufTy).Contents (Elt F) → (⟨S900000, .i32⟩ : BufTy).Contents (Elt F)),
    StableHlo.binary main_v47 main_v56 main_v57 (addi : (⟨S900000, .i32⟩ : BufTy).Contents (Elt F) → (⟨S900000, .i32⟩ : BufTy).Contents (Elt F) → (⟨S900000, .i32⟩ : BufTy).Contents (Elt F)),
    StableHlo.ternary main_v55 main_v57 main_v47 main_v58 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v58 main_v59 (broadcastInDim S900000x1 ![0] bcast_S900000_S900000x1_0 : (⟨S900000, .i32⟩ : BufTy).Contents (Elt F) → (⟨S900000x1, .i32⟩ : BufTy).Contents (Elt F)),
    StableHlo.binary main_v53 main_v59 main_v60 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.nullary main_c_12 (constantI S_ 32 0#32),
    StableHlo.unary main_c_12 main_v61 (broadcastInDim S900000 ![] bcast_S_S900000 : (⟨S_, .i32⟩ : BufTy).Contents (Elt F) → (⟨S900000, .i32⟩ : BufTy).Contents (Elt F)),
    StableHlo.binary main_v48 main_v61 main_v62 (cmpi .slt : (⟨S900000, .i32⟩ : BufTy).Contents (Elt F) → (⟨S900000, .i32⟩ : BufTy).Contents (Elt F) → (⟨S900000, .i1⟩ : BufTy).Contents (Elt F)),
    StableHlo.nullary main_c_13 (constantI S_ 32 100000#32),
    StableHlo.unary main_c_13 main_v63 (broadcastInDim S900000 ![] bcast_S_S900000 : (⟨S_, .i32⟩ : BufTy).Contents (Elt F) → (⟨S900000, .i32⟩ : BufTy).Contents (Elt F)),
    StableHlo.binary main_v48 main_v63 main_v64 (addi : (⟨S900000, .i32⟩ : BufTy).Contents (Elt F) → (⟨S900000, .i32⟩ : BufTy).Contents (Elt F) → (⟨S900000, .i32⟩ : BufTy).Contents (Elt F)),
    StableHlo.ternary main_v62 main_v64 main_v48 main_v65 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v65 main_v66 (broadcastInDim S900000x1 ![0] bcast_S900000_S900000x1_0 : (⟨S900000, .i32⟩ : BufTy).Contents (Elt F) → (⟨S900000x1, .i32⟩ : BufTy).Contents (Elt F)),
    StableHlo.binary main_v53 main_v66 main_v67 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.binary main_v60 main_v67 main_v68 (mulf : (⟨S900000, .f32⟩ : BufTy).Contents (Elt F) → (⟨S900000, .f32⟩ : BufTy).Contents (Elt F) → (⟨S900000, .f32⟩ : BufTy).Contents (Elt F)),
    StableHlo.nullary main_c_14 (constantI S_ 32 0#32),
    StableHlo.unary main_c_14 main_v69 (broadcastInDim S900000 ![] bcast_S_S900000 : (⟨S_, .i32⟩ : BufTy).Contents (Elt F) → (⟨S900000, .i32⟩ : BufTy).Contents (Elt F)),
    StableHlo.binary main_v47 main_v69 main_v70 (cmpi .slt : (⟨S900000, .i32⟩ : BufTy).Contents (Elt F) → (⟨S900000, .i32⟩ : BufTy).Contents (Elt F) → (⟨S900000, .i1⟩ : BufTy).Contents (Elt F)),
    StableHlo.nullary main_c_15 (constantI S_ 32 100000#32),
    StableHlo.unary main_c_15 main_v71 (broadcastInDim S900000 ![] bcast_S_S900000 : (⟨S_, .i32⟩ : BufTy).Contents (Elt F) → (⟨S900000, .i32⟩ : BufTy).Contents (Elt F)),
    StableHlo.binary main_v47 main_v71 main_v72 (addi : (⟨S900000, .i32⟩ : BufTy).Contents (Elt F) → (⟨S900000, .i32⟩ : BufTy).Contents (Elt F) → (⟨S900000, .i32⟩ : BufTy).Contents (Elt F)),
    StableHlo.ternary main_v70 main_v72 main_v47 main_v73 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v73 main_v74 (broadcastInDim S900000x1 ![0] bcast_S900000_S900000x1_0 : (⟨S900000, .i32⟩ : BufTy).Contents (Elt F) → (⟨S900000x1, .i32⟩ : BufTy).Contents (Elt F)),
    StableHlo.binary main_v45 main_v74 main_v75 ((fun x i => Host.gather gather_S100000x120_S900000x1_S900000x120_1_0_n_n_0_1_1120 x i) : (⟨S100000x120, .f32⟩ : BufTy).Contents (Elt F) → (⟨S900000x1, .i32⟩ : BufTy).Contents (Elt F) → (⟨S900000x120, .f32⟩ : BufTy).Contents (Elt F)),
    StableHlo.unary main_v68 main_v76 (broadcastInDim S900000x1 ![0] bcast_S900000_S900000x1_0 : (⟨S900000, .f32⟩ : BufTy).Contents (Elt F) → (⟨S900000x1, .f32⟩ : BufTy).Contents (Elt F)),
    StableHlo.unary main_v76 main_v77 (broadcastInDim S900000x120 ![0, 1] bcast_S900000x1_S900000x120_0_1 : (⟨S900000x1, .f32⟩ : BufTy).Contents (Elt F) → (⟨S900000x120, .f32⟩ : BufTy).Contents (Elt F)),
    StableHlo.binary main_v75 main_v77 main_v78 (mulf : (⟨S900000x120, .f32⟩ : BufTy).Contents (Elt F) → (⟨S900000x120, .f32⟩ : BufTy).Contents (Elt F) → (⟨S900000x120, .f32⟩ : BufTy).Contents (Elt F)),
    StableHlo.nullary main_cst_16 (constant S_ .f32 0x00000000#32),
    StableHlo.unary main_cst_16 main_v79 (broadcastInDim S100000x120 ![] bcast_S_S100000x120 : (⟨S_, .f32⟩ : BufTy).Contents (Elt F) → (⟨S100000x120, .f32⟩ : BufTy).Contents (Elt F)),
    StableHlo.unary main_v48 main_v80 (broadcastInDim S900000x1 ![0] bcast_S900000_S900000x1_0 : (⟨S900000, .i32⟩ : BufTy).Contents (Elt F) → (⟨S900000x1, .i32⟩ : BufTy).Contents (Elt F)),
    StableHlo.ternary main_v79 main_v80 main_v78 main_v81 ((fun x i u => Host.scatterAdd scatter_S100000x120_S900000x1_S900000x120_1_0_0_1 x i u) : (⟨S100000x120, .f32⟩ : BufTy).Contents (Elt F) → (⟨S900000x1, .i32⟩ : BufTy).Contents (Elt F) → (⟨S900000x120, .f32⟩ : BufTy).Contents (Elt F) → (⟨S100000x120, .f32⟩ : BufTy).Contents (Elt F)) ]

/-- The second layer's bias and leaky rectifier. -/
abbrev opsE : List (HloOp τ sig (Elt F)) :=
  [ StableHlo.unary main_arg4 main_v82 (broadcastInDim S1x120 ![1] bcast_S120_S1x120_1 : (⟨S120, .f32⟩ : BufTy).Contents (Elt F) → (⟨S1x120, .f32⟩ : BufTy).Contents (Elt F)),
    StableHlo.unary main_v82 main_v83 (broadcastInDim S100000x120 ![0, 1] bcast_S1x120_S100000x120_0_1 : (⟨S1x120, .f32⟩ : BufTy).Contents (Elt F) → (⟨S100000x120, .f32⟩ : BufTy).Contents (Elt F)),
    StableHlo.binary main_v81 main_v83 main_v84 (addf : (⟨S100000x120, .f32⟩ : BufTy).Contents (Elt F) → (⟨S100000x120, .f32⟩ : BufTy).Contents (Elt F) → (⟨S100000x120, .f32⟩ : BufTy).Contents (Elt F)),
    StableHlo.nullary main_cst_17 (constant S_ .f32 0x3C23D70A#32),
    StableHlo.nullary main_call1_cst (constant S_ .f32 0x00000000#32),
    StableHlo.unary main_call1_cst main_call1_v0 (broadcastInDim S100000x120 ![] bcast_S_S100000x120 : (⟨S_, .f32⟩ : BufTy).Contents (Elt F) → (⟨S100000x120, .f32⟩ : BufTy).Contents (Elt F)),
    StableHlo.binary main_v84 main_call1_v0 main_call1_v1 (cmpf .oge : (⟨S100000x120, .f32⟩ : BufTy).Contents (Elt F) → (⟨S100000x120, .f32⟩ : BufTy).Contents (Elt F) → (⟨S100000x120, .i1⟩ : BufTy).Contents (Elt F)),
    StableHlo.unary main_cst_17 main_call1_v2 (id : (⟨S_, .f32⟩ : BufTy).Contents (Elt F) → (⟨S_, .f32⟩ : BufTy).Contents (Elt F)),
    StableHlo.unary main_call1_v2 main_call1_v3 (broadcastInDim S100000x120 ![] bcast_S_S100000x120 : (⟨S_, .f32⟩ : BufTy).Contents (Elt F) → (⟨S100000x120, .f32⟩ : BufTy).Contents (Elt F)),
    StableHlo.binary main_call1_v3 main_v84 main_call1_v4 (mulf : (⟨S100000x120, .f32⟩ : BufTy).Contents (Elt F) → (⟨S100000x120, .f32⟩ : BufTy).Contents (Elt F) → (⟨S100000x120, .f32⟩ : BufTy).Contents (Elt F)),
    StableHlo.ternary main_call1_v1 main_v84 main_call1_v4 main_v85 (select : (⟨S100000x120, .i1⟩ : BufTy).Contents (Elt F) → (⟨S100000x120, .f32⟩ : BufTy).Contents (Elt F) → (⟨S100000x120, .f32⟩ : BufTy).Contents (Elt F) → (⟨S100000x120, .f32⟩ : BufTy).Contents (Elt F)) ]

/-- The third matrix product plus its bias row. -/
abbrev opsG : List (HloOp τ sig (Elt F)) :=
  [ StableHlo.binary main_v85 main_arg5 main_v86 ((fun l r => Host.dotGeneral dot_S100000x120_S120x16_S100000x16_1_0_0_1_n_n none l r) : (⟨S100000x120, .f32⟩ : BufTy).Contents (Elt F) → (⟨S120x16, .f32⟩ : BufTy).Contents (Elt F) → (⟨S100000x16, .f32⟩ : BufTy).Contents (Elt F)),
    StableHlo.unary main_arg6 main_v87 (broadcastInDim S1x16 ![1] bcast_S16_S1x16_1 : (⟨S16, .f32⟩ : BufTy).Contents (Elt F) → (⟨S1x16, .f32⟩ : BufTy).Contents (Elt F)),
    StableHlo.unary main_v87 main_v88 (broadcastInDim S100000x16 ![0, 1] bcast_S1x16_S100000x16_0_1 : (⟨S1x16, .f32⟩ : BufTy).Contents (Elt F) → (⟨S100000x16, .f32⟩ : BufTy).Contents (Elt F)),
    StableHlo.binary main_v86 main_v88 main_v89 (addf : (⟨S100000x16, .f32⟩ : BufTy).Contents (Elt F) → (⟨S100000x16, .f32⟩ : BufTy).Contents (Elt F) → (⟨S100000x16, .f32⟩ : BufTy).Contents (Elt F)) ]

/-- The row-wise log-softmax. -/
abbrev opsH : List (HloOp τ sig (Elt F)) :=
  [ StableHlo.nullary main_call2_cst (constant S_ .f32 0xFF800000#32),
    StableHlo.binary main_v89 main_call2_cst main_call2_v0 (fun x v => Host.reduce FloatOps.maximumf x v reducesTo_S100000x16_S100000_d1 h_S_ : (⟨S100000x16, .f32⟩ : BufTy).Contents (Elt F) → (⟨S_, .f32⟩ : BufTy).Contents (Elt F) → (⟨S100000, .f32⟩ : BufTy).Contents (Elt F)),
    StableHlo.nullary main_call2_cst_0 (constant S_ .f32 0xFF800000#32),
    StableHlo.unary main_call2_cst_0 main_call2_v1 (broadcastInDim S100000 ![] bcast_S_S100000 : (⟨S_, .f32⟩ : BufTy).Contents (Elt F) → (⟨S100000, .f32⟩ : BufTy).Contents (Elt F)),
    StableHlo.binary main_call2_v1 main_call2_v0 main_call2_v2 (maximumf : (⟨S100000, .f32⟩ : BufTy).Contents (Elt F) → (⟨S100000, .f32⟩ : BufTy).Contents (Elt F) → (⟨S100000, .f32⟩ : BufTy).Contents (Elt F)),
    StableHlo.unary main_call2_v2 main_call2_v3 (broadcastInDim S100000x1 ![0] bcast_S100000_S100000x1_0 : (⟨S100000, .f32⟩ : BufTy).Contents (Elt F) → (⟨S100000x1, .f32⟩ : BufTy).Contents (Elt F)),
    StableHlo.unary main_call2_v3 main_call2_v4 (broadcastInDim S100000x16 ![0, 1] bcast_S100000x1_S100000x16_0_1 : (⟨S100000x1, .f32⟩ : BufTy).Contents (Elt F) → (⟨S100000x16, .f32⟩ : BufTy).Contents (Elt F)),
    StableHlo.binary main_v89 main_call2_v4 main_call2_v5 (subf : (⟨S100000x16, .f32⟩ : BufTy).Contents (Elt F) → (⟨S100000x16, .f32⟩ : BufTy).Contents (Elt F) → (⟨S100000x16, .f32⟩ : BufTy).Contents (Elt F)),
    StableHlo.unary main_call2_v5 main_call2_v6 (Host.exp : (⟨S100000x16, .f32⟩ : BufTy).Contents (Elt F) → (⟨S100000x16, .f32⟩ : BufTy).Contents (Elt F)),
    StableHlo.nullary main_call2_cst_1 (constant S_ .f32 0x00000000#32),
    StableHlo.binary main_call2_v6 main_call2_cst_1 main_call2_v7 (fun x v => Host.reduceAdd x v reducesTo_S100000x16_S100000_d1 h_S_ : (⟨S100000x16, .f32⟩ : BufTy).Contents (Elt F) → (⟨S_, .f32⟩ : BufTy).Contents (Elt F) → (⟨S100000, .f32⟩ : BufTy).Contents (Elt F)),
    StableHlo.unary main_call2_v7 main_call2_v8 (broadcastInDim S100000x1 ![0] bcast_S100000_S100000x1_0 : (⟨S100000, .f32⟩ : BufTy).Contents (Elt F) → (⟨S100000x1, .f32⟩ : BufTy).Contents (Elt F)),
    StableHlo.unary main_call2_v8 main_call2_v9 (Host.log : (⟨S100000x1, .f32⟩ : BufTy).Contents (Elt F) → (⟨S100000x1, .f32⟩ : BufTy).Contents (Elt F)),
    StableHlo.unary main_call2_v9 main_call2_v10 (broadcastInDim S100000x16 ![0, 1] bcast_S100000x1_S100000x16_0_1 : (⟨S100000x1, .f32⟩ : BufTy).Contents (Elt F) → (⟨S100000x16, .f32⟩ : BufTy).Contents (Elt F)),
    StableHlo.binary main_call2_v5 main_call2_v10 main_v90 (subf : (⟨S100000x16, .f32⟩ : BufTy).Contents (Elt F) → (⟨S100000x16, .f32⟩ : BufTy).Contents (Elt F) → (⟨S100000x16, .f32⟩ : BufTy).Contents (Elt F)) ]

/-- Row 0 of the edge list as a vector: the sources. -/
abbrev srcRow (e : Gcn.Arr F S2x800000 .i32) : Gcn.Arr F S800000 .i32 :=
  shapeCast S800000 (extractStridedSlice S1x800000 ![0, 0] e slices_S2x800000_S1x800000_0_0) shapeCasts_S1x800000_S800000

/-- Row 1 of the edge list as a vector: the targets. -/
abbrev dstRow (e : Gcn.Arr F S2x800000 .i32) : Gcn.Arr F S800000 .i32 :=
  shapeCast S800000 (extractStridedSlice S1x800000 ![1, 0] e slices_S2x800000_S1x800000_1_0) shapeCasts_S1x800000_S800000

/-- The two windows' operations, cut at the layers' boundaries. -/
theorem ops_cut : (ops0 ++ ops1 : List (HloOp τ sig (Elt F)))
    = opsA ++ (opsB ++ (opsP ++ (opsC ++ (opsE ++ (opsG ++ opsH))))) := rfl

/-- Running one list and then another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons]; exact ih _

/-! ## What each cut computes, over any contents `V` of the buffers -/

attribute [local irreducible] Host.scatterAdd Host.gather Host.reduce Host.reduceAdd concatenate in
/-- The sources' row. -/
theorem A_v1 (V : Valuation τ sig (Elt F)) :
    after opsA V (main_v1 : DevRef τ sig) = srcRow (V (main_arg7 : DevRef τ sig)) := by
  after_results_simp
  rfl

attribute [local irreducible] Host.scatterAdd Host.gather Host.reduce Host.reduceAdd concatenate in
/-- The targets' row. -/
theorem A_v3 (V : Valuation τ sig (Elt F)) :
    after opsA V (main_v3 : DevRef τ sig) = dstRow (V (main_arg7 : DevRef τ sig)) := by
  after_results_simp
  rfl

attribute [local irreducible] Host.scatterAdd Host.gather Host.reduce Host.reduceAdd concatenate in
set_option maxRecDepth 8192 in
/-- The first propagation step, of the first matrix product. -/
theorem A_v40 (V : Valuation τ sig (Elt F)) :
    after opsA V (main_v40 : DevRef τ sig) = Gcn.agg180 (Gcn.mm1 (V (main_arg0 : DevRef τ sig)) (V (main_arg1 : DevRef τ sig))) (V (main_arg7 : DevRef τ sig)) := by
  after_results_simp
  rfl

attribute [local irreducible] Host.scatterAdd Host.gather Host.reduce Host.reduceAdd concatenate in
set_option maxRecDepth 8192 in
/-- The first layer's bias and rectifier. -/
theorem B_v44 (V : Valuation τ sig (Elt F)) :
    after opsB V (main_v44 : DevRef τ sig) = Gcn.biasLeaky180 (V (main_v40 : DevRef τ sig)) (Gcn.row180 (V (main_arg2 : DevRef τ sig))) := by
  after_results_simp
  rfl

attribute [local irreducible] Host.scatterAdd Host.gather Host.reduce Host.reduceAdd concatenate in
/-- The second matrix product. -/
theorem P_v45 (V : Valuation τ sig (Elt F)) :
    after opsP V (main_v45 : DevRef τ sig) = Gcn.mm2 (V (main_v44 : DevRef τ sig)) (V (main_arg3 : DevRef τ sig)) := by
  after_results
  rfl

attribute [local irreducible] Host.scatterAdd Host.gather Host.reduce Host.reduceAdd concatenate in
/-- The pairs' sources, from the sources' row. -/
theorem P_v47 (V : Valuation τ sig (Elt F)) (e : Gcn.Arr F S2x800000 .i32) (h1 : V (main_v1 : DevRef τ sig) = srcRow e) :
    after opsP V (main_v47 : DevRef τ sig) = Gcn.ends0 e := by
  after_results
  rw [h1]
  rfl

attribute [local irreducible] Host.scatterAdd Host.gather Host.reduce Host.reduceAdd concatenate in
/-- The pairs' targets, from the targets' row. -/
theorem P_v48 (V : Valuation τ sig (Elt F)) (e : Gcn.Arr F S2x800000 .i32) (h3 : V (main_v3 : DevRef τ sig) = dstRow e) :
    after opsP V (main_v48 : DevRef τ sig) = Gcn.ends1 e := by
  after_results
  rw [h3]
  rfl

attribute [local irreducible] Host.scatterAdd Host.gather Host.reduce Host.reduceAdd concatenate in
/-- The constant one. -/
theorem P_cst8 (V : Valuation τ sig (Elt F)) :
    after opsP V (main_cst_8 : DevRef τ sig) = (constant S_ .f32 0x3F800000#32 : Gcn.Arr F S_ .f32) := by
  after_results

attribute [local irreducible] Host.scatterAdd Host.gather Host.reduce Host.reduceAdd concatenate in
set_option maxRecDepth 8192 in
/-- The second propagation step, of whatever the rows' buffer holds, over the pairs. -/
theorem C_v81 (V : Valuation τ sig (Elt F)) (e : Gcn.Arr F S2x800000 .i32) (h47 : V (main_v47 : DevRef τ sig) = Gcn.ends0 e) (h48 : V (main_v48 : DevRef τ sig) = Gcn.ends1 e)
    (hc : V (main_cst_8 : DevRef τ sig) = (constant S_ .f32 0x3F800000#32 : Gcn.Arr F S_ .f32)) :
    after opsC V (main_v81 : DevRef τ sig) = Gcn.agg120 (V (main_v45 : DevRef τ sig)) e := by
  after_results_simp
  rw [h47, h48, hc]
  rfl

attribute [local irreducible] Host.scatterAdd Host.gather Host.reduce Host.reduceAdd concatenate in
set_option maxRecDepth 8192 in
/-- The second layer's bias and rectifier. -/
theorem E_v85 (V : Valuation τ sig (Elt F)) :
    after opsE V (main_v85 : DevRef τ sig) = Gcn.biasLeaky120 (V (main_v81 : DevRef τ sig)) (Gcn.row120 (V (main_arg4 : DevRef τ sig))) := by
  after_results_simp
  rfl

attribute [local irreducible] Host.scatterAdd Host.gather Host.reduce Host.reduceAdd concatenate in
/-- The third matrix product plus its bias row. -/
theorem G_v89 (V : Valuation τ sig (Elt F)) :
    after opsG V (main_v89 : DevRef τ sig) = Gcn.logits (V (main_v85 : DevRef τ sig)) (V (main_arg5 : DevRef τ sig)) (Gcn.row16 (V (main_arg6 : DevRef τ sig))) := by
  after_results_simp
  rfl

attribute [local irreducible] Host.scatterAdd Host.gather Host.reduce Host.reduceAdd concatenate in
set_option maxRecDepth 8192 in
/-- The row-wise log-softmax. -/
theorem H_v90 (V : Valuation τ sig (Elt F)) :
    after opsH V (main_v90 : DevRef τ sig) = Gcn.logSoftmax (V (main_v89 : DevRef τ sig)) := by
  after_results_simp
  rfl

/-! ## What each cut leaves alone: the arguments (no operation writes one), and the two rows across the first rectifier -/

theorem A_arg0 (V : Valuation τ sig (Elt F)) : after opsA V (main_arg0 : DevRef τ sig) = V (main_arg0 : DevRef τ sig) := by after_results_simp
theorem A_arg1 (V : Valuation τ sig (Elt F)) : after opsA V (main_arg1 : DevRef τ sig) = V (main_arg1 : DevRef τ sig) := by after_results_simp
theorem A_arg2 (V : Valuation τ sig (Elt F)) : after opsA V (main_arg2 : DevRef τ sig) = V (main_arg2 : DevRef τ sig) := by after_results_simp
theorem A_arg3 (V : Valuation τ sig (Elt F)) : after opsA V (main_arg3 : DevRef τ sig) = V (main_arg3 : DevRef τ sig) := by after_results_simp
theorem A_arg4 (V : Valuation τ sig (Elt F)) : after opsA V (main_arg4 : DevRef τ sig) = V (main_arg4 : DevRef τ sig) := by after_results_simp
theorem A_arg5 (V : Valuation τ sig (Elt F)) : after opsA V (main_arg5 : DevRef τ sig) = V (main_arg5 : DevRef τ sig) := by after_results_simp
theorem A_arg6 (V : Valuation τ sig (Elt F)) : after opsA V (main_arg6 : DevRef τ sig) = V (main_arg6 : DevRef τ sig) := by after_results_simp
theorem A_arg7 (V : Valuation τ sig (Elt F)) : after opsA V (main_arg7 : DevRef τ sig) = V (main_arg7 : DevRef τ sig) := by after_results_simp
theorem B_arg0 (V : Valuation τ sig (Elt F)) : after opsB V (main_arg0 : DevRef τ sig) = V (main_arg0 : DevRef τ sig) := by after_results_simp
theorem B_arg1 (V : Valuation τ sig (Elt F)) : after opsB V (main_arg1 : DevRef τ sig) = V (main_arg1 : DevRef τ sig) := by after_results_simp
theorem B_arg2 (V : Valuation τ sig (Elt F)) : after opsB V (main_arg2 : DevRef τ sig) = V (main_arg2 : DevRef τ sig) := by after_results_simp
theorem B_arg3 (V : Valuation τ sig (Elt F)) : after opsB V (main_arg3 : DevRef τ sig) = V (main_arg3 : DevRef τ sig) := by after_results_simp
theorem B_arg4 (V : Valuation τ sig (Elt F)) : after opsB V (main_arg4 : DevRef τ sig) = V (main_arg4 : DevRef τ sig) := by after_results_simp
theorem B_arg5 (V : Valuation τ sig (Elt F)) : after opsB V (main_arg5 : DevRef τ sig) = V (main_arg5 : DevRef τ sig) := by after_results_simp
theorem B_arg6 (V : Valuation τ sig (Elt F)) : after opsB V (main_arg6 : DevRef τ sig) = V (main_arg6 : DevRef τ sig) := by after_results_simp
theorem B_arg7 (V : Valuation τ sig (Elt F)) : after opsB V (main_arg7 : DevRef τ sig) = V (main_arg7 : DevRef τ sig) := by after_results_simp
theorem P_arg0 (V : Valuation τ sig (Elt F)) : after opsP V (main_arg0 : DevRef τ sig) = V (main_arg0 : DevRef τ sig) := by after_results_simp
theorem P_arg1 (V : Valuation τ sig (Elt F)) : after opsP V (main_arg1 : DevRef τ sig) = V (main_arg1 : DevRef τ sig) := by after_results_simp
theorem P_arg2 (V : Valuation τ sig (Elt F)) : after opsP V (main_arg2 : DevRef τ sig) = V (main_arg2 : DevRef τ sig) := by after_results_simp
theorem P_arg3 (V : Valuation τ sig (Elt F)) : after opsP V (main_arg3 : DevRef τ sig) = V (main_arg3 : DevRef τ sig) := by after_results_simp
theorem P_arg4 (V : Valuation τ sig (Elt F)) : after opsP V (main_arg4 : DevRef τ sig) = V (main_arg4 : DevRef τ sig) := by after_results_simp
theorem P_arg5 (V : Valuation τ sig (Elt F)) : after opsP V (main_arg5 : DevRef τ sig) = V (main_arg5 : DevRef τ sig) := by after_results_simp
theorem P_arg6 (V : Valuation τ sig (Elt F)) : after opsP V (main_arg6 : DevRef τ sig) = V (main_arg6 : DevRef τ sig) := by after_results_simp
theorem P_arg7 (V : Valuation τ sig (Elt F)) : after opsP V (main_arg7 : DevRef τ sig) = V (main_arg7 : DevRef τ sig) := by after_results_simp
theorem C_arg0 (V : Valuation τ sig (Elt F)) : after opsC V (main_arg0 : DevRef τ sig) = V (main_arg0 : DevRef τ sig) := by after_results_simp
theorem C_arg1 (V : Valuation τ sig (Elt F)) : after opsC V (main_arg1 : DevRef τ sig) = V (main_arg1 : DevRef τ sig) := by after_results_simp
theorem C_arg2 (V : Valuation τ sig (Elt F)) : after opsC V (main_arg2 : DevRef τ sig) = V (main_arg2 : DevRef τ sig) := by after_results_simp
theorem C_arg3 (V : Valuation τ sig (Elt F)) : after opsC V (main_arg3 : DevRef τ sig) = V (main_arg3 : DevRef τ sig) := by after_results_simp
theorem C_arg4 (V : Valuation τ sig (Elt F)) : after opsC V (main_arg4 : DevRef τ sig) = V (main_arg4 : DevRef τ sig) := by after_results_simp
theorem C_arg5 (V : Valuation τ sig (Elt F)) : after opsC V (main_arg5 : DevRef τ sig) = V (main_arg5 : DevRef τ sig) := by after_results_simp
theorem C_arg6 (V : Valuation τ sig (Elt F)) : after opsC V (main_arg6 : DevRef τ sig) = V (main_arg6 : DevRef τ sig) := by after_results_simp
theorem C_arg7 (V : Valuation τ sig (Elt F)) : after opsC V (main_arg7 : DevRef τ sig) = V (main_arg7 : DevRef τ sig) := by after_results_simp
theorem E_arg0 (V : Valuation τ sig (Elt F)) : after opsE V (main_arg0 : DevRef τ sig) = V (main_arg0 : DevRef τ sig) := by after_results_simp
theorem E_arg1 (V : Valuation τ sig (Elt F)) : after opsE V (main_arg1 : DevRef τ sig) = V (main_arg1 : DevRef τ sig) := by after_results_simp
theorem E_arg2 (V : Valuation τ sig (Elt F)) : after opsE V (main_arg2 : DevRef τ sig) = V (main_arg2 : DevRef τ sig) := by after_results_simp
theorem E_arg3 (V : Valuation τ sig (Elt F)) : after opsE V (main_arg3 : DevRef τ sig) = V (main_arg3 : DevRef τ sig) := by after_results_simp
theorem E_arg4 (V : Valuation τ sig (Elt F)) : after opsE V (main_arg4 : DevRef τ sig) = V (main_arg4 : DevRef τ sig) := by after_results_simp
theorem E_arg5 (V : Valuation τ sig (Elt F)) : after opsE V (main_arg5 : DevRef τ sig) = V (main_arg5 : DevRef τ sig) := by after_results_simp
theorem E_arg6 (V : Valuation τ sig (Elt F)) : after opsE V (main_arg6 : DevRef τ sig) = V (main_arg6 : DevRef τ sig) := by after_results_simp
theorem E_arg7 (V : Valuation τ sig (Elt F)) : after opsE V (main_arg7 : DevRef τ sig) = V (main_arg7 : DevRef τ sig) := by after_results_simp
theorem G_arg0 (V : Valuation τ sig (Elt F)) : after opsG V (main_arg0 : DevRef τ sig) = V (main_arg0 : DevRef τ sig) := by after_results_simp
theorem G_arg1 (V : Valuation τ sig (Elt F)) : after opsG V (main_arg1 : DevRef τ sig) = V (main_arg1 : DevRef τ sig) := by after_results_simp
theorem G_arg2 (V : Valuation τ sig (Elt F)) : after opsG V (main_arg2 : DevRef τ sig) = V (main_arg2 : DevRef τ sig) := by after_results_simp
theorem G_arg3 (V : Valuation τ sig (Elt F)) : after opsG V (main_arg3 : DevRef τ sig) = V (main_arg3 : DevRef τ sig) := by after_results_simp
theorem G_arg4 (V : Valuation τ sig (Elt F)) : after opsG V (main_arg4 : DevRef τ sig) = V (main_arg4 : DevRef τ sig) := by after_results_simp
theorem G_arg5 (V : Valuation τ sig (Elt F)) : after opsG V (main_arg5 : DevRef τ sig) = V (main_arg5 : DevRef τ sig) := by after_results_simp
theorem G_arg6 (V : Valuation τ sig (Elt F)) : after opsG V (main_arg6 : DevRef τ sig) = V (main_arg6 : DevRef τ sig) := by after_results_simp
theorem G_arg7 (V : Valuation τ sig (Elt F)) : after opsG V (main_arg7 : DevRef τ sig) = V (main_arg7 : DevRef τ sig) := by after_results_simp
theorem H_arg0 (V : Valuation τ sig (Elt F)) : after opsH V (main_arg0 : DevRef τ sig) = V (main_arg0 : DevRef τ sig) := by after_results_simp
theorem H_arg1 (V : Valuation τ sig (Elt F)) : after opsH V (main_arg1 : DevRef τ sig) = V (main_arg1 : DevRef τ sig) := by after_results_simp
theorem H_arg2 (V : Valuation τ sig (Elt F)) : after opsH V (main_arg2 : DevRef τ sig) = V (main_arg2 : DevRef τ sig) := by after_results_simp
theorem H_arg3 (V : Valuation τ sig (Elt F)) : after opsH V (main_arg3 : DevRef τ sig) = V (main_arg3 : DevRef τ sig) := by after_results_simp
theorem H_arg4 (V : Valuation τ sig (Elt F)) : after opsH V (main_arg4 : DevRef τ sig) = V (main_arg4 : DevRef τ sig) := by after_results_simp
theorem H_arg5 (V : Valuation τ sig (Elt F)) : after opsH V (main_arg5 : DevRef τ sig) = V (main_arg5 : DevRef τ sig) := by after_results_simp
theorem H_arg6 (V : Valuation τ sig (Elt F)) : after opsH V (main_arg6 : DevRef τ sig) = V (main_arg6 : DevRef τ sig) := by after_results_simp
theorem H_arg7 (V : Valuation τ sig (Elt F)) : after opsH V (main_arg7 : DevRef τ sig) = V (main_arg7 : DevRef τ sig) := by after_results_simp
theorem B_v1 (V : Valuation τ sig (Elt F)) : after opsB V (main_v1 : DevRef τ sig) = V (main_v1 : DevRef τ sig) := by after_results_simp
theorem B_v3 (V : Valuation τ sig (Elt F)) : after opsB V (main_v3 : DevRef τ sig) = V (main_v3 : DevRef τ sig) := by after_results_simp

/-! ## The whole line -/

/-- The result buffer ends at the network's value of the arguments. -/
theorem out_eq (V : Valuation τ sig (Elt F)) :
    after (ops0 ++ ops1) V (main_v90 : DevRef τ sig)
      = Gcn.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  have hB1 : (after opsB (after opsA V)) (main_v1 : DevRef τ sig) = srcRow (V (main_arg7 : DevRef τ sig)) := by rw [B_v1, A_v1]
  have hB3 : (after opsB (after opsA V)) (main_v3 : DevRef τ sig) = dstRow (V (main_arg7 : DevRef τ sig)) := by rw [B_v3, A_v3]
  have hB44 : (after opsB (after opsA V)) (main_v44 : DevRef τ sig) = (Gcn.biasLeaky180 (Gcn.agg180 (Gcn.mm1 (V (main_arg0 : DevRef τ sig)) (V (main_arg1 : DevRef τ sig))) (V (main_arg7 : DevRef τ sig))) (Gcn.row180 (V (main_arg2 : DevRef τ sig)))) := by rw [B_v44, A_v40, A_arg2]
  have hP45 : (after opsP (after opsB (after opsA V))) (main_v45 : DevRef τ sig) = Gcn.mm2 (Gcn.biasLeaky180 (Gcn.agg180 (Gcn.mm1 (V (main_arg0 : DevRef τ sig)) (V (main_arg1 : DevRef τ sig))) (V (main_arg7 : DevRef τ sig))) (Gcn.row180 (V (main_arg2 : DevRef τ sig)))) (V (main_arg3 : DevRef τ sig)) := by rw [P_v45, hB44, B_arg3, A_arg3]
  have hC81 : (after opsC (after opsP (after opsB (after opsA V)))) (main_v81 : DevRef τ sig) = Gcn.agg120 (Gcn.mm2 (Gcn.biasLeaky180 (Gcn.agg180 (Gcn.mm1 (V (main_arg0 : DevRef τ sig)) (V (main_arg1 : DevRef τ sig))) (V (main_arg7 : DevRef τ sig))) (Gcn.row180 (V (main_arg2 : DevRef τ sig)))) (V (main_arg3 : DevRef τ sig))) (V (main_arg7 : DevRef τ sig)) := by
    rw [C_v81 _ (V (main_arg7 : DevRef τ sig)) (P_v47 _ _ hB1) (P_v48 _ _ hB3) (P_cst8 _), hP45]
  have hE85 : (after opsE (after opsC (after opsP (after opsB (after opsA V))))) (main_v85 : DevRef τ sig) = (Gcn.biasLeaky120 (Gcn.agg120 (Gcn.mm2 (Gcn.biasLeaky180 (Gcn.agg180 (Gcn.mm1 (V (main_arg0 : DevRef τ sig)) (V (main_arg1 : DevRef τ sig))) (V (main_arg7 : DevRef τ sig))) (Gcn.row180 (V (main_arg2 : DevRef τ sig)))) (V (main_arg3 : DevRef τ sig))) (V (main_arg7 : DevRef τ sig))) (Gcn.row120 (V (main_arg4 : DevRef τ sig)))) := by
    rw [E_v85, hC81, C_arg4, P_arg4, B_arg4, A_arg4]
  have hG89 : (after opsG (after opsE (after opsC (after opsP (after opsB (after opsA V)))))) (main_v89 : DevRef τ sig) = (Gcn.logits (Gcn.biasLeaky120 (Gcn.agg120 (Gcn.mm2 (Gcn.biasLeaky180 (Gcn.agg180 (Gcn.mm1 (V (main_arg0 : DevRef τ sig)) (V (main_arg1 : DevRef τ sig))) (V (main_arg7 : DevRef τ sig))) (Gcn.row180 (V (main_arg2 : DevRef τ sig)))) (V (main_arg3 : DevRef τ sig))) (V (main_arg7 : DevRef τ sig))) (Gcn.row120 (V (main_arg4 : DevRef τ sig)))) (V (main_arg5 : DevRef τ sig)) (Gcn.row16 (V (main_arg6 : DevRef τ sig)))) := by
    rw [G_v89, hE85, E_arg5, C_arg5, P_arg5, B_arg5, A_arg5, E_arg6, C_arg6, P_arg6, B_arg6, A_arg6]
  rw [ops_cut]
  simp only [after_append]
  rw [H_v90, hG89]
  rfl

/-- Argument 0 is unchanged. -/
theorem arg0_eq (V : Valuation τ sig (Elt F)) : after (ops0 ++ ops1) V (main_arg0 : DevRef τ sig) = V (main_arg0 : DevRef τ sig) := by
  rw [ops_cut]; simp only [after_append]; rw [H_arg0, G_arg0, E_arg0, C_arg0, P_arg0, B_arg0, A_arg0]

/-- Argument 1 is unchanged. -/
theorem arg1_eq (V : Valuation τ sig (Elt F)) : after (ops0 ++ ops1) V (main_arg1 : DevRef τ sig) = V (main_arg1 : DevRef τ sig) := by
  rw [ops_cut]; simp only [after_append]; rw [H_arg1, G_arg1, E_arg1, C_arg1, P_arg1, B_arg1, A_arg1]

/-- Argument 2 is unchanged. -/
theorem arg2_eq (V : Valuation τ sig (Elt F)) : after (ops0 ++ ops1) V (main_arg2 : DevRef τ sig) = V (main_arg2 : DevRef τ sig) := by
  rw [ops_cut]; simp only [after_append]; rw [H_arg2, G_arg2, E_arg2, C_arg2, P_arg2, B_arg2, A_arg2]

/-- Argument 3 is unchanged. -/
theorem arg3_eq (V : Valuation τ sig (Elt F)) : after (ops0 ++ ops1) V (main_arg3 : DevRef τ sig) = V (main_arg3 : DevRef τ sig) := by
  rw [ops_cut]; simp only [after_append]; rw [H_arg3, G_arg3, E_arg3, C_arg3, P_arg3, B_arg3, A_arg3]

/-- Argument 4 is unchanged. -/
theorem arg4_eq (V : Valuation τ sig (Elt F)) : after (ops0 ++ ops1) V (main_arg4 : DevRef τ sig) = V (main_arg4 : DevRef τ sig) := by
  rw [ops_cut]; simp only [after_append]; rw [H_arg4, G_arg4, E_arg4, C_arg4, P_arg4, B_arg4, A_arg4]

/-- Argument 5 is unchanged. -/
theorem arg5_eq (V : Valuation τ sig (Elt F)) : after (ops0 ++ ops1) V (main_arg5 : DevRef τ sig) = V (main_arg5 : DevRef τ sig) := by
  rw [ops_cut]; simp only [after_append]; rw [H_arg5, G_arg5, E_arg5, C_arg5, P_arg5, B_arg5, A_arg5]

/-- Argument 6 is unchanged. -/
theorem arg6_eq (V : Valuation τ sig (Elt F)) : after (ops0 ++ ops1) V (main_arg6 : DevRef τ sig) = V (main_arg6 : DevRef τ sig) := by
  rw [ops_cut]; simp only [after_append]; rw [H_arg6, G_arg6, E_arg6, C_arg6, P_arg6, B_arg6, A_arg6]

/-- Argument 7 is unchanged. -/
theorem arg7_eq (V : Valuation τ sig (Elt F)) : after (ops0 ++ ops1) V (main_arg7 : DevRef τ sig) = V (main_arg7 : DevRef τ sig) := by
  rw [ops_cut]; simp only [after_append]; rw [H_arg7, G_arg7, E_arg7, C_arg7, P_arg7, B_arg7, A_arg7]

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., binary_bufs_sub .., nullary_bufs_sub ..⟩

theorem ops1_sub : (ops1 : List (HloOp τ sig (Elt F))).Forall fun op => op.bufs ⊆ tcRefs τ sig :=
  ⟨unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every operation touches the TensorCore's buffers only. -/
theorem ops_sub : (ops0 ++ ops1 : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation determines its results. -/
theorem ops_fresh : ∀ op ∈ (ops0 ++ ops1 : List (HloOp τ sig (Elt F))), op.fresh = ∅ :=
  fun op h => (List.mem_append.mp h).elim
    (List.forall_iff_forall_mem.mp ops0_fresh op) (List.forall_iff_forall_mem.mp ops1_fresh op)

/-- Every weakly fair execution of the reference terminates with its result at the network's value of the argument
    arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v90) = Cert.Gcn.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  exact (θ_run defs _ _).mono (fun _ h c => ⟨(h c main_v90).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_seq scopedRefs_eq scopedSems_eq defs main (fun _ => ops0 ++ ops1) main_eq (fun _ => ops_sub) m ρ (fun _ => ops_fresh))

end Cert.ReferenceIdeal.RefRun

end
-- ==== Proof.lean ====
/-
  The kernel program runs a two-layer graph convolution network in five tiled regions (two matrix products, two
  bias-and-leaky steps, and the head: a matrix product, a bias and a row-wise log-softmax) with the degree weights and the
  two propagation steps computed between them by whole-array gathers and scatter-adds; the reference computes the same
  network with whole-array operations only. Over the extended reals the two agree entry by entry:

  * a region's 50 blocks of 2000 rows tile its output array, and each block is the matching block of the
    reference's whole-array operation (a row of a matrix product, of the bias step or of the head depends on that row of
    the input only);
  * the weights and the propagation steps are the same whole-array operations in both programs;
  * the kernel keeps an entry `v` when `v > 0` and otherwise takes `v · slope`, the reference keeps it when `v ≥ 0`
    and otherwise takes `slope · v`: at `v = 0` both are `0`;
  * the reference's row maximum is taken once more against the least value, which changes nothing.

  No step needs the inputs finite. The idealization rewrote nothing, so it has nothing to preserve.
-/
import proofs.«178770_j81570018886156_1_alg».proof.Defs
import proofs.«178770_j81570018886156_1_alg».proof.Proof.Gen.Kernel
import proofs.«178770_j81570018886156_1_alg».proof.Proof.Gen.Kernel.Frame
import proofs.«178770_j81570018886156_1_alg».proof.Proof.Gen.KernelIdeal
import proofs.«178770_j81570018886156_1_alg».proof.Proof.Gen.KernelIdeal.Frame
import proofs.«178770_j81570018886156_1_alg».proof.Proof.Gen.ReferenceIdeal
import proofs.«178770_j81570018886156_1_alg».proof.Proof.Gen.Pre_finite_inputs
import proofs.«178770_j81570018886156_1_alg».proof.Proof.Spec
import proofs.«178770_j81570018886156_1_alg».proof.Proof.KRun
import proofs.«178770_j81570018886156_1_alg».proof.Proof.KWalk
import proofs.«178770_j81570018886156_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.RefRun.run m ρ)

/-- Both runs end with the result array at the network's value of the argument arrays, which agree. -/
theorem algebraic : Cert.algebraic_KernelIdeal_ReferenceIdeal := by
  intro m ρ m' ρ' _ hagree
  refine ⟨fun c => Cert.Gcn.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Walk.W9_out m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.RefRun.run m' ρ')
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
